-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x384x384 : Shape := ⟨4, ![32, 3, 384, 384]⟩
abbrev S32x576 : Shape := ⟨2, ![32, 576]⟩
abbrev S768x768 : Shape := ⟨2, ![768, 768]⟩
abbrev S768 : Shape := ⟨1, ![768]⟩
abbrev S_ : Shape := ⟨0, ![]⟩

class Facts : Prop where
  bcast_S_S32x3x384x384 : S_.BroadcastsInDim S32x3x384x384 (![] : Fin 0 → Fin S32x3x384x384.rank)
  reducesTo_S32x3x384x384_S_d0_1_2_3 : S32x3x384x384.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S32x576 : S_.BroadcastsInDim S32x576 (![] : Fin 0 → Fin S32x576.rank)
  reducesTo_S32x576_S_d0_1 : S32x576.ReducesTo [0, 1] S_

variable [Facts]

def fn_part1 {F : FTy → Type} [FloatOps F] (main_arg1 : IVec S32x576 32) (main_arg2 : IVec S32x576 32) (main_v13 : IVec S_ 1) (main_v15 : IVec S32x576 1) (main_c_5 : IVec S_ 32) : IVec S_ 1 :=
  let main_v16 : IVec S32x576 32 := broadcastInDim S32x576 ![] bcast_S_S32x576 main_c_5
  let main_v17 : IVec S32x576 1 := cmpi .sle main_arg1 main_v16
  let main_v18 : IVec S32x576 1 := andi main_v15 main_v17
  let main_c_6 : IVec S_ 1 := constantI S_ 1 1#1
  let main_v19 : IVec S_ 1 := (fun x v => Host.reduce IntOp.andi x v reducesTo_S32x576_S_d0_1 h_S_) main_v18 main_c_6
  let main_v20 : IVec S_ 1 := andi main_v13 main_v19
  let main_c_7 : IVec S_ 32 := constantI S_ 32 0#32
  let main_v21 : IVec S32x576 32 := broadcastInDim S32x576 ![] bcast_S_S32x576 main_c_7
  let main_v22 : IVec S32x576 1 := cmpi .sge main_arg2 main_v21
  let main_c_8 : IVec S_ 32 := constantI S_ 32 368#32
  let main_v23 : IVec S32x576 32 := broadcastInDim S32x576 ![] bcast_S_S32x576 main_c_8
  let main_v24 : IVec S32x576 1 := cmpi .sle main_arg2 main_v23
  let main_v25 : IVec S32x576 1 := andi main_v22 main_v24
  let main_c_9 : IVec S_ 1 := constantI S_ 1 1#1
  let main_v26 : IVec S_ 1 := (fun x v => Host.reduce IntOp.andi x v reducesTo_S32x576_S_d0_1 h_S_) main_v25 main_c_9
  let main_v27 : IVec S_ 1 := andi main_v20 main_v26
  main_v27

def fn {F : FTy → Type} [FloatOps F] (main_arg0 : FVec F S32x3x384x384 .f32) (main_arg1 : IVec S32x576 32) (main_arg2 : IVec S32x576 32) (main_arg3 : FVec F S768x768 .f32) (main_arg4 : FVec F S768 .f32) : IVec S_ 1 :=
  let main_v0 : FVec F S32x3x384x384 .f32 := Host.absf main_arg0
  let main_cst : FVec F S_ .f32 := constant S_ .f32 0x7F800000#32
  let main_v1 : FVec F S32x3x384x384 .f32 := broadcastInDim S32x3x384x384 ![] bcast_S_S32x3x384x384 main_cst
  let main_v2 : IVec S32x3x384x384 1 := cmpf .olt main_v0 main_v1
  let main_c : IVec S_ 1 := constantI S_ 1 1#1
  let main_v3 : IVec S_ 1 := (fun x v => Host.reduce IntOp.andi x v reducesTo_S32x3x384x384_S_d0_1_2_3 h_S_) main_v2 main_c
  let main_v4 : FVec F S768x768 .f32 := Host.absf main_arg3
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_c_4 : IVec S_ 32 := constantI S_ 32 0#32
  let main_v14 : IVec S32x576 32 := broadcastInDim S32x576 ![] bcast_S_S32x576 main_c_4
  let main_v15 : IVec S32x576 1 := cmpi .sge main_arg1 main_v14
  let main_c_5 : IVec S_ 32 := constantI S_ 32 368#32
  fn_part1 (F := F) main_arg1 main_arg2 main_v13 main_v15 main_c_5
-- ==== Kernel.lean ====
abbrev S32x3x384x384 : Shape := ⟨4, ![32, 3, 384, 384]⟩
abbrev S32x576 : Shape := ⟨2, ![32, 576]⟩
abbrev S768x768 : Shape := ⟨2, ![768, 768]⟩
abbrev S768 : Shape := ⟨1, ![768]⟩
abbrev S32x576x768 : Shape := ⟨3, ![32, 576, 768]⟩
abbrev S1x3x384x384 : Shape := ⟨4, ![1, 3, 384, 384]⟩
abbrev S1x576x768 : Shape := ⟨3, ![1, 576, 768]⟩
abbrev S576x768 : Shape := ⟨2, ![576, 768]⟩
abbrev S1x1 : Shape := ⟨2, ![1, 1]⟩
abbrev S1x3x16x16 : Shape := ⟨4, ![1, 3, 16, 16]⟩
abbrev S3x16x16 : Shape := ⟨3, ![3, 16, 16]⟩
abbrev S1x768 : Shape := ⟨2, ![1, 768]⟩
abbrev S16x768 : Shape := ⟨2, ![16, 768]⟩

abbrev nBuf : Space → Nat
  | .hbm => 6
  | .vmem => 7
  | .smem => 2
  | _ => 0

abbrev bufTy : (tb : Table) → Fin (tcTables nBuf tb) → BufTy
  | .hbm, ⟨0, _⟩ => ⟨S32x3x384x384, .f32⟩
  | .hbm, ⟨1, _⟩ => ⟨S768x768, .f32⟩
  | .hbm, ⟨2, _⟩ => ⟨S768, .f32⟩
  | .hbm, ⟨3, _⟩ => ⟨S768x768, .bf16⟩
  | .hbm, ⟨4, _⟩ => ⟨S768x768, .bf16⟩
  | .hbm, ⟨5, _⟩ => ⟨S32x576x768, .f32⟩
  | .local _ .vmem, ⟨0, _⟩ => ⟨S1x3x384x384, .f32⟩
  | .local _ .vmem, ⟨1, _⟩ => ⟨S1x3x384x384, .f32⟩
  | .local _ .vmem, ⟨2, _⟩ => ⟨S768x768, .bf16⟩
  | .local _ .vmem, ⟨3, _⟩ => ⟨S768, .f32⟩
  | .local _ .vmem, ⟨4, _⟩ => ⟨S1x576x768, .f32⟩
  | .local _ .vmem, ⟨5, _⟩ => ⟨S1x576x768, .f32⟩
  | .local _ .vmem, ⟨6, _⟩ => ⟨S576x768, .bf16⟩
  | .local _ .smem, ⟨0, _⟩ => ⟨S32x576, .i32⟩
  | .local _ .smem, ⟨1, _⟩ => ⟨S32x576, .i32⟩
  | _, _ => ⟨S32x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c36_i32 : BitVec 32 := 36#32
  let v0 : BitVec 32 := Scalar.addi c0_i32 c36_i32
  let c1_i32 : BitVec 32 := 1#32
  ⟨c0_i32, v0, c1_i32⟩
def k0_off1 (i : grid0.Coords) (k0_t1 : Fin k0_t1_loop.trips) : Fin 2 → Nat :=
  let arg0 : BitVec 32 := BitVec.ofNat 32 (i 0).val
  let v16 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c0_i32_10 : BitVec 32 := 0#32
  let v15 : BitVec 32 := Scalar.addi v14 c0_i32_10
  let v17 : Index := Scalar.indexCast v15
  ![v16.toNat, v17.toNat]
def k0_off2 (v18 : BitVec 32) (v21 : BitVec 32) : Fin 4 → Nat :=
  let c0_11 : Index := 0#32
  let c0_12 : Index := 0#32
  let v22 : Index := Scalar.indexCast v18
  let v23 : Index := Scalar.indexCast v21
  ![0, 0, v22.toNat, v23.toNat]

def k0_chk1 (v18 : BitVec 32) (v21 : BitVec 32) : Prop :=
  (∀ a, (k0_off2 v18 v21) a + S1x3x16x16.size a ≤ S1x3x384x384.size a)
instance k0_chk1.dec : ∀ (v18 : BitVec 32) (v21 : BitVec 32), Decidable (k0_chk1 v18 v21) := fun v18 v21 => decidable_of_iff' _ (Iff.of_eq (k0_chk1.eq_1 v18 v21))
theorem k0_off2_inb : ∀ (v18 : BitVec 32) (v21 : BitVec 32) (k0_hw1 : k0_chk1 v18 v21), ∀ a, (k0_off2 v18 v21) a + S1x3x16x16.size a ≤ S1x3x384x384.size a := fun v18 v21 k0_hw1 => k0_hw1

def k0_off3 (i : grid0.Coords) (k0_t1 : Fin k0_t1_loop.trips) : Fin 2 → Nat :=
  let arg0 : BitVec 32 := BitVec.ofNat 32 (i 0).val
  let v28 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c1_i32_13 : BitVec 32 := 1#32
  let v27 : BitVec 32 := Scalar.addi v14 c1_i32_13
  let v29 : Index := Scalar.indexCast v27
  ![v28.toNat, v29.toNat]
def k0_off4 (v30 : BitVec 32) (v33 : BitVec 32) : Fin 4 → Nat :=
  let c0_14 : Index := 0#32
  let c0_15 : Index := 0#32
  let v34 : Index := Scalar.indexCast v30
  let v35 : Index := Scalar.indexCast v33
  ![0, 0, v34.toNat, v35.toNat]

def k0_chk2 (v30 : BitVec 32) (v33 : BitVec 32) : Prop :=
  (∀ a, (k0_off4 v30 v33) a + S1x3x16x16.size a ≤ S1x3x384x384.size a)
instance k0_chk2.dec : ∀ (v30 : BitVec 32) (v33 : BitVec 32), Decidable (k0_chk2 v30 v33) := fun v30 v33 => decidable_of_iff' _ (Iff.of_eq (k0_chk2.eq_1 v30 v33))
theorem k0_off4_inb : ∀ (v30 : BitVec 32) (v33 : BitVec 32) (k0_hw2 : k0_chk2 v30 v33), ∀ a, (k0_off4 v30 v33) a + S1x3x16x16.size a ≤ S1x3x384x384.size a := fun v30 v33 k0_hw2 => k0_hw2

def k0_off5 (i : grid0.Coords) (k0_t1 : Fin k0_t1_loop.trips) : Fin 2 → Nat :=
  let arg0 : BitVec 32 := BitVec.ofNat 32 (i 0).val
  let v40 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c2_i32 : BitVec 32 := 2#32
  let v39 : BitVec 32 := Scalar.addi v14 c2_i32
  let v41 : Index := Scalar.indexCast v39
  ![v40.toNat, v41.toNat]
def k0_off6 (v42 : BitVec 32) (v45 : BitVec 32) : Fin 4 → Nat :=
  let c0_16 : Index := 0#32
  let c0_17 : Index := 0#32
  let v46 : Index := Scalar.indexCast v42
  let v47 : Index := Scalar.indexCast v45
  ![0, 0, v46.toNat, v47.toNat]

def k0_chk3 (v42 : BitVec 32) (v45 : BitVec 32) : Prop :=
  (∀ a, (k0_off6 v42 v45) a + S1x3x16x16.size a ≤ S1x3x384x384.size a)
instance k0_chk3.dec : ∀ (v42 : BitVec 32) (v45 : BitVec 32), Decidable (k0_chk3 v42 v45) := fun v42 v45 => decidable_of_iff' _ (Iff.of_eq (k0_chk3.eq_1 v42 v45))
theorem k0_off6_inb : ∀ (v42 : BitVec 32) (v45 : BitVec 32) (k0_hw3 : k0_chk3 v42 v45), ∀ a, (k0_off6 v42 v45) a + S1x3x16x16.size a ≤ S1x3x384x384.size a := fun v42 v45 k0_hw3 => k0_hw3

def k0_off7 (i : grid0.Coords) (k0_t1 : Fin k0_t1_loop.trips) : Fin 2 → Nat :=
  let arg0 : BitVec 32 := BitVec.ofNat 32 (i 0).val
  let v52 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c3_i32 : BitVec 32 := 3#32
  let v51 : BitVec 32 := Scalar.addi v14 c3_i32
  let v53 : Index := Scalar.indexCast v51
  ![v52.toNat, v53.toNat]
def k0_off8 (v54 : BitVec 32) (v57 : BitVec 32) : Fin 4 → Nat :=
  let c0_18 : Index := 0#32
  let c0_19 : Index := 0#32
  let v58 : Index := Scalar.indexCast v54
  let v59 : Index := Scalar.indexCast v57
  ![0, 0, v58.toNat, v59.toNat]

def k0_chk4 (v54 : BitVec 32) (v57 : BitVec 32) : Prop :=
  (∀ a, (k0_off8 v54 v57) a + S1x3x16x16.size a ≤ S1x3x384x384.size a)
instance k0_chk4.dec : ∀ (v54 : BitVec 32) (v57 : BitVec 32), Decidable (k0_chk4 v54 v57) := fun v54 v57 => decidable_of_iff' _ (Iff.of_eq (k0_chk4.eq_1 v54 v57))
theorem k0_off8_inb : ∀ (v54 : BitVec 32) (v57 : BitVec 32) (k0_hw4 : k0_chk4 v54 v57), ∀ a, (k0_off8 v54 v57) a + S1x3x16x16.size a ≤ S1x3x384x384.size a := fun v54 v57 k0_hw4 => k0_hw4

def k0_off9 (i : grid0.Coords) (k0_t1 : Fin k0_t1_loop.trips) : Fin 2 → Nat :=
  let arg0 : BitVec 32 := BitVec.ofNat 32 (i 0).val
  let v64 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c4_i32 : BitVec 32 := 4#32
  let v63 : BitVec 32 := Scalar.addi v14 c4_i32
  let v65 : Index := Scalar.indexCast v63
  ![v64.toNat, v65.toNat]
def k0_off10 (v66 : BitVec 32) (v69 : BitVec 32) : Fin 4 → Nat :=
  let c0_20 : Index := 0#32
  let c0_21 : Index := 0#32
  let v70 : Index := Scalar.indexCast v66
  let v71 : Index := Scalar.indexCast v69
  ![0, 0, v70.toNat, v71.toNat]

def k0_chk5 (v66 : BitVec 32) (v69 : BitVec 32) : Prop :=
  (∀ a, (k0_off10 v66 v69) a + S1x3x16x16.size a ≤ S1x3x384x384.size a)
instance k0_chk5.dec : ∀ (v66 : BitVec 32) (v69 : BitVec 32), Decidable (k0_chk5 v66 v69) := fun v66 v69 => decidable_of_iff' _ (Iff.of_eq (k0_chk5.eq_1 v66 v69))
theorem k0_off10_inb : ∀ (v66 : BitVec 32) (v69 : BitVec 32) (k0_hw5 : k0_chk5 v66 v69), ∀ a, (k0_off10 v66 v69) a + S1x3x16x16.size a ≤ S1x3x384x384.size a := fun v66 v69 k0_hw5 => k0_hw5

def k0_off11 (i : grid0.Coords) (k0_t1 : Fin k0_t1_loop.trips) : Fin 2 → Nat :=
  let arg0 : BitVec 32 := BitVec.ofNat 32 (i 0).val
  let v76 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c5_i32 : BitVec 32 := 5#32
  let v75 : BitVec 32 := Scalar.addi v14 c5_i32
  let v77 : Index := Scalar.indexCast v75
  ![v76.toNat, v77.toNat]
def k0_off12 (v78 : BitVec 32) (v81 : BitVec 32) : Fin 4 → Nat :=
  let c0_22 : Index := 0#32
  let c0_23 : Index := 0#32
  let v82 : Index := Scalar.indexCast v78
  let v83 : Index := Scalar.indexCast v81
  ![0, 0, v82.toNat, v83.toNat]

def k0_chk6 (v78 : BitVec 32) (v81 : BitVec 32) : Prop :=
  (∀ a, (k0_off12 v78 v81) a + S1x3x16x16.size a ≤ S1x3x384x384.size a)
instance k0_chk6.dec : ∀ (v78 : BitVec 32) (v81 : BitVec 32), Decidable (k0_chk6 v78 v81) := fun v78 v81 => decidable_of_iff' _ (Iff.of_eq (k0_chk6.eq_1 v78 v81))
theorem k0_off12_inb : ∀ (v78 : BitVec 32) (v81 : BitVec 32) (k0_hw6 : k0_chk6 v78 v81), ∀ a, (k0_off12 v78 v81) a + S1x3x16x16.size a ≤ S1x3x384x384.size a := fun v78 v81 k0_hw6 => k0_hw6

def k0_off13 (i : grid0.Coords) (k0_t1 : Fin k0_t1_loop.trips) : Fin 2 → Nat :=
  let arg0 : BitVec 32 := BitVec.ofNat 32 (i 0).val
  let v88 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c6_i32 : BitVec 32 := 6#32
  let v87 : BitVec 32 := Scalar.addi v14 c6_i32
  let v89 : Index := Scalar.indexCast v87
  ![v88.toNat, v89.toNat]
def k0_off14 (v90 : BitVec 32) (v93 : BitVec 32) : Fin 4 → Nat :=
  let c0_24 : Index := 0#32
  let c0_25 : Index := 0#32
  let v94 : Index := Scalar.indexCast v90
  let v95 : Index := Scalar.indexCast v93
  ![0, 0, v94.toNat, v95.toNat]

def k0_chk7 (v90 : BitVec 32) (v93 : BitVec 32) : Prop :=
  (∀ a, (k0_off14 v90 v93) a + S1x3x16x16.size a ≤ S1x3x384x384.size a)
instance k0_chk7.dec : ∀ (v90 : BitVec 32) (v93 : BitVec 32), Decidable (k0_chk7 v90 v93) := fun v90 v93 => decidable_of_iff' _ (Iff.of_eq (k0_chk7.eq_1 v90 v93))
theorem k0_off14_inb : ∀ (v90 : BitVec 32) (v93 : BitVec 32) (k0_hw7 : k0_chk7 v90 v93), ∀ a, (k0_off14 v90 v93) a + S1x3x16x16.size a ≤ S1x3x384x384.size a := fun v90 v93 k0_hw7 => k0_hw7

def k0_off15 (i : grid0.Coords) (k0_t1 : Fin k0_t1_loop.trips) : Fin 2 → Nat :=
  let arg0 : BitVec 32 := BitVec.ofNat 32 (i 0).val
  let v100 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c7_i32 : BitVec 32 := 7#32
  let v99 : BitVec 32 := Scalar.addi v14 c7_i32
  let v101 : Index := Scalar.indexCast v99
  ![v100.toNat, v101.toNat]
def k0_off16 (v102 : BitVec 32) (v105 : BitVec 32) : Fin 4 → Nat :=
  let c0_26 : Index := 0#32
  let c0_27 : Index := 0#32
  let v106 : Index := Scalar.indexCast v102
  let v107 : Index := Scalar.indexCast v105
  ![0, 0, v106.toNat, v107.toNat]

def k0_chk8 (v102 : BitVec 32) (v105 : BitVec 32) : Prop :=
  (∀ a, (k0_off16 v102 v105) a + S1x3x16x16.size a ≤ S1x3x384x384.size a)
instance k0_chk8.dec : ∀ (v102 : BitVec 32) (v105 : BitVec 32), Decidable (k0_chk8 v102 v105) := fun v102 v105 => decidable_of_iff' _ (Iff.of_eq (k0_chk8.eq_1 v102 v105))
theorem k0_off16_inb : ∀ (v102 : BitVec 32) (v105 : BitVec 32) (k0_hw8 : k0_chk8 v102 v105), ∀ a, (k0_off16 v102 v105) a + S1x3x16x16.size a ≤ S1x3x384x384.size a := fun v102 v105 k0_hw8 => k0_hw8

def k0_off17 (i : grid0.Coords) (k0_t1 : Fin k0_t1_loop.trips) : Fin 2 → Nat :=
  let arg0 : BitVec 32 := BitVec.ofNat 32 (i 0).val
  let v112 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c8_i32 : BitVec 32 := 8#32
  let v111 : BitVec 32 := Scalar.addi v14 c8_i32
  let v113 : Index := Scalar.indexCast v111
  ![v112.toNat, v113.toNat]
def k0_off18 (v114 : BitVec 32) (v117 : BitVec 32) : Fin 4 → Nat :=
  let c0_28 : Index := 0#32
  let c0_29 : Index := 0#32
  let v118 : Index := Scalar.indexCast v114
  let v119 : Index := Scalar.indexCast v117
  ![0, 0, v118.toNat, v119.toNat]

def k0_chk9 (v114 : BitVec 32) (v117 : BitVec 32) : Prop :=
  (∀ a, (k0_off18 v114 v117) a + S1x3x16x16.size a ≤ S1x3x384x384.size a)
instance k0_chk9.dec : ∀ (v114 : BitVec 32) (v117 : BitVec 32), Decidable (k0_chk9 v114 v117) := fun v114 v117 => decidable_of_iff' _ (Iff.of_eq (k0_chk9.eq_1 v114 v117))
theorem k0_off18_inb : ∀ (v114 : BitVec 32) (v117 : BitVec 32) (k0_hw9 : k0_chk9 v114 v117), ∀ a, (k0_off18 v114 v117) a + S1x3x16x16.size a ≤ S1x3x384x384.size a := fun v114 v117 k0_hw9 => k0_hw9

def k0_off19 (i : grid0.Coords) (k0_t1 : Fin k0_t1_loop.trips) : Fin 2 → Nat :=
  let arg0 : BitVec 32 := BitVec.ofNat 32 (i 0).val
  let v124 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c9_i32 : BitVec 32 := 9#32
  let v123 : BitVec 32 := Scalar.addi v14 c9_i32
  let v125 : Index := Scalar.indexCast v123
  ![v124.toNat, v125.toNat]
def k0_off20 (v126 : BitVec 32) (v129 : BitVec 32) : Fin 4 → Nat :=
  let c0_30 : Index := 0#32
  let c0_31 : Index := 0#32
  let v130 : Index := Scalar.indexCast v126
  let v131 : Index := Scalar.indexCast v129
  ![0, 0, v130.toNat, v131.toNat]

def k0_chk10 (v126 : BitVec 32) (v129 : BitVec 32) : Prop :=
  (∀ a, (k0_off20 v126 v129) a + S1x3x16x16.size a ≤ S1x3x384x384.size a)
instance k0_chk10.dec : ∀ (v126 : BitVec 32) (v129 : BitVec 32), Decidable (k0_chk10 v126 v129) := fun v126 v129 => decidable_of_iff' _ (Iff.of_eq (k0_chk10.eq_1 v126 v129))
theorem k0_off20_inb : ∀ (v126 : BitVec 32) (v129 : BitVec 32) (k0_hw10 : k0_chk10 v126 v129), ∀ a, (k0_off20 v126 v129) a + S1x3x16x16.size a ≤ S1x3x384x384.size a := fun v126 v129 k0_hw10 => k0_hw10

def k0_off21 (i : grid0.Coords) (k0_t1 : Fin k0_t1_loop.trips) : Fin 2 → Nat :=
  let arg0 : BitVec 32 := BitVec.ofNat 32 (i 0).val
  let v136 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c10_i32 : BitVec 32 := 10#32
  let v135 : BitVec 32 := Scalar.addi v14 c10_i32
  let v137 : Index := Scalar.indexCast v135
  ![v136.toNat, v137.toNat]
def k0_off22 (v138 : BitVec 32) (v141 : BitVec 32) : Fin 4 → Nat :=
  let c0_32 : Index := 0#32
  let c0_33 : Index := 0#32
  let v142 : Index := Scalar.indexCast v138
  let v143 : Index := Scalar.indexCast v141
  ![0, 0, v142.toNat, v143.toNat]

def k0_chk11 (v138 : BitVec 32) (v141 : BitVec 32) : Prop :=
  (∀ a, (k0_off22 v138 v141) a + S1x3x16x16.size a ≤ S1x3x384x384.size a)
instance k0_chk11.dec : ∀ (v138 : BitVec 32) (v141 : BitVec 32), Decidable (k0_chk11 v138 v141) := fun v138 v141 => decidable_of_iff' _ (Iff.of_eq (k0_chk11.eq_1 v138 v141))
theorem k0_off22_inb : ∀ (v138 : BitVec 32) (v141 : BitVec 32) (k0_hw11 : k0_chk11 v138 v141), ∀ a, (k0_off22 v138 v141) a + S1x3x16x16.size a ≤ S1x3x384x384.size a := fun v138 v141 k0_hw11 => k0_hw11

def k0_off23 (i : grid0.Coords) (k0_t1 : Fin k0_t1_loop.trips) : Fin 2 → Nat :=
  let arg0 : BitVec 32 := BitVec.ofNat 32 (i 0).val
  let v148 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c11_i32 : BitVec 32 := 11#32
  let v147 : BitVec 32 := Scalar.addi v14 c11_i32
  let v149 : Index := Scalar.indexCast v147
  ![v148.toNat, v149.toNat]
def k0_off24 (v150 : BitVec 32) (v153 : BitVec 32) : Fin 4 → Nat :=
  let c0_34 : Index := 0#32
  let c0_35 : Index := 0#32
  let v154 : Index := Scalar.indexCast v150
  let v155 : Index := Scalar.indexCast v153
  ![0, 0, v154.toNat, v155.toNat]

def k0_chk12 (v150 : BitVec 32) (v153 : BitVec 32) : Prop :=
  (∀ a, (k0_off24 v150 v153) a + S1x3x16x16.size a ≤ S1x3x384x384.size a)
instance k0_chk12.dec : ∀ (v150 : BitVec 32) (v153 : BitVec 32), Decidable (k0_chk12 v150 v153) := fun v150 v153 => decidable_of_iff' _ (Iff.of_eq (k0_chk12.eq_1 v150 v153))
theorem k0_off24_inb : ∀ (v150 : BitVec 32) (v153 : BitVec 32) (k0_hw12 : k0_chk12 v150 v153), ∀ a, (k0_off24 v150 v153) a + S1x3x16x16.size a ≤ S1x3x384x384.size a := fun v150 v153 k0_hw12 => k0_hw12

def k0_off25 (i : grid0.Coords) (k0_t1 : Fin k0_t1_loop.trips) : Fin 2 → Nat :=
  let arg0 : BitVec 32 := BitVec.ofNat 32 (i 0).val
  let v160 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c12_i32 : BitVec 32 := 12#32
  let v159 : BitVec 32 := Scalar.addi v14 c12_i32
  let v161 : Index := Scalar.indexCast v159
  ![v160.toNat, v161.toNat]
def k0_off26 (v162 : BitVec 32) (v165 : BitVec 32) : Fin 4 → Nat :=
  let c0_36 : Index := 0#32
  let c0_37 : Index := 0#32
  let v166 : Index := Scalar.indexCast v162
  let v167 : Index := Scalar.indexCast v165
  ![0, 0, v166.toNat, v167.toNat]

def k0_chk13 (v162 : BitVec 32) (v165 : BitVec 32) : Prop :=
  (∀ a, (k0_off26 v162 v165) a + S1x3x16x16.size a ≤ S1x3x384x384.size a)
instance k0_chk13.dec : ∀ (v162 : BitVec 32) (v165 : BitVec 32), Decidable (k0_chk13 v162 v165) := fun v162 v165 => decidable_of_iff' _ (Iff.of_eq (k0_chk13.eq_1 v162 v165))
theorem k0_off26_inb : ∀ (v162 : BitVec 32) (v165 : BitVec 32) (k0_hw13 : k0_chk13 v162 v165), ∀ a, (k0_off26 v162 v165) a + S1x3x16x16.size a ≤ S1x3x384x384.size a := fun v162 v165 k0_hw13 => k0_hw13

def k0_off27 (i : grid0.Coords) (k0_t1 : Fin k0_t1_loop.trips) : Fin 2 → Nat :=
  let arg0 : BitVec 32 := BitVec.ofNat 32 (i 0).val
  let v172 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c13_i32 : BitVec 32 := 13#32
  let v171 : BitVec 32 := Scalar.addi v14 c13_i32
  let v173 : Index := Scalar.indexCast v171
  ![v172.toNat, v173.toNat]
def k0_off28 (v174 : BitVec 32) (v177 : BitVec 32) : Fin 4 → Nat :=
  let c0_38 : Index := 0#32
  let c0_39 : Index := 0#32
  let v178 : Index := Scalar.indexCast v174
  let v179 : Index := Scalar.indexCast v177
  ![0, 0, v178.toNat, v179.toNat]

def k0_chk14 (v174 : BitVec 32) (v177 : BitVec 32) : Prop :=
  (∀ a, (k0_off28 v174 v177) a + S1x3x16x16.size a ≤ S1x3x384x384.size a)
instance k0_chk14.dec : ∀ (v174 : BitVec 32) (v177 : BitVec 32), Decidable (k0_chk14 v174 v177) := fun v174 v177 => decidable_of_iff' _ (Iff.of_eq (k0_chk14.eq_1 v174 v177))
theorem k0_off28_inb : ∀ (v174 : BitVec 32) (v177 : BitVec 32) (k0_hw14 : k0_chk14 v174 v177), ∀ a, (k0_off28 v174 v177) a + S1x3x16x16.size a ≤ S1x3x384x384.size a := fun v174 v177 k0_hw14 => k0_hw14

def k0_off29 (i : grid0.Coords) (k0_t1 : Fin k0_t1_loop.trips) : Fin 2 → Nat :=
  let arg0 : BitVec 32 := BitVec.ofNat 32 (i 0).val
  let v184 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c14_i32 : BitVec 32 := 14#32
  let v183 : BitVec 32 := Scalar.addi v14 c14_i32
  let v185 : Index := Scalar.indexCast v183
  ![v184.toNat, v185.toNat]
def k0_off30 (v186 : BitVec 32) (v189 : BitVec 32) : Fin 4 → Nat :=
  let c0_40 : Index := 0#32
  let c0_41 : Index := 0#32
  let v190 : Index := Scalar.indexCast v186
  let v191 : Index := Scalar.indexCast v189
  ![0, 0, v190.toNat, v191.toNat]

def k0_chk15 (v186 : BitVec 32) (v189 : BitVec 32) : Prop :=
  (∀ a, (k0_off30 v186 v189) a + S1x3x16x16.size a ≤ S1x3x384x384.size a)
instance k0_chk15.dec : ∀ (v186 : BitVec 32) (v189 : BitVec 32), Decidable (k0_chk15 v186 v189) := fun v186 v189 => decidable_of_iff' _ (Iff.of_eq (k0_chk15.eq_1 v186 v189))
theorem k0_off30_inb : ∀ (v186 : BitVec 32) (v189 : BitVec 32) (k0_hw15 : k0_chk15 v186 v189), ∀ a, (k0_off30 v186 v189) a + S1x3x16x16.size a ≤ S1x3x384x384.size a := fun v186 v189 k0_hw15 => k0_hw15

def k0_off31 (i : grid0.Coords) (k0_t1 : Fin k0_t1_loop.trips) : Fin 2 → Nat :=
  let arg0 : BitVec 32 := BitVec.ofNat 32 (i 0).val
  let v196 : Index := Scalar.indexCast arg0
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let c15_i32 : BitVec 32 := 15#32
  let v195 : BitVec 32 := Scalar.addi v14 c15_i32
  let v197 : Index := Scalar.indexCast v195
  ![v196.toNat, v197.toNat]
def k0_off32 (v198 : BitVec 32) (v201 : BitVec 32) : Fin 4 → Nat :=
  let c0_42 : Index := 0#32
  let c0_43 : Index := 0#32
  let v202 : Index := Scalar.indexCast v198
  let v203 : Index := Scalar.indexCast v201
  ![0, 0, v202.toNat, v203.toNat]

def k0_chk16 (v198 : BitVec 32) (v201 : BitVec 32) : Prop :=
  (∀ a, (k0_off32 v198 v201) a + S1x3x16x16.size a ≤ S1x3x384x384.size a)
instance k0_chk16.dec : ∀ (v198 : BitVec 32) (v201 : BitVec 32), Decidable (k0_chk16 v198 v201) := fun v198 v201 => decidable_of_iff' _ (Iff.of_eq (k0_chk16.eq_1 v198 v201))
theorem k0_off32_inb : ∀ (v198 : BitVec 32) (v201 : BitVec 32) (k0_hw16 : k0_chk16 v198 v201), ∀ a, (k0_off32 v198 v201) a + S1x3x16x16.size a ≤ S1x3x384x384.size a := fun v198 v201 k0_hw16 => k0_hw16

def k0_off33 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v12 : BitVec 32 := Scalar.muli arg8 c1_i32_8
  let v13 : BitVec 32 := Scalar.addi c0_i32_9 v12
  let c16_i32 : BitVec 32 := 16#32
  let v14 : BitVec 32 := Scalar.muli v13 c16_i32
  let v225 : Index := Scalar.indexCast v14
  let c0_44 : Index := 0#32
  ![v225.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x576x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S768x768_S768x768_1_0 : S768x768.Transposes [1, 0] S768x768
  numel1_S1x1 : S1x1.numel = 1
  h_S1x3x16x16 : 0 < S1x3x16x16.numel
  shapeCasts_S1x3x16x16_S3x16x16 : S1x3x16x16.ShapeCasts S3x16x16
  shapeCasts_S3x16x16_S768 : S3x16x16.ShapeCasts S768
  shapeCasts_S768_S1x768 : S768.ShapeCasts S1x768
  concatenates_S1x768_S1x768_S1x768_S1x768_S1x768_S1x768_S1x768_S1x768_S1x768_S1x768_S1x768_S1x768_S1x768_S1x768_S1x768_S1x768_S16x768_d0 : Shape.Concatenates [S1x768, S1x768, S1x768, S1x768, S1x768, S1x768, S1x768, S1x768, S1x768, S1x768, S1x768, S1x768, S1x768, S1x768, S1x768, S1x768] S16x768 0
  h_S16x768 : 0 < S16x768.numel
  shapeCasts_S16x768_S16x768 : S16x768.ShapeCasts S16x768
  inb_S576x768_S576x768_0_0 : ∀ a, (![0, 0] : Fin 2 → Nat) a + S576x768.size a ≤ S576x768.size a
  h_S576x768 : 0 < S576x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  broadcasts_S1x768_S576x768 : S1x768.Broadcasts S576x768
  inb_S1x576x768_S1x576x768_0_0_0 : ∀ a, (![0, 0, 0] : Fin 3 → Nat) a + S1x576x768.size a ≤ S1x576x768.size a
  h_S1x576x768 : 0 < S1x576x768.numel
  shapeCasts_S1x576x768_S576x768 : S1x576x768.ShapeCasts S576x768
  shapeCasts_S576x768_S1x576x768 : S576x768.ShapeCasts S1x576x768
  dot_S576x768_S768x768_S576x768_1_0_0_1_n_n_wf : DotDims.WF S576x768 S768x768 S576x768 [1] [0] [0] [1] [] []
  hrank0 : 0 < grid0.rank
  k0_t1_ok : k0_t1_loop.OK
  k0_off1_inb : ∀ (i : grid0.Coords) (k0_t1 : Fin k0_t1_loop.trips), ∀ a, (k0_off1 i k0_t1) a + S1x1.size a ≤ S32x576.size a
  k0_off3_inb : ∀ (i : grid0.Coords) (k0_t1 : Fin k0_t1_loop.trips), ∀ a, (k0_off3 i k0_t1) a + S1x1.size a ≤ S32x576.size a
  k0_off5_inb : ∀ (i : grid0.Coords) (k0_t1 : Fin k0_t1_loop.trips), ∀ a, (k0_off5 i k0_t1) a + S1x1.size a ≤ S32x576.size a
  k0_off7_inb : ∀ (i : grid0.Coords) (k0_t1 : Fin k0_t1_loop.trips), ∀ a, (k0_off7 i k0_t1) a + S1x1.size a ≤ S32x576.size a
  k0_off9_inb : ∀ (i : grid0.Coords) (k0_t1 : Fin k0_t1_loop.trips), ∀ a, (k0_off9 i k0_t1) a + S1x1.size a ≤ S32x576.size a
  k0_off11_inb : ∀ (i : grid0.Coords) (k0_t1 : Fin k0_t1_loop.trips), ∀ a, (k0_off11 i k0_t1) a + S1x1.size a ≤ S32x576.size a
  k0_off13_inb : ∀ (i : grid0.Coords) (k0_t1 : Fin k0_t1_loop.trips), ∀ a, (k0_off13 i k0_t1) a + S1x1.size a ≤ S32x576.size a
  k0_off15_inb : ∀ (i : grid0.Coords) (k0_t1 : Fin k0_t1_loop.trips), ∀ a, (k0_off15 i k0_t1) a + S1x1.size a ≤ S32x576.size a
  k0_off17_inb : ∀ (i : grid0.Coords) (k0_t1 : Fin k0_t1_loop.trips), ∀ a, (k0_off17 i k0_t1) a + S1x1.size a ≤ S32x576.size a
  k0_off19_inb : ∀ (i : grid0.Coords) (k0_t1 : Fin k0_t1_loop.trips), ∀ a, (k0_off19 i k0_t1) a + S1x1.size a ≤ S32x576.size a
  k0_off21_inb : ∀ (i : grid0.Coords) (k0_t1 : Fin k0_t1_loop.trips), ∀ a, (k0_off21 i k0_t1) a + S1x1.size a ≤ S32x576.size a
  k0_off23_inb : ∀ (i : grid0.Coords) (k0_t1 : Fin k0_t1_loop.trips), ∀ a, (k0_off23 i k0_t1) a + S1x1.size a ≤ S32x576.size a
  k0_off25_inb : ∀ (i : grid0.Coords) (k0_t1 : Fin k0_t1_loop.trips), ∀ a, (k0_off25 i k0_t1) a + S1x1.size a ≤ S32x576.size a
  k0_off27_inb : ∀ (i : grid0.Coords) (k0_t1 : Fin k0_t1_loop.trips), ∀ a, (k0_off27 i k0_t1) a + S1x1.size a ≤ S32x576.size a
  k0_off29_inb : ∀ (i : grid0.Coords) (k0_t1 : Fin k0_t1_loop.trips), ∀ a, (k0_off29 i k0_t1) a + S1x1.size a ≤ S32x576.size a
  k0_off31_inb : ∀ (i : grid0.Coords) (k0_t1 : Fin k0_t1_loop.trips), ∀ a, (k0_off31 i k0_t1) a + S1x1.size a ≤ S32x576.size a
  k0_off33_inb : ∀ k0_t1 : Fin k0_t1_loop.trips, ∀ a, (k0_off33 k0_t1) a + S16x768.size a ≤ S576x768.size a
  k0_off33_packedbf16 : ∀ k0_t1 : Fin k0_t1_loop.trips, (Rect.unit (s := S576x768) (k0_off33 k0_t1) S16x768.size (k0_off33_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x384x384.size a ≤ S32x3x384x384.size a
  hwx0_0 : ∀ i : grid0.Coords, EltTy.bits .f32 = 32 ∨ (Rect.block (s := S32x3x384x384) S1x3x384x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x576x768.size a ≤ S32x576x768.size a
  hwx0_3 : ∀ i : grid0.Coords, EltTy.bits .f32 = 32 ∨ (Rect.block (s := S32x576x768) S1x576x768.size (cc0_transform_3 i) (hinb0_3 i)).WholeWords (EltTy.packing .f32)

variable [Facts₀]

def dot_S576x768_S768x768_S576x768_1_0_0_1_n_n : DotDims S576x768 S768x768 S576x768 where
  lhsContracting := [1]
  rhsContracting := [0]
  lhsNonContracting := [0]
  rhsNonContracting := [1]
  lhsBatch := []
  rhsBatch := []
  wf := dot_S576x768_S768x768_S576x768_1_0_0_1_n_n_wf

abbrev spec0_0 : Pipeline.WinSpec sig grid0.rank :=
  Pipeline.WinSpec.ofSpec (Memref.whole main_arg0) S1x3x384x384.size reads0_0 false false 2 stage0_0 sem0_0 nbuf0_0 hstage0_0

abbrev spec0_1 : Pipeline.WinSpec sig grid0.rank :=
  Pipeline.WinSpec.ofSpec (Memref.whole main_v1) S768x768.size reads0_1 false true 1 stage0_1 sem0_1 nbuf0_1 hstage0_1

abbrev spec0_2 : Pipeline.WinSpec sig grid0.rank :=
  Pipeline.WinSpec.ofSpec (Memref.whole main_arg4) S768.size reads0_2 false true 1 stage0_2 sem0_2 nbuf0_2 hstage0_2

abbrev spec0_3 : Pipeline.WinSpec sig grid0.rank :=
  Pipeline.WinSpec.ofSpec (Memref.whole main_v2) S1x576x768.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x3x384x384 : Shape := ⟨4, ![32, 3, 384, 384]⟩
abbrev S32x576 : Shape := ⟨2, ![32, 576]⟩
abbrev S768x768 : Shape := ⟨2, ![768, 768]⟩
abbrev S768 : Shape := ⟨1, ![768]⟩
abbrev S32x576x1 : Shape := ⟨3, ![32, 576, 1]⟩
abbrev S16 : Shape := ⟨1, ![16]⟩
abbrev S1x1x16 : Shape := ⟨3, ![1, 1, 16]⟩
abbrev S32x576x16 : Shape := ⟨3, ![32, 576, 16]⟩
abbrev S32x384x384x3 : Shape := ⟨4, ![32, 384, 384, 3]⟩
abbrev S32 : Shape := ⟨1, ![32]⟩
abbrev S32x1x1x1 : Shape := ⟨4, ![32, 1, 1, 1]⟩
abbrev S32x576x16x1 : Shape := ⟨4, ![32, 576, 16, 1]⟩
abbrev S32x576x1x16 : Shape := ⟨4, ![32, 576, 1, 16]⟩
abbrev S_ : Shape := ⟨0, ![]⟩
abbrev S32x576x16x16 : Shape := ⟨4, ![32, 576, 16, 16]⟩
abbrev S32x576x16x16x1 : Shape := ⟨5, ![32, 576, 16, 16, 1]⟩
abbrev S32x576x16x16x3 : Shape := ⟨5, ![32, 576, 16, 16, 3]⟩
abbrev S32x576x3x16x16 : Shape := ⟨5, ![32, 576, 3, 16, 16]⟩
abbrev S32x576x768 : Shape := ⟨3, ![32, 576, 768]⟩
abbrev S1x1x768 : Shape := ⟨3, ![1, 1, 768]⟩

abbrev nBuf : Space → Nat
  | .hbm => 57
  | .vmem => 0
  | .smem => 0
  | _ => 0

abbrev bufTy : (tb : Table) → Fin (tcTables nBuf tb) → BufTy
  | .hbm, ⟨0, _⟩ => ⟨S32x3x384x384, .f32⟩
  | .hbm, ⟨1, _⟩ => ⟨S32x576, .i32⟩
  | .hbm, ⟨2, _⟩ => ⟨S32x576, .i32⟩
  | .hbm, ⟨3, _⟩ => ⟨S768x768, .f32⟩
  | .hbm, ⟨4, _⟩ => ⟨S768, .f32⟩
  | .hbm, ⟨5, _⟩ => ⟨S32x576x1, .i32⟩
  | .hbm, ⟨6, _⟩ => ⟨S16, .i32⟩
  | .hbm, ⟨7, _⟩ => ⟨S1x1x16, .i32⟩
  | .hbm, ⟨8, _⟩ => ⟨S32x576x16, .i32⟩
  | .hbm, ⟨9, _⟩ => ⟨S32x576x16, .i32⟩
  | .hbm, ⟨10, _⟩ => ⟨S32x576x16, .i32⟩
  | .hbm, ⟨11, _⟩ => ⟨S32x576x1, .i32⟩
  | .hbm, ⟨12, _⟩ => ⟨S16, .i32⟩
  | .hbm, ⟨13, _⟩ => ⟨S1x1x16, .i32⟩
  | .hbm, ⟨14, _⟩ => ⟨S32x576x16, .i32⟩
  | .hbm, ⟨15, _⟩ => ⟨S32x576x16, .i32⟩
  | .hbm, ⟨16, _⟩ => ⟨S32x576x16, .i32⟩
  | .hbm, ⟨17, _⟩ => ⟨S32x384x384x3, .f32⟩
  | .hbm, ⟨18, _⟩ => ⟨S32, .i32⟩
  | .hbm, ⟨19, _⟩ => ⟨S32x1x1x1, .i32⟩
  | .hbm, ⟨20, _⟩ => ⟨S32x576x16x1, .i32⟩
  | .hbm, ⟨21, _⟩ => ⟨S32x576x1x16, .i32⟩
  | .hbm, ⟨22, _⟩ => ⟨S_, .i32⟩
  | .hbm, ⟨23, _⟩ => ⟨S32x1x1x1, .i32⟩
  | .hbm, ⟨24, _⟩ => ⟨S32x1x1x1, .i1⟩
  | .hbm, ⟨25, _⟩ => ⟨S_, .i32⟩
  | .hbm, ⟨26, _⟩ => ⟨S32x1x1x1, .i32⟩
  | .hbm, ⟨27, _⟩ => ⟨S32x1x1x1, .i32⟩
  | .hbm, ⟨28, _⟩ => ⟨S32x1x1x1, .i32⟩
  | .hbm, ⟨29, _⟩ => ⟨S_, .i32⟩
  | .hbm, ⟨30, _⟩ => ⟨S32x576x16x1, .i32⟩
  | .hbm, ⟨31, _⟩ => ⟨S32x576x16x1, .i1⟩
  | .hbm, ⟨32, _⟩ => ⟨S_, .i32⟩
  | .hbm, ⟨33, _⟩ => ⟨S32x576x16x1, .i32⟩
  | .hbm, ⟨34, _⟩ => ⟨S32x576x16x1, .i32⟩
  | .hbm, ⟨35, _⟩ => ⟨S32x576x16x1, .i32⟩
  | .hbm, ⟨36, _⟩ => ⟨S_, .i32⟩
  | .hbm, ⟨37, _⟩ => ⟨S32x576x1x16, .i32⟩
  | .hbm, ⟨38, _⟩ => ⟨S32x576x1x16, .i1⟩
  | .hbm, ⟨39, _⟩ => ⟨S_, .i32⟩
  | .hbm, ⟨40, _⟩ => ⟨S32x576x1x16, .i32⟩
  | .hbm, ⟨41, _⟩ => ⟨S32x576x1x16, .i32⟩
  | .hbm, ⟨42, _⟩ => ⟨S32x576x1x16, .i32⟩
  | .hbm, ⟨43, _⟩ => ⟨S32x576x16x16, .i32⟩
  | .hbm, ⟨44, _⟩ => ⟨S32x576x16x16, .i32⟩
  | .hbm, ⟨45, _⟩ => ⟨S32x576x16x16, .i32⟩
  | .hbm, ⟨46, _⟩ => ⟨S32x576x16x16x1, .i32⟩
  | .hbm, ⟨47, _⟩ => ⟨S32x576x16x16x1, .i32⟩
  | .hbm, ⟨48, _⟩ => ⟨S32x576x16x16x1, .i32⟩
  | .hbm, ⟨49, _⟩ => ⟨S32x576x16x16x3, .i32⟩
  | .hbm, ⟨50, _⟩ => ⟨S32x576x16x16x3, .f32⟩
  | .hbm, ⟨51, _⟩ => ⟨S32x576x3x16x16, .f32⟩
  | .hbm, ⟨52, _⟩ => ⟨S32x576x768, .f32⟩
  | .hbm, ⟨53, _⟩ => ⟨S32x576x768, .f32⟩
  | .hbm, ⟨54, _⟩ => ⟨S1x1x768, .f32⟩
  | .hbm, ⟨55, _⟩ => ⟨S32x576x768, .f32⟩
  | .hbm, ⟨56, _⟩ => ⟨S32x576x768, .f32⟩
  | _, _ => ⟨S32x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]

class Facts₀ : Prop where
  bcast_S32x576_S32x576x1_0_1 : S32x576.BroadcastsInDim S32x576x1 (![0, 1] : Fin 2 → Fin S32x576x1.rank)
  bcast_S16_S1x1x16_2 : S16.BroadcastsInDim S1x1x16 (![2] : Fin 1 → Fin S1x1x16.rank)
  bcast_S32x576x1_S32x576x16_0_1_2 : S32x576x1.BroadcastsInDim S32x576x16 (![0, 1, 2] : Fin 3 → Fin S32x576x16.rank)
  bcast_S1x1x16_S32x576x16_0_1_2 : S1x1x16.BroadcastsInDim S32x576x16 (![0, 1, 2] : Fin 3 → Fin S32x576x16.rank)
  transposes_S32x3x384x384_S32x384x384x3_0_2_3_1 : S32x3x384x384.Transposes [0, 2, 3, 1] S32x384x384x3
  bcast_S32_S32x1x1x1_0 : S32.BroadcastsInDim S32x1x1x1 (![0] : Fin 1 → Fin S32x1x1x1.rank)
  bcast_S32x576x16_S32x576x16x1_0_1_2 : S32x576x16.BroadcastsInDim S32x576x16x1 (![0, 1, 2] : Fin 3 → Fin S32x576x16x1.rank)
  bcast_S32x576x16_S32x576x1x16_0_1_3 : S32x576x16.BroadcastsInDim S32x576x1x16 (![0, 1, 3] : Fin 3 → Fin S32x576x1x16.rank)
  bcast_S_S32x1x1x1 : S_.BroadcastsInDim S32x1x1x1 (![] : Fin 0 → Fin S32x1x1x1.rank)
  bcast_S_S32x576x16x1 : S_.BroadcastsInDim S32x576x16x1 (![] : Fin 0 → Fin S32x576x16x1.rank)
  bcast_S_S32x576x1x16 : S_.BroadcastsInDim S32x576x1x16 (![] : Fin 0 → Fin S32x576x1x16.rank)
  bcast_S32x1x1x1_S32x576x16x16_0_1_2_3 : S32x1x1x1.BroadcastsInDim S32x576x16x16 (![0, 1, 2, 3] : Fin 4 → Fin S32x576x16x16.rank)
  bcast_S32x576x16x1_S32x576x16x16_0_1_2_3 : S32x576x16x1.BroadcastsInDim S32x576x16x16 (![0, 1, 2, 3] : Fin 4 → Fin S32x576x16x16.rank)
  bcast_S32x576x1x16_S32x576x16x16_0_1_2_3 : S32x576x1x16.BroadcastsInDim S32x576x16x16 (![0, 1, 2, 3] : Fin 4 → Fin S32x576x16x16.rank)
  bcast_S32x576x16x16_S32x576x16x16x1_0_1_2_3 : S32x576x16x16.BroadcastsInDim S32x576x16x16x1 (![0, 1, 2, 3] : Fin 4 → Fin S32x576x16x16x1.rank)
  concatenates_S32x576x16x16x1_S32x576x16x16x1_S32x576x16x16x1_S32x576x16x16x3_d4 : Shape.Concatenates [S32x576x16x16x1, S32x576x16x16x1, S32x576x16x16x1] S32x576x16x16x3 4
  transposes_S32x576x16x16x3_S32x576x3x16x16_0_1_4_2_3 : S32x576x16x16x3.Transposes [0, 1, 4, 2, 3] S32x576x3x16x16
  shapeCasts_S32x576x3x16x16_S32x576x768 : S32x576x3x16x16.ShapeCasts S32x576x768
  bcast_S768_S1x1x768_2 : S768.BroadcastsInDim S1x1x768 (![2] : Fin 1 → Fin S1x1x768.rank)
  bcast_S1x1x768_S32x576x768_0_1_2 : S1x1x768.BroadcastsInDim S32x576x768 (![0, 1, 2] : Fin 3 → Fin S32x576x768.rank)
  gather_S32x384x384x3_S32x576x16x16x3_S32x576x16x16x3_4_012_n_n_012_4_1113_wf : GatherDims.WF S32x384x384x3 S32x576x16x16x3 S32x576x16x16x3 [4] [0, 1, 2] [] [0, 1, 2] [] 4 ![1, 1, 1, 3]
  dot_S32x576x768_S768x768_S32x576x768_2_1_01_0_n_n_wf : DotDims.WF S32x576x768 S768x768 S32x576x768 [2] [1] [0, 1] [0] [] []

variable [Facts₀]

def gather_S32x384x384x3_S32x576x16x16x3_S32x576x16x16x3_4_012_n_n_012_4_1113 : GatherDims S32x384x384x3 S32x576x16x16x3 S32x576x16x16x3 where
  offsetDims := [4]
  collapsedSliceDims := [0, 1, 2]
  operandBatchingDims := []
  startIndicesBatchingDims := []
  startIndexMap := [0, 1, 2]
  indexVectorDim := 4
  sliceSizes := ![1, 1, 1, 3]
  wf := gather_S32x384x384x3_S32x576x16x16x3_S32x576x16x16x3_4_012_n_n_012_4_1113_wf
def dot_S32x576x768_S768x768_S32x576x768_2_1_01_0_n_n : DotDims S32x576x768 S768x768 S32x576x768 where
  lhsContracting := [2]
  rhsContracting := [1]
  lhsNonContracting := [0, 1]
  rhsNonContracting := [0]
  lhsBatch := []
  rhsBatch := []
  wf := dot_S32x576x768_S768x768_S32x576x768_2_1_01_0_n_n_wf

class Facts : Prop extends Facts₀ where

variable [Facts]
-- ==== Proof.Spec.lean ====
/-
  The patch-embedding function both programs compute, index by index.

  For batch `b`, patch `n` and embedding coordinate `e` the result is
      Σ_{f < 768} x[b, f / 256, h[b,n] + (f / 16) % 16, w[b,n] + f % 16] · W[e, f]  +  bias[e],
  the flattened 3·16·16 patch of image `b` whose top-left corner is `(h[b,n], w[b,n])`, projected by the
  rows of `W`. The corner's coordinates are reduced modulo the image's extent so that the function is total;
  for corners in `[0, 368]` (the precondition) the reduction is the identity.
-/
import Idealize.ShloMosaic.PureOps
import Idealize.ShloMosaic.PureOps.Ideal
import Idealize.ShloMosaic.Lib.ValueIdx

noncomputable section

namespace Cert.Proof.Spec

open Idealize.ShloMosaic

/-- Where entry `col = c·256 + ph·16 + pw` of the patch with corner `(h, w)` sits in one image `[1, 3, 384, 384]`:
    channel `c`, row `h + ph`, column `w + pw`. -/
def pidx (h w : Nat) (col : Fin 768) : (⟨4, ![1, 3, 384, 384]⟩ : Shape).Idx :=
  ValueIdx.ix4 (0 : Fin 1) (⟨col.val / 256, by omega⟩ : Fin 3)
    (⟨(h + col.val / 16 % 16) % 384, Nat.mod_lt _ (by decide)⟩ : Fin 384)
    (⟨(w + col.val % 16) % 384, Nat.mod_lt _ (by decide)⟩ : Fin 384)

/-- The same place in the whole batch `[32, 3, 384, 384]`, image `b`. -/
def xidx (b : Fin 32) (h w : Nat) (col : Fin 768) : (⟨4, ![32, 3, 384, 384]⟩ : Shape).Idx :=
  ValueIdx.ix4 b (⟨col.val / 256, by omega⟩ : Fin 3)
    (⟨(h + col.val / 16 % 16) % 384, Nat.mod_lt _ (by decide)⟩ : Fin 384)
    (⟨(w + col.val % 16) % 384, Nat.mod_lt _ (by decide)⟩ : Fin 384)

/-- The patch matrix of ONE image `img`: row `r` is the flattened patch whose corner the two index tables give
    at `(b, r)`, each entry passed through `cvt` (the kernel's change of float format). Any element type. -/
def patchMat {α β : Type} (cvt : α → β) (img : (⟨4, ![1, 3, 384, 384]⟩ : Shape).Idx → α)
    (hT wT : (⟨2, ![32, 576]⟩ : Shape).Idx → BitVec 32) (b : Fin 32) : (⟨2, ![576, 768]⟩ : Shape).Idx → β :=
  fun j => cvt (img (pidx (hT (ValueIdx.ix2 b ⟨(j 0).val, (j 0).isLt⟩)).toNat (wT (ValueIdx.ix2 b ⟨(j 0).val, (j 0).isLt⟩)).toNat
    ⟨(j 1).val, (j 1).isLt⟩))

/-- The result, over the extended reals: the patch's 768 entries against row `e` of `W`, plus the bias. -/
def out (x : (⟨4, ![32, 3, 384, 384]⟩ : Shape).Idx → EReal) (hT wT : (⟨2, ![32, 576]⟩ : Shape).Idx → BitVec 32)
    (W : (⟨2, ![768, 768]⟩ : Shape).Idx → EReal) (bias : (⟨1, ![768]⟩ : Shape).Idx → EReal) :
    (⟨3, ![32, 576, 768]⟩ : Shape).Idx → EReal :=
  fun i =>
    (∑ k : Fin 768,
        x (xidx ⟨(i 0).val, (i 0).isLt⟩ (hT (ValueIdx.ix2 ⟨(i 0).val, (i 0).isLt⟩ ⟨(i 1).val, (i 1).isLt⟩)).toNat
            (wT (ValueIdx.ix2 ⟨(i 0).val, (i 0).isLt⟩ ⟨(i 1).val, (i 1).isLt⟩)).toNat k)
          * W (ValueIdx.ix2 ⟨(i 2).val, (i 2).isLt⟩ k))
      + bias (ValueIdx.ix1 ⟨(i 2).val, (i 2).isLt⟩)

/-- Every patch corner leaves room for its 16×16 window inside the 384×384 image: as unsigned numbers both
    coordinates are at most 368 (for 32-bit words this is the signed statement 0 ≤ · ≤ 368). -/
def InRange (hT wT : (⟨2, ![32, 576]⟩ : Shape).Idx → BitVec 32) : Prop :=
  ∀ ix, (hT ix).toNat ≤ 368 ∧ (wT ix).toNat ≤ 368

end Cert.Proof.Spec

end
-- ==== Proof.K.Kit.lean ====
/-
  The launch kit of the patch-embedding program, for every float instance.

  The program narrows the 768×768 projection weights to the sixteen-bit float format, transposes them, and then
  runs ONE pipelined region over the thirty-two batch elements. The region stages four windows — the batch
  element's 3×384×384 image block, the transposed narrow weights whole, the bias whole, and (the output) the batch
  element's 576×768 block of the result — and hands the body the two index tables whole, prefetched into scalar
  memory, and one 576×768 scratch buffer.

  This module states what every later module is written over: the buffers' contents when the region is entered
  (`V`: the launch memory after the two host operations), the program's shape up to the region (`hmain`), the
  tables' contents read off the launch memory (`tbl`) and the pipeline at them (`cfgM`), each window's block at a
  grid point read off its array (`iblk`), the fact that an input window's staging buffer holds its block at every
  point (`before0_W_of`), the memrefs the body is called with, and the passage from the pipeline's final-state
  description to the statement that the five argument arrays end as they began (`frame_of`).
-/
import proofs.«400218_j73332271612542_2_alg».proof.Proof.Gen.Kernel.Launch
import Idealize.ShloMosaic.Lib.Pipeline.FrameBody
import Idealize.ShloMosaic.Lib.Tactic

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the two host operations (the weights
    narrowed, then transposed). -/
abbrev V (c : Dev nD) (b : Ref sig .tc) : Buf (Elt F) ((c : Thread nD τ).loc b) := StableHlo.after hostOps0 (fun b => m (c, b)) b

/-- Neither host operation allocates a buffer. -/
theorem hostOps0_fresh : (hostOps0 : List (HloOp τ sig (Elt F))).Forall fun op => op.fresh = ∅ :=
  ⟨rfl, rfl⟩

/-- They write the narrowed weights and the transposed narrowed weights, and nothing else. -/
theorem hostOps0_writes : (hostOps0 : List (HloOp τ sig (Elt F))).Forall fun op =>
    op.writes ⊆ ([main_v0, main_v1].map (Proc.devRef (τ := τ) .tc)).toFinset := by
  refine ⟨?_, ?_⟩ <;> simp [List.Forall]

/-- So a buffer that is neither of the two is found as launched. -/
theorem V_of_not_written (c : Dev nD) (r : Ref sig .tc) (hr : r ∉ [main_v0, main_v1]) : V m c r = m ((c : Thread nD τ).loc r) :=
  StableHlo.after_of_writes_sub hostOps0 (fun b => m (c, b)) hostOps0_writes hr

/-- The program is the two host operations and then the region: holding the unscoped buffers at the launch
    contents it reaches the region holding them at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! The host operations write the narrowed weights and their transpose only: every argument array is found as launched. -/
theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)

/-- The weight block the region stages: the launched weights narrowed to the sixteen-bit format and transposed. -/
theorem V_main_v1 (c : Dev nD) :
    V m c main_v1 = transpose S768x768 [1, 0] (truncf .bf16 (m ((c : Thread nD τ).loc main_arg3)) bitsLt_bf16_f32) transposes_S768x768_S768x768_1_0 := by
  dsimp only [V, hostOps0]
  after_results

/-! ## The prefetched tables, read off the launch memory -/

/-- The two index tables' contents when the region is entered (there is one device: device 0's). -/
def tbl : pre0.Contents (Elt F) := fun j => V m (0 : Dev nD) (pre0.ref j)

/-- On every device the tables hold those contents. -/
theorem V_pre (c : Dev nD) (j : Fin 2) : V m c (pre0.ref j) = tbl m j := by
  obtain rfl : c = 0 := Subsingleton.elim _ _
  rfl

/-- The tables' contents as admissible contents (no window's index map reads a table, so the pipeline asks nothing
    of them), and the pipeline at them. -/
abbrev adm : (pcfg0 (F := F)).Adm := ⟨tbl m, trivial⟩
abbrev cfgM : Pipeline.Cfg sig Λ₀ := cfg0 (adm m)

/-- Each table as the body is handed it: its whole buffer as a memref. -/
abbrev tbM1 : Memref sig .tc .smem S32x576 .i32 := Memref.whole main_arg1
abbrev htbM1 : tbM1.IsWhole := Memref.isWhole_whole _
abbrev tbM2 : Memref sig .tc .smem S32x576 .i32 := Memref.whole main_arg2
abbrev htbM2 : tbM2.IsWhole := Memref.isWhole_whole _
/-- The scratch operand as the body is handed it. -/
abbrev scrM : Memref sig .tc .vmem S576x768 .bf16 := Memref.whole cc0_scratch0
abbrev hscrM : scrM.IsWhole := Memref.isWhole_whole _

/-- The tables' read-only halves the region lends the body, table by table. -/
theorem PhiT0_eq (c : Dev nD) : (Pipeline.ΦT pre0 (tbl m) c : sProp 𝕄)
    = iprop((tbM1.view.loc (c : Thread nD τ) ↦{fullShare.right} tbl m 0) ∗ (tbM2.view.loc (c : Thread nD τ) ↦{fullShare.right} tbl m 1)) := by
  unfold Pipeline.ΦT Pipeline.prefHeld
  rw [BI.bigSep_fin_two]
  rfl

/-! ## The windows' blocks -/

/-- Window `w`'s block at grid point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The image window's current staging buffer holds the batch element's image block at every point, for any proof
    data whose array is `V`'s and whose body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t := by
  -- the block the fetch reads is the block read off `V`
  have hblk : ∀ t, dat.blockOf 0 t = iblk m c 0 t := fun t => by unfold Dat.blockOf iblk; rw [hA]; rfl
  -- the window is not cut, so a fetch fills the whole buffer with that block
  have hfet : ∀ t d, dat.fetched 0 t d = iblk m c 0 t := fun t d => by unfold Dat.fetched; rw [hblk]; rfl
  -- and what the body leaves, not cut either, is the block again
  have hkeep : ∀ t, ((cfgM m).win 0).cut ((cfgM m).grid.coords t) (dat.after 0 t) = dat.blockOf 0 t := fun t => by
    rw [hafter, hblk]
  rw [dat.before_in_eq_fetched 0 rfl (fun _ => rfl) (fun _ _ _ => rfl) hkeep t d, hfet]

/-- The weight window's staging buffer holds the whole weight block at every point (fetched once: its block index
    never moves), under the same two conditions. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t := by
  -- the block the fetch reads is the block read off `V`
  have hblk : ∀ t, dat.blockOf 1 t = iblk m c 1 t := fun t => by unfold Dat.blockOf iblk; rw [hA]; rfl
  -- the window is not cut, so a fetch fills the whole buffer with that block
  have hfet : ∀ t d, dat.fetched 1 t d = iblk m c 1 t := fun t d => by unfold Dat.fetched; rw [hblk]; rfl
  -- and what the body leaves, not cut either, is the block again
  have hkeep : ∀ t, ((cfgM m).win 1).cut ((cfgM m).grid.coords t) (dat.after 1 t) = dat.blockOf 1 t := fun t => by
    rw [hafter, hblk]
  rw [dat.before_in_eq_fetched 1 rfl (fun _ => rfl) (fun _ _ _ => rfl) hkeep t d, hfet]

/-- The bias window's staging buffer holds the whole bias at every point, likewise. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t := by
  -- the block the fetch reads is the block read off `V`
  have hblk : ∀ t, dat.blockOf 2 t = iblk m c 2 t := fun t => by unfold Dat.blockOf iblk; rw [hA]; rfl
  -- the window is not cut, so a fetch fills the whole buffer with that block
  have hfet : ∀ t d, dat.fetched 2 t d = iblk m c 2 t := fun t d => by unfold Dat.fetched; rw [hblk]; rfl
  -- and what the body leaves, not cut either, is the block again
  have hkeep : ∀ t, ((cfgM m).win 2).cut ((cfgM m).grid.coords t) (dat.after 2 t) = dat.blockOf 2 t := fun t => by
    rw [hafter, hblk]
  rw [dat.before_in_eq_fetched 2 rfl (fun _ => rfl) (fun _ _ _ => rfl) hkeep t d, hfet]

/-! ## The memrefs the body is called with -/

/-- Each window's current staging memref at point `t`, as the pipeline passes it to the body, and its wholeness. -/
abbrev ms0_0 (t : Fin (cfgM m).N) : Memref sig .tc .vmem S1x3x384x384 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S768x768 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S768 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x576x768 .f32 := spec0_3.stage ((cfgM m).slots t 3)
abbrev hs0_3 (t : Fin (cfgM m).N) : (ms0_3 m t).IsWhole := hstage0_3 (((cfgM m).slots t 3).cast nbuf0_3)

/-! ## From the pipeline's final state to the argument arrays -/

/-- The two tables and the wide weights are unscoped buffers that are no window's array: they bypass the region. -/
theorem rest_main_arg1 : main_arg1 ∈ Pipeline.restRefs sig spec0 := Pipeline.mem_restRefs_of main_arg1 (by decide) (by decide)
theorem rest_main_arg2 : main_arg2 ∈ Pipeline.restRefs sig spec0 := Pipeline.mem_restRefs_of main_arg2 (by decide) (by decide)
theorem rest_main_arg3 : main_arg3 ∈ Pipeline.restRefs sig spec0 := Pipeline.mem_restRefs_of main_arg3 (by decide) (by decide)

/-- What the pipeline's final-state description says of the program's arrays, for any proof data whose arrays are the
    region-entry contents: the result array holds what the write-backs of the output window left in it, and the five
    argument arrays are as launched — the image and the bias are input windows' arrays (an input's array ends at its
    entry contents), the two tables and the wide weights bypass the region (they end at `V`), and `V` at each of the
    five is the launch contents. -/
theorem post_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (r : PUnit × MemSt nD τ sig (Elt F)) (hr : Pipeline.FramePost (Pipeline.pin pcfgs fun _ => adm m) dats 0 (V m) r) (c : Dev nD) :
    r.2.mem ((c.tc : Thread nD τ).loc main_v2) = (dats 0 c).arrAt 3 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain ⟨hwin, hrest⟩ := hr c
  refine ⟨hwin 3, ?_, ?_, ?_, ?_, ?_⟩
  · exact (hwin 0).trans (((dats 0 c).arrAt_in 0 rfl _).trans ((hA c 0).trans (V_main_arg0 m c)))
  · exact (hrest main_arg1 rest_main_arg1).trans (V_main_arg1 m c)
  · exact (hrest main_arg2 rest_main_arg2).trans (V_main_arg2 m c)
  · exact (hrest main_arg3 rest_main_arg3).trans (V_main_arg3 m c)
  · exact (hwin 2).trans (((dats 0 c).arrAt_in 2 rfl _).trans ((hA c 2).trans (V_main_arg4 m c)))

/-- So a run ending in the pipeline's final-state description is a run leaving the five argument arrays as launched. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => (post_of m dats hA r hr c).2) h

end Cert.Proof.K

end
-- ==== Proof.K.Words.lean ====
/-
  The sixteen rows of one trip of the patch-gathering loop, row by row, for every float instance.

  Row `r` of trip `k` reads the corner `(h, w)` of patch `16k + r - 1` of the batch element from the two index
  tables (`hW r k`, `wW r k`: one-cell reads of the tables), and loads the 3×16×16 window of the image block whose
  top-left corner that is (`ld r k`). The window lies inside the 384×384 image exactly when the load's side
  condition holds; `Chk k` bundles the sixteen side conditions of trip `k`.
-/
import proofs.«400218_j73332271612542_2_alg».proof.Proof.Gen.Kernel.Loops
import proofs.«400218_j73332271612542_2_alg».proof.Proof.Gen.Kernel.Launch
import Idealize.ShloMosaic.Lib.Tactic

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Rows

variable (c : Dev nD) (i : grid0.Coords)
  (arg1 : Memref sig .tc .smem S32x576 .i32) (arg2 : Memref sig .tc .smem S32x576 .i32)
  (arg3 : Memref sig .tc .vmem S1x3x384x384 .f32)
  (T1 : Buf (Elt F) (arg1.view.loc (c : Thread nD τ))) (T2 : Buf (Elt F) (arg2.view.loc (c : Thread nD τ)))
  (x0 : Buf (Elt F) (arg3.view.loc (c : Thread nD τ)))

/-- The word a table holds at cell `o`, as a one-cell read through the table's memref. -/
abbrev wd (M : Memref sig .tc .smem S32x576 .i32) (T : Buf (Elt F) (M.view.loc (c : Thread nD τ))) (o : Fin 2 → Nat)
    (ho : ∀ a, o a + S1x1.size a ≤ S32x576.size a) : Elt F .i32 :=
  M.view.readAt (Elt F) (Rect.unit (s := S32x576) o S1x1.size ho).toLoadRect T (Shape.Idx.first (numel1_S1x1.symm ▸ Nat.one_pos))

/-! The corner words: the row coordinate from the first table, the column coordinate from the second. -/
abbrev hW1 (k : Fin k0_t1_loop.trips) : Elt F .i32 := wd c arg1 T1 (k0_off1 i k) (k0_off1_inb i k)
abbrev wW1 (k : Fin k0_t1_loop.trips) : Elt F .i32 := wd c arg2 T2 (k0_off1 i k) (k0_off1_inb i k)
abbrev hW2 (k : Fin k0_t1_loop.trips) : Elt F .i32 := wd c arg1 T1 (k0_off3 i k) (k0_off3_inb i k)
abbrev wW2 (k : Fin k0_t1_loop.trips) : Elt F .i32 := wd c arg2 T2 (k0_off3 i k) (k0_off3_inb i k)
abbrev hW3 (k : Fin k0_t1_loop.trips) : Elt F .i32 := wd c arg1 T1 (k0_off5 i k) (k0_off5_inb i k)
abbrev wW3 (k : Fin k0_t1_loop.trips) : Elt F .i32 := wd c arg2 T2 (k0_off5 i k) (k0_off5_inb i k)
abbrev hW4 (k : Fin k0_t1_loop.trips) : Elt F .i32 := wd c arg1 T1 (k0_off7 i k) (k0_off7_inb i k)
abbrev wW4 (k : Fin k0_t1_loop.trips) : Elt F .i32 := wd c arg2 T2 (k0_off7 i k) (k0_off7_inb i k)
abbrev hW5 (k : Fin k0_t1_loop.trips) : Elt F .i32 := wd c arg1 T1 (k0_off9 i k) (k0_off9_inb i k)
abbrev wW5 (k : Fin k0_t1_loop.trips) : Elt F .i32 := wd c arg2 T2 (k0_off9 i k) (k0_off9_inb i k)
abbrev hW6 (k : Fin k0_t1_loop.trips) : Elt F .i32 := wd c arg1 T1 (k0_off11 i k) (k0_off11_inb i k)
abbrev wW6 (k : Fin k0_t1_loop.trips) : Elt F .i32 := wd c arg2 T2 (k0_off11 i k) (k0_off11_inb i k)
abbrev hW7 (k : Fin k0_t1_loop.trips) : Elt F .i32 := wd c arg1 T1 (k0_off13 i k) (k0_off13_inb i k)
abbrev wW7 (k : Fin k0_t1_loop.trips) : Elt F .i32 := wd c arg2 T2 (k0_off13 i k) (k0_off13_inb i k)
abbrev hW8 (k : Fin k0_t1_loop.trips) : Elt F .i32 := wd c arg1 T1 (k0_off15 i k) (k0_off15_inb i k)
abbrev wW8 (k : Fin k0_t1_loop.trips) : Elt F .i32 := wd c arg2 T2 (k0_off15 i k) (k0_off15_inb i k)
abbrev hW9 (k : Fin k0_t1_loop.trips) : Elt F .i32 := wd c arg1 T1 (k0_off17 i k) (k0_off17_inb i k)
abbrev wW9 (k : Fin k0_t1_loop.trips) : Elt F .i32 := wd c arg2 T2 (k0_off17 i k) (k0_off17_inb i k)
abbrev hW10 (k : Fin k0_t1_loop.trips) : Elt F .i32 := wd c arg1 T1 (k0_off19 i k) (k0_off19_inb i k)
abbrev wW10 (k : Fin k0_t1_loop.trips) : Elt F .i32 := wd c arg2 T2 (k0_off19 i k) (k0_off19_inb i k)
abbrev hW11 (k : Fin k0_t1_loop.trips) : Elt F .i32 := wd c arg1 T1 (k0_off21 i k) (k0_off21_inb i k)
abbrev wW11 (k : Fin k0_t1_loop.trips) : Elt F .i32 := wd c arg2 T2 (k0_off21 i k) (k0_off21_inb i k)
abbrev hW12 (k : Fin k0_t1_loop.trips) : Elt F .i32 := wd c arg1 T1 (k0_off23 i k) (k0_off23_inb i k)
abbrev wW12 (k : Fin k0_t1_loop.trips) : Elt F .i32 := wd c arg2 T2 (k0_off23 i k) (k0_off23_inb i k)
abbrev hW13 (k : Fin k0_t1_loop.trips) : Elt F .i32 := wd c arg1 T1 (k0_off25 i k) (k0_off25_inb i k)
abbrev wW13 (k : Fin k0_t1_loop.trips) : Elt F .i32 := wd c arg2 T2 (k0_off25 i k) (k0_off25_inb i k)
abbrev hW14 (k : Fin k0_t1_loop.trips) : Elt F .i32 := wd c arg1 T1 (k0_off27 i k) (k0_off27_inb i k)
abbrev wW14 (k : Fin k0_t1_loop.trips) : Elt F .i32 := wd c arg2 T2 (k0_off27 i k) (k0_off27_inb i k)
abbrev hW15 (k : Fin k0_t1_loop.trips) : Elt F .i32 := wd c arg1 T1 (k0_off29 i k) (k0_off29_inb i k)
abbrev wW15 (k : Fin k0_t1_loop.trips) : Elt F .i32 := wd c arg2 T2 (k0_off29 i k) (k0_off29_inb i k)
abbrev hW16 (k : Fin k0_t1_loop.trips) : Elt F .i32 := wd c arg1 T1 (k0_off31 i k) (k0_off31_inb i k)
abbrev wW16 (k : Fin k0_t1_loop.trips) : Elt F .i32 := wd c arg2 T2 (k0_off31 i k) (k0_off31_inb i k)

/-- Every one of trip `k`'s sixteen windows lies inside the image block. -/
structure Chk (k : Fin k0_t1_loop.trips) : Prop where
  c1 : k0_chk1 (hW1 c i arg1 T1 k) (wW1 c i arg2 T2 k)
  c2 : k0_chk2 (hW2 c i arg1 T1 k) (wW2 c i arg2 T2 k)
  c3 : k0_chk3 (hW3 c i arg1 T1 k) (wW3 c i arg2 T2 k)
  c4 : k0_chk4 (hW4 c i arg1 T1 k) (wW4 c i arg2 T2 k)
  c5 : k0_chk5 (hW5 c i arg1 T1 k) (wW5 c i arg2 T2 k)
  c6 : k0_chk6 (hW6 c i arg1 T1 k) (wW6 c i arg2 T2 k)
  c7 : k0_chk7 (hW7 c i arg1 T1 k) (wW7 c i arg2 T2 k)
  c8 : k0_chk8 (hW8 c i arg1 T1 k) (wW8 c i arg2 T2 k)
  c9 : k0_chk9 (hW9 c i arg1 T1 k) (wW9 c i arg2 T2 k)
  c10 : k0_chk10 (hW10 c i arg1 T1 k) (wW10 c i arg2 T2 k)
  c11 : k0_chk11 (hW11 c i arg1 T1 k) (wW11 c i arg2 T2 k)
  c12 : k0_chk12 (hW12 c i arg1 T1 k) (wW12 c i arg2 T2 k)
  c13 : k0_chk13 (hW13 c i arg1 T1 k) (wW13 c i arg2 T2 k)
  c14 : k0_chk14 (hW14 c i arg1 T1 k) (wW14 c i arg2 T2 k)
  c15 : k0_chk15 (hW15 c i arg1 T1 k) (wW15 c i arg2 T2 k)
  c16 : k0_chk16 (hW16 c i arg1 T1 k) (wW16 c i arg2 T2 k)

/-! The sixteen windows of the image block that trip `k` loads. -/
abbrev ld1 (k : Fin k0_t1_loop.trips) (hc : Chk c i arg1 arg2 T1 T2 k) : Vec F S1x3x16x16 .f32 :=
  View.readAt (Elt F) arg3.view (Rect.unit (s := S1x3x384x384) (k0_off2 (hW1 c i arg1 T1 k) (wW1 c i arg2 T2 k)) S1x3x16x16.size (k0_off2_inb _ _ hc.c1)).toLoadRect x0
abbrev ld2 (k : Fin k0_t1_loop.trips) (hc : Chk c i arg1 arg2 T1 T2 k) : Vec F S1x3x16x16 .f32 :=
  View.readAt (Elt F) arg3.view (Rect.unit (s := S1x3x384x384) (k0_off4 (hW2 c i arg1 T1 k) (wW2 c i arg2 T2 k)) S1x3x16x16.size (k0_off4_inb _ _ hc.c2)).toLoadRect x0
abbrev ld3 (k : Fin k0_t1_loop.trips) (hc : Chk c i arg1 arg2 T1 T2 k) : Vec F S1x3x16x16 .f32 :=
  View.readAt (Elt F) arg3.view (Rect.unit (s := S1x3x384x384) (k0_off6 (hW3 c i arg1 T1 k) (wW3 c i arg2 T2 k)) S1x3x16x16.size (k0_off6_inb _ _ hc.c3)).toLoadRect x0
abbrev ld4 (k : Fin k0_t1_loop.trips) (hc : Chk c i arg1 arg2 T1 T2 k) : Vec F S1x3x16x16 .f32 :=
  View.readAt (Elt F) arg3.view (Rect.unit (s := S1x3x384x384) (k0_off8 (hW4 c i arg1 T1 k) (wW4 c i arg2 T2 k)) S1x3x16x16.size (k0_off8_inb _ _ hc.c4)).toLoadRect x0
abbrev ld5 (k : Fin k0_t1_loop.trips) (hc : Chk c i arg1 arg2 T1 T2 k) : Vec F S1x3x16x16 .f32 :=
  View.readAt (Elt F) arg3.view (Rect.unit (s := S1x3x384x384) (k0_off10 (hW5 c i arg1 T1 k) (wW5 c i arg2 T2 k)) S1x3x16x16.size (k0_off10_inb _ _ hc.c5)).toLoadRect x0
abbrev ld6 (k : Fin k0_t1_loop.trips) (hc : Chk c i arg1 arg2 T1 T2 k) : Vec F S1x3x16x16 .f32 :=
  View.readAt (Elt F) arg3.view (Rect.unit (s := S1x3x384x384) (k0_off12 (hW6 c i arg1 T1 k) (wW6 c i arg2 T2 k)) S1x3x16x16.size (k0_off12_inb _ _ hc.c6)).toLoadRect x0
abbrev ld7 (k : Fin k0_t1_loop.trips) (hc : Chk c i arg1 arg2 T1 T2 k) : Vec F S1x3x16x16 .f32 :=
  View.readAt (Elt F) arg3.view (Rect.unit (s := S1x3x384x384) (k0_off14 (hW7 c i arg1 T1 k) (wW7 c i arg2 T2 k)) S1x3x16x16.size (k0_off14_inb _ _ hc.c7)).toLoadRect x0
abbrev ld8 (k : Fin k0_t1_loop.trips) (hc : Chk c i arg1 arg2 T1 T2 k) : Vec F S1x3x16x16 .f32 :=
  View.readAt (Elt F) arg3.view (Rect.unit (s := S1x3x384x384) (k0_off16 (hW8 c i arg1 T1 k) (wW8 c i arg2 T2 k)) S1x3x16x16.size (k0_off16_inb _ _ hc.c8)).toLoadRect x0
abbrev ld9 (k : Fin k0_t1_loop.trips) (hc : Chk c i arg1 arg2 T1 T2 k) : Vec F S1x3x16x16 .f32 :=
  View.readAt (Elt F) arg3.view (Rect.unit (s := S1x3x384x384) (k0_off18 (hW9 c i arg1 T1 k) (wW9 c i arg2 T2 k)) S1x3x16x16.size (k0_off18_inb _ _ hc.c9)).toLoadRect x0
abbrev ld10 (k : Fin k0_t1_loop.trips) (hc : Chk c i arg1 arg2 T1 T2 k) : Vec F S1x3x16x16 .f32 :=
  View.readAt (Elt F) arg3.view (Rect.unit (s := S1x3x384x384) (k0_off20 (hW10 c i arg1 T1 k) (wW10 c i arg2 T2 k)) S1x3x16x16.size (k0_off20_inb _ _ hc.c10)).toLoadRect x0
abbrev ld11 (k : Fin k0_t1_loop.trips) (hc : Chk c i arg1 arg2 T1 T2 k) : Vec F S1x3x16x16 .f32 :=
  View.readAt (Elt F) arg3.view (Rect.unit (s := S1x3x384x384) (k0_off22 (hW11 c i arg1 T1 k) (wW11 c i arg2 T2 k)) S1x3x16x16.size (k0_off22_inb _ _ hc.c11)).toLoadRect x0
abbrev ld12 (k : Fin k0_t1_loop.trips) (hc : Chk c i arg1 arg2 T1 T2 k) : Vec F S1x3x16x16 .f32 :=
  View.readAt (Elt F) arg3.view (Rect.unit (s := S1x3x384x384) (k0_off24 (hW12 c i arg1 T1 k) (wW12 c i arg2 T2 k)) S1x3x16x16.size (k0_off24_inb _ _ hc.c12)).toLoadRect x0
abbrev ld13 (k : Fin k0_t1_loop.trips) (hc : Chk c i arg1 arg2 T1 T2 k) : Vec F S1x3x16x16 .f32 :=
  View.readAt (Elt F) arg3.view (Rect.unit (s := S1x3x384x384) (k0_off26 (hW13 c i arg1 T1 k) (wW13 c i arg2 T2 k)) S1x3x16x16.size (k0_off26_inb _ _ hc.c13)).toLoadRect x0
abbrev ld14 (k : Fin k0_t1_loop.trips) (hc : Chk c i arg1 arg2 T1 T2 k) : Vec F S1x3x16x16 .f32 :=
  View.readAt (Elt F) arg3.view (Rect.unit (s := S1x3x384x384) (k0_off28 (hW14 c i arg1 T1 k) (wW14 c i arg2 T2 k)) S1x3x16x16.size (k0_off28_inb _ _ hc.c14)).toLoadRect x0
abbrev ld15 (k : Fin k0_t1_loop.trips) (hc : Chk c i arg1 arg2 T1 T2 k) : Vec F S1x3x16x16 .f32 :=
  View.readAt (Elt F) arg3.view (Rect.unit (s := S1x3x384x384) (k0_off30 (hW15 c i arg1 T1 k) (wW15 c i arg2 T2 k)) S1x3x16x16.size (k0_off30_inb _ _ hc.c15)).toLoadRect x0
abbrev ld16 (k : Fin k0_t1_loop.trips) (hc : Chk c i arg1 arg2 T1 T2 k) : Vec F S1x3x16x16 .f32 :=
  View.readAt (Elt F) arg3.view (Rect.unit (s := S1x3x384x384) (k0_off32 (hW16 c i arg1 T1 k) (wW16 c i arg2 T2 k)) S1x3x16x16.size (k0_off32_inb _ _ hc.c16)).toLoadRect x0

end Rows

end Cert.Proof.K

end
-- ==== Proof.K.Loop.lean ====
/-
  The counted loop of the patch-embedding body, by its invariant, for every float instance.

  Trip `k` of the loop fills rows `16k … 16k+15` of the 576×768 patch matrix kept in scratch: for each of the sixteen
  rows it reads the patch's corner from the two index tables, loads the 3×16×16 window of the image block at that
  corner, flattens it to 768 entries, and stores the sixteen flattened windows, converted to the narrow float format,
  as one 16×768 block (`rowBlk k`). Nothing else is written, so the scratch after `n` trips is its entry contents
  with the first `n` blocks of rows overwritten (`ACC f₀ n`), and that is the invariant: before trip `k` the scratch
  holds `ACC f₀ k`. The tables and the image block are only read.
-/
import proofs.«400218_j73332271612542_2_alg».proof.Proof.K.Words

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the invariant is stated at, and the run's variants: no counters beside the points-tos, no variants. -/
abbrev UU (nD : Nat) (τ : Topo) : Type := UR sig nD τ
abbrev 𝒱₀ : Variants := Variants.none
local notation "𝕄" => MT nD τ sig Unit (Elt F) ℕ (UU nD τ) ℕ

section Trips

variable (c : Dev nD) (i : grid0.Coords)
  (arg1 : Memref sig .tc .smem S32x576 .i32) (harg1 : arg1.IsWhole)
  (arg2 : Memref sig .tc .smem S32x576 .i32) (harg2 : arg2.IsWhole)
  (arg3 : Memref sig .tc .vmem S1x3x384x384 .f32) (harg3 : arg3.IsWhole)
  (arg4 : Memref sig .tc .vmem S768x768 .bf16) (harg4 : arg4.IsWhole)
  (arg5 : Memref sig .tc .vmem S768 .f32) (harg5 : arg5.IsWhole)
  (arg6 : Memref sig .tc .vmem S1x576x768 .f32) (harg6 : arg6.IsWhole)
  (arg7 : Memref sig .tc .vmem S576x768 .bf16) (harg7 : arg7.IsWhole)
  (arg0 : BitVec 32)
  (T1 : Buf (Elt F) (arg1.view.loc (c : Thread nD τ))) (T2 : Buf (Elt F) (arg2.view.loc (c : Thread nD τ)))
  (x0 : Buf (Elt F) (arg3.view.loc (c : Thread nD τ)))

/-- The 16×768 block trip `k` stores: its sixteen windows, each flattened to a row of 768 entries, stacked in order and
    converted to the narrow format. -/
def rowBlk (k : Fin k0_t1_loop.trips) (hc : Chk c i arg1 arg2 T1 T2 k) : FVec F S16x768 .bf16 :=
  k0_pay1
    (k0_pay3 (ld1 c i arg1 arg2 arg3 T1 T2 x0 k hc)) (k0_pay4 (ld2 c i arg1 arg2 arg3 T1 T2 x0 k hc))
    (k0_pay5 (ld3 c i arg1 arg2 arg3 T1 T2 x0 k hc)) (k0_pay6 (ld4 c i arg1 arg2 arg3 T1 T2 x0 k hc))
    (k0_pay7 (ld5 c i arg1 arg2 arg3 T1 T2 x0 k hc)) (k0_pay8 (ld6 c i arg1 arg2 arg3 T1 T2 x0 k hc))
    (k0_pay9 (ld7 c i arg1 arg2 arg3 T1 T2 x0 k hc)) (k0_pay10 (ld8 c i arg1 arg2 arg3 T1 T2 x0 k hc))
    (k0_pay11 (ld9 c i arg1 arg2 arg3 T1 T2 x0 k hc)) (k0_pay12 (ld10 c i arg1 arg2 arg3 T1 T2 x0 k hc))
    (k0_pay13 (ld11 c i arg1 arg2 arg3 T1 T2 x0 k hc)) (k0_pay14 (ld12 c i arg1 arg2 arg3 T1 T2 x0 k hc))
    (k0_pay15 (ld13 c i arg1 arg2 arg3 T1 T2 x0 k hc)) (k0_pay16 (ld14 c i arg1 arg2 arg3 T1 T2 x0 k hc))
    (ld15 c i arg1 arg2 arg3 T1 T2 x0 k hc) (ld16 c i arg1 arg2 arg3 T1 T2 x0 k hc)

/-- Rows `16k … 16k+15` of the patch matrix, all 768 columns. -/
abbrev rT (k : Fin k0_t1_loop.trips) : Rect S576x768 := Rect.unit (s := S576x768) (k0_off33 k) S16x768.size (k0_off33_inb k)

variable (hchk : ∀ k, Chk c i arg1 arg2 T1 T2 k)

/-- What a trip holds at entry and exit: the two tables (their read-only halves), the image block, and the scratch at `f`. -/
abbrev TRIP (f : Buf (Elt F) (arg7.view.loc (c : Thread nD τ))) : sProp 𝕄 :=
  iprop((arg1.view.loc (c : Thread nD τ) ↦{fullShare.right} T1)
    ∗ (arg2.view.loc (c : Thread nD τ) ↦{fullShare.right} T2)
    ∗ (arg3.view.loc (c : Thread nD τ) ↦[arg3.view.set]{fullShare} x0)
    ∗ (arg7.view.loc (c : Thread nD τ) ↦[arg7.view.set]{fullShare} f))

/-- The scratch after trip `k` over prior contents `f`: rows `16k … 16k+15` overwritten by the trip's block. -/
def STEP (k : Fin k0_t1_loop.trips) (f : Buf (Elt F) (arg7.view.loc (c : Thread nD τ))) : Buf (Elt F) (arg7.view.loc (c : Thread nD τ)) :=
  arg7.view.writes (Elt F) f [⟨rT k, rowBlk c i arg1 arg2 arg3 T1 T2 x0 k (hchk k)⟩]

/-- One trip at a symbolic `k`: the tables and the image block are read and kept, and the scratch goes from `f` to
    `STEP k f`. Each of the sixteen loads is inside the image block by the trip's side conditions. -/
theorem trip (k : Fin k0_t1_loop.trips) (f : Buf (Elt F) (arg7.view.loc (c : Thread nD τ))) :
    TRIP c arg1 arg2 arg3 arg7 T1 T2 x0 f
      ⊢ wp frame (wpE (defs₀ (F := F)) 𝒱₀ c none) Set.univ
          (k0_t1_body i arg1 harg1 arg2 harg2 arg3 harg3 arg4 harg4 arg5 harg5 arg6 harg6 arg7 harg7 arg0 k ())
          (fun _ => TRIP c arg1 arg2 arg3 arg7 T1 T2 x0 (STEP c i arg1 arg2 arg3 arg7 T1 T2 x0 hchk k f)) := by
  -- the sixteen windows' side conditions at trip `k`, over the table words as the rows read them
  have c1 := (hchk k).c1
  have c2 := (hchk k).c2
  have c3 := (hchk k).c3
  have c4 := (hchk k).c4
  have c5 := (hchk k).c5
  have c6 := (hchk k).c6
  have c7 := (hchk k).c7
  have c8 := (hchk k).c8
  have c9 := (hchk k).c9
  have c10 := (hchk k).c10
  have c11 := (hchk k).c11
  have c12 := (hchk k).c12
  have c13 := (hchk k).c13
  have c14 := (hchk k).c14
  have c15 := (hchk k).c15
  have c16 := (hchk k).c16
  unfold k0_t1_body STEP rowBlk
  -- each of the four parts is its sequence of table reads, side conditions and window loads
  simp only [k0_part1_eq_skeleton, k0_part2_eq_skeleton, k0_part3_eq_skeleton, k0_part4_eq_skeleton]
  iintro ⟨H1, H2, H3, H7⟩
  -- every table read is a one-cell read of `T1` or `T2`, every window load a read of `x0`; the scratch's prior
  -- rows are loaded and dropped, and the one store writes the stacked block over rows `16k … 16k+15`
  sl_exec (disch := first | sl_exact c1 | sl_exact c2 | sl_exact c3 | sl_exact c4 | sl_exact c5 | sl_exact c6 | sl_exact c7 | sl_exact c8 | sl_exact c9 | sl_exact c10 | sl_exact c11 | sl_exact c12 | sl_exact c13 | sl_exact c14 | sl_exact c15 | sl_exact c16)
  sl_step
  sl_close

/-- The scratch after `n` trips from its contents `f₀` at the loop's entry (constant once the trips are exhausted, a
    case the invariant never reaches). -/
def ACC (f₀ : Buf (Elt F) (arg7.view.loc (c : Thread nD τ))) : ℕ → Buf (Elt F) (arg7.view.loc (c : Thread nD τ))
  | 0 => f₀
  | n + 1 => if h : n < k0_t1_loop.trips then STEP c i arg1 arg2 arg3 arg7 T1 T2 x0 hchk ⟨n, h⟩ (ACC f₀ n) else ACC f₀ n

theorem ACC_succ (f₀ : Buf (Elt F) (arg7.view.loc (c : Thread nD τ))) (k : Fin k0_t1_loop.trips) :
    ACC c i arg1 arg2 arg3 arg7 T1 T2 x0 hchk f₀ (k.val + 1)
      = STEP c i arg1 arg2 arg3 arg7 T1 T2 x0 hchk k (ACC c i arg1 arg2 arg3 arg7 T1 T2 x0 hchk f₀ k.val) := by
  rw [ACC.eq_2]; exact dif_pos k.isLt

set_option warn.classDefReducibility false in
/-- The loop by its invariant: before trip `k` the scratch holds `ACC f₀ k`, and one trip takes it to `ACC f₀ (k + 1)`. -/
@[sl_loop] def loopInv (f₀ : Buf (Elt F) (arg7.view.loc (c : Thread nD τ))) :
    Gen.LoopInvTy_k0_t1 (F := F) Unit ℕ (UU nD τ) ℕ 𝒱₀ c none Set.univ i arg1 harg1 arg2 harg2 arg3 harg3 arg4 harg4 arg5 harg5 arg6 harg6 arg7 harg7 arg0 where
  inv k _ := TRIP c arg1 arg2 arg3 arg7 T1 T2 x0 (ACC c i arg1 arg2 arg3 arg7 T1 T2 x0 hchk f₀ k)
  step k acc := by
    rw [ACC_succ]
    exact trip c i arg1 harg1 arg2 harg2 arg3 harg3 arg4 harg4 arg5 harg5 arg6 harg6 arg7 harg7 arg0 T1 T2 x0 hchk k _

end Trips

end Cert.Proof.K

end
-- ==== Proof.K.Body.lean ====
/-
  The whole body of the patch-embedding kernel at one grid point, for every float instance.

  The body runs the gathering loop (thirty-six trips, each filling sixteen rows of the 576×768 patch matrix in scratch),
  then reads the patch matrix, the 768×768 weight block and the bias whole, multiplies, adds the bias along the rows,
  and stores the 576×768 result whole into the output block. So from the scratch at any contents `f₀` and the output
  block at any contents `o₀` it ends with the scratch at `ACC f₀ 36` and the output block overwritten by the product
  plus bias (`OUT`); the tables, the image block, the weight block and the bias are read and kept.
-/
import proofs.«400218_j73332271612542_2_alg».proof.Proof.K.Loop

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (i : grid0.Coords)
  (arg1 : Memref sig .tc .smem S32x576 .i32) (harg1 : arg1.IsWhole)
  (arg2 : Memref sig .tc .smem S32x576 .i32) (harg2 : arg2.IsWhole)
  (arg3 : Memref sig .tc .vmem S1x3x384x384 .f32) (harg3 : arg3.IsWhole)
  (arg4 : Memref sig .tc .vmem S768x768 .bf16) (harg4 : arg4.IsWhole)
  (arg5 : Memref sig .tc .vmem S768 .f32) (harg5 : arg5.IsWhole)
  (arg6 : Memref sig .tc .vmem S1x576x768 .f32) (harg6 : arg6.IsWhole)
  (arg7 : Memref sig .tc .vmem S576x768 .bf16) (harg7 : arg7.IsWhole)
  (T1 : Buf (Elt F) (arg1.view.loc (c : Thread nD τ))) (T2 : Buf (Elt F) (arg2.view.loc (c : Thread nD τ)))
  (x0 : Buf (Elt F) (arg3.view.loc (c : Thread nD τ)))
  (w0 : Buf (Elt F) (arg4.view.loc (c : Thread nD τ)))
  (b0 : Buf (Elt F) (arg5.view.loc (c : Thread nD τ)))
  (hchk : ∀ k, Chk c i arg1 arg2 T1 T2 k)

/-- The whole-buffer rectangles the body reads and writes after the loop. -/
abbrev rAll7 : Rect S576x768 := Rect.unit (s := S576x768) ![0, 0] S576x768.size inb_S576x768_S576x768_0_0
abbrev rAll4 : Rect S768x768 := Rect.unit (s := S768x768) ![0, 0] S768x768.size inb_S768x768_S768x768_0_0
abbrev rAll5 : Rect S768 := Rect.unit (s := S768) ![0] S768.size inb_S768_S768_0
abbrev rAll6 : Rect S1x576x768 := Rect.unit (s := S1x576x768) ![0, 0, 0] S1x576x768.size inb_S1x576x768_S1x576x768_0_0_0

/-- The scratch when the loop has run: all thirty-six trips over the entry contents `f₀`. -/
abbrev scrEnd (f₀ : Buf (Elt F) (arg7.view.loc (c : Thread nD τ))) : Buf (Elt F) (arg7.view.loc (c : Thread nD τ)) :=
  ACC c i arg1 arg2 arg3 arg7 T1 T2 x0 hchk f₀ 36

/-- The product plus bias the body stores: of the patch matrix read back from scratch, the weight block and the bias. -/
def outVal (f₀ : Buf (Elt F) (arg7.view.loc (c : Thread nD τ))) : FVec F S1x576x768 .f32 :=
  k0_pay2 (View.readAt (Elt F) arg7.view rAll7.toLoadRect (scrEnd c i arg1 arg2 arg3 arg7 T1 T2 x0 hchk f₀))
    (View.readAt (Elt F) arg4.view rAll4.toLoadRect w0)
    (View.readAt (Elt F) arg5.view rAll5.toLoadRect b0)

/-- The output block after the body, over its entry contents `o₀`: overwritten whole by `outVal`. -/
def OUT (f₀ : Buf (Elt F) (arg7.view.loc (c : Thread nD τ))) (o₀ : Buf (Elt F) (arg6.view.loc (c : Thread nD τ))) :
    Buf (Elt F) (arg6.view.loc (c : Thread nD τ)) :=
  arg6.view.writes (Elt F) o₀ [⟨rAll6, outVal c i arg1 arg2 arg3 arg4 arg5 arg7 T1 T2 x0 w0 b0 hchk f₀⟩]

/-- What the body holds: the tables' read-only halves, and the five VMEM buffers whole at the given contents. -/
abbrev BODY (o : Buf (Elt F) (arg6.view.loc (c : Thread nD τ))) (f : Buf (Elt F) (arg7.view.loc (c : Thread nD τ))) : sProp 𝕄 :=
  iprop((arg1.view.loc (c : Thread nD τ) ↦{fullShare.right} T1)
    ∗ (arg2.view.loc (c : Thread nD τ) ↦{fullShare.right} T2)
    ∗ (arg3.view.loc (c : Thread nD τ) ↦[arg3.view.set]{fullShare} x0)
    ∗ (arg4.view.loc (c : Thread nD τ) ↦[arg4.view.set]{fullShare} w0)
    ∗ (arg5.view.loc (c : Thread nD τ) ↦[arg5.view.set]{fullShare} b0)
    ∗ (arg6.view.loc (c : Thread nD τ) ↦[arg6.view.set]{fullShare} o)
    ∗ (arg7.view.loc (c : Thread nD τ) ↦[arg7.view.set]{fullShare} f))

/-- THE BODY at one grid point: from the output block at `o₀` and the scratch at `f₀` it runs to the output block at
    `OUT f₀ o₀` and the scratch at `ACC f₀ 36`, everything else as it was. -/
theorem body_run (f₀ : Buf (Elt F) (arg7.view.loc (c : Thread nD τ))) (o₀ : Buf (Elt F) (arg6.view.loc (c : Thread nD τ))) :
    BODY c arg1 arg2 arg3 arg4 arg5 arg6 arg7 T1 T2 x0 w0 b0 o₀ f₀
      ⊢ wp frame (wpE (defs₀ (F := F)) 𝒱₀ c none) Set.univ
          (cc0__patch_embed_kernel i arg1 harg1 arg2 harg2 arg3 harg3 arg4 harg4 arg5 harg5 arg6 harg6 arg7 harg7)
          (fun _ => BODY c arg1 arg2 arg3 arg4 arg5 arg6 arg7 T1 T2 x0 w0 b0
            (OUT c i arg1 arg2 arg3 arg4 arg5 arg6 arg7 T1 T2 x0 w0 b0 hchk f₀ o₀)
            (scrEnd c i arg1 arg2 arg3 arg7 T1 T2 x0 hchk f₀)) := by
  -- The function is its loop followed by four whole-buffer reads and one whole-buffer write. The loop is crossed once by
  -- its invariant: before trip `k` the scratch holds `ACC f₀ k`, so after the thirty-sixth trip it holds `ACC f₀ 36`,
  -- the tables and the image block kept. Each read returns its buffer's contents and keeps the buffer; the value written
  -- is the payload of the three values read (the fourth read, of the output block, is not used), which is `outVal`,
  -- and the write of the whole output block over `o₀` is `OUT f₀ o₀`.
  simp only [cc0__patch_embed_kernel_eq_skeleton]; unfold cc0__patch_embed_kernel_skel
  iintro ⟨H1, H2, H3, H4, H5, H6, H7⟩
  sl_exec
  sl_step
  sl_close

end Body

end Cert.Proof.K

end
-- ==== Proof.K.Hyps.lean ====
/-
  From the statement's precondition to the side conditions the gathering loop assumes.

  The precondition is a conjunction of five tests on the argument arrays: three say that the float arrays hold
  finite numbers, two say that every entry of the two int32 index tables is between 0 and 368 as a SIGNED number
  (each an all-reduction by `and` of the entrywise conjunction of two signed comparisons with a constant).
  A 32-bit word that is between 0 and 368 as a signed number is at most 368 as an unsigned one, so both tables hold
  corners that leave room for a 16×16 window inside the 384×384 image (`pre_inRange`).

  Each side condition of the loop says that the window [0, 0, h, w] + [1, 3, 16, 16] lies inside [1, 3, 384, 384];
  the first two axes hold outright and the last two hold as soon as h ≤ 368 and w ≤ 368 (`chkN_of_le`).

  A corner word is a read of a table through a rectangle with one cell, so it is the table's entry at that cell
  (`wd_eq_of`, `wd_eq`). Together: tables in range give all sixteen side conditions of every trip
  (`chk_of_inRange`).
-/
import proofs.«400218_j73332271612542_2_alg».proof.Proof.K.Words
import proofs.«400218_j73332271612542_2_alg».proof.Proof.Spec
import proofs.«400218_j73332271612542_2_alg».proof.Pre_finite_inputs
import Idealize.ShloMosaic.Lib.ReduceAll
import Idealize.ShloMosaic.Lib.ValueIdx

noncomputable section

namespace Cert.Proof.K

open Cert.Kernel Cert.Kernel.Gen
open Idealize.ShloMosaic
open Idealize.ShloMosaic.TcCoe

variable {F : FTy → Type} [FloatOps F]

/-! ## Words -/

/-- A 32-bit word that lies between 0 and 368 as a signed number is at most 368 as an unsigned one: a word with its
    top bit set is negative, and below 2³¹ the two readings agree. -/
theorem toNat_le_of_signed (a : BitVec 32) (h0 : (0#32 : BitVec 32).toInt ≤ a.toInt)
    (h1 : a.toInt ≤ (368#32 : BitVec 32).toInt) : a.toNat ≤ 368 := by
  have e0 : (0#32 : BitVec 32).toInt = 0 := by decide
  have e1 : (368#32 : BitVec 32).toInt = 368 := by decide
  rw [e0] at h0
  rw [e1] at h1
  have hc := BitVec.toInt_eq_toNat_cond a
  have hlt := a.isLt
  by_cases hs : 2 * a.toNat < 2 ^ 32
  · rw [if_pos hs] at hc; omega
  · rw [if_neg hs] at hc; omega

/-! ## The precondition, read at one table cell -/

/-- The scalar shape has one index. -/
instance : Subsingleton Cert.Pre_finite_inputs.S_.Idx := ⟨fun a b => funext fun d => d.elim0⟩

/-- The two range tests of the precondition, read at every cell: both tables hold words at most 368. The three
    finiteness tests are dropped. -/
theorem pre_inRange [Cert.Pre_finite_inputs.Facts]
    (a0 : FVec F Cert.Pre_finite_inputs.S32x3x384x384 .f32) (a1 a2 : IVec Cert.Pre_finite_inputs.S32x576 32)
    (a3 : FVec F Cert.Pre_finite_inputs.S768x768 .f32) (a4 : FVec F Cert.Pre_finite_inputs.S768 .f32)
    (h : Cert.Pre_finite_inputs.fn (F := F) a0 a1 a2 a3 a4 = (fun _ => 1#1)) :
    Cert.Proof.Spec.InRange a1 a2 := by
  have e := congrFun h ValueIdx.ix0
  dsimp only [Cert.Pre_finite_inputs.fn, Cert.Pre_finite_inputs.fn_part1] at e
  simp only [andi, IntOp.andi_eq_one] at e
  obtain ⟨⟨-, hh⟩, hw⟩ := e
  intro ix
  have h1 := Host.reduce_andi_all _ _ _ _ _ hh ix
  have h2 := Host.reduce_andi_all _ _ _ _ _ hw ix
  simp only [andi, cmpi, broadcastInDim, constantI, IntOp.andi_eq_one, IntOp.cmpi_sge, IntOp.cmpi_sle] at h1 h2
  exact ⟨toNat_le_of_signed _ h1.1 h1.2, toNat_le_of_signed _ h2.1 h2.2⟩

/-! ## The windows' side conditions -/

/-- The window [0, 0, h, w] + [1, 3, 16, 16] lies inside [1, 3, 384, 384] when h ≤ 368 and w ≤ 368. -/
theorem window_inb (h w : BitVec 32) (hh : h.toNat ≤ 368) (hw : w.toNat ≤ 368) :
    ∀ a, (![0, 0, (Scalar.indexCast h).toNat, (Scalar.indexCast w).toNat] : Fin 4 → Nat) a + S1x3x16x16.size a
      ≤ S1x3x384x384.size a := by
  intro a
  have eh : (Scalar.indexCast h).toNat = h.toNat := rfl
  have ew : (Scalar.indexCast w).toNat = w.toNat := rfl
  fin_cases a <;> simp [eh, ew] <;> omega

theorem chk1_of_le {h w : BitVec 32} (hh : h.toNat ≤ 368) (hw : w.toNat ≤ 368) : k0_chk1 h w := window_inb h w hh hw
theorem chk2_of_le {h w : BitVec 32} (hh : h.toNat ≤ 368) (hw : w.toNat ≤ 368) : k0_chk2 h w := window_inb h w hh hw
theorem chk3_of_le {h w : BitVec 32} (hh : h.toNat ≤ 368) (hw : w.toNat ≤ 368) : k0_chk3 h w := window_inb h w hh hw
theorem chk4_of_le {h w : BitVec 32} (hh : h.toNat ≤ 368) (hw : w.toNat ≤ 368) : k0_chk4 h w := window_inb h w hh hw
theorem chk5_of_le {h w : BitVec 32} (hh : h.toNat ≤ 368) (hw : w.toNat ≤ 368) : k0_chk5 h w := window_inb h w hh hw
theorem chk6_of_le {h w : BitVec 32} (hh : h.toNat ≤ 368) (hw : w.toNat ≤ 368) : k0_chk6 h w := window_inb h w hh hw
theorem chk7_of_le {h w : BitVec 32} (hh : h.toNat ≤ 368) (hw : w.toNat ≤ 368) : k0_chk7 h w := window_inb h w hh hw
theorem chk8_of_le {h w : BitVec 32} (hh : h.toNat ≤ 368) (hw : w.toNat ≤ 368) : k0_chk8 h w := window_inb h w hh hw
theorem chk9_of_le {h w : BitVec 32} (hh : h.toNat ≤ 368) (hw : w.toNat ≤ 368) : k0_chk9 h w := window_inb h w hh hw
theorem chk10_of_le {h w : BitVec 32} (hh : h.toNat ≤ 368) (hw : w.toNat ≤ 368) : k0_chk10 h w := window_inb h w hh hw
theorem chk11_of_le {h w : BitVec 32} (hh : h.toNat ≤ 368) (hw : w.toNat ≤ 368) : k0_chk11 h w := window_inb h w hh hw
theorem chk12_of_le {h w : BitVec 32} (hh : h.toNat ≤ 368) (hw : w.toNat ≤ 368) : k0_chk12 h w := window_inb h w hh hw
theorem chk13_of_le {h w : BitVec 32} (hh : h.toNat ≤ 368) (hw : w.toNat ≤ 368) : k0_chk13 h w := window_inb h w hh hw
theorem chk14_of_le {h w : BitVec 32} (hh : h.toNat ≤ 368) (hw : w.toNat ≤ 368) : k0_chk14 h w := window_inb h w hh hw
theorem chk15_of_le {h w : BitVec 32} (hh : h.toNat ≤ 368) (hw : w.toNat ≤ 368) : k0_chk15 h w := window_inb h w hh hw
theorem chk16_of_le {h w : BitVec 32} (hh : h.toNat ≤ 368) (hw : w.toNat ≤ 368) : k0_chk16 h w := window_inb h w hh hw

/-! ## A corner word is the table's entry at its cell -/

theorem cell_lt0 {o : Fin 2 → Nat} (ho : ∀ a, o a + S1x1.size a ≤ S32x576.size a) : o 0 < 32 := by
  have h := ho 0
  have e1 : S1x1.size 0 = 1 := rfl
  have e2 : S32x576.size 0 = 32 := rfl
  omega

theorem cell_lt1 {o : Fin 2 → Nat} (ho : ∀ a, o a + S1x1.size a ≤ S32x576.size a) : o 1 < 576 := by
  have h := ho 1
  have e1 : S1x1.size 1 = 1 := rfl
  have e2 : S32x576.size 1 = 576 := rfl
  omega

/-- The one cell of a 1×1 rectangle at offset `o` is the index whose coordinates are `o`. -/
theorem unit_cell (o : Fin 2 → Nat) (ho : ∀ a, o a + S1x1.size a ≤ S32x576.size a) (h1 : 0 < S1x1.numel)
    (ix : S32x576.Idx) (hix : ∀ a, (ix a).val = o a) :
    (Rect.unit (s := S32x576) o S1x1.size ho).toLoadRect.idx (Shape.Idx.first h1) = ix := by
  funext a
  apply Fin.ext
  rw [hix a]
  show o a + 1 * 0 = o a
  omega

section Rows

variable (c : Dev nD) (i : grid0.Coords)
  (arg1 : Memref sig .tc .smem S32x576 .i32) (arg2 : Memref sig .tc .smem S32x576 .i32)
  (T1 : Buf (Elt F) (arg1.view.loc (c : Thread nD τ))) (T2 : Buf (Elt F) (arg2.view.loc (c : Thread nD τ)))

/-- The word read at cell `o` is the table's entry at any index whose coordinates are `o`. -/
theorem wd_eq_of (M : Memref sig .tc .smem S32x576 .i32) (T : Buf (Elt F) (M.view.loc (c : Thread nD τ)))
    (o : Fin 2 → Nat) (ho : ∀ a, o a + S1x1.size a ≤ S32x576.size a)
    (ix : S32x576.Idx) (hix : ∀ a, (ix a).val = o a) :
    wd c M T o ho = M.view.read (Elt F) T ix :=
  congrArg (M.view.read (Elt F) T) (unit_cell o ho _ ix hix)

/-- The word read at cell `o` is the table's entry at row `o 0`, column `o 1`. -/
theorem wd_eq (M : Memref sig .tc .smem S32x576 .i32) (hM : M.IsWhole) (T : Buf (Elt F) (M.view.loc (c : Thread nD τ)))
    (o : Fin 2 → Nat) (ho : ∀ a, o a + S1x1.size a ≤ S32x576.size a) :
    wd c M T o ho = M.view.read (Elt F) T (ValueIdx.ix2 ⟨o 0, cell_lt0 ho⟩ ⟨o 1, cell_lt1 ho⟩) :=
  wd_eq_of c M T o ho _ (fun a => by fin_cases a <;> rfl)

/-- Tables whose every entry is at most 368 give the sixteen side conditions of every trip: each corner word is
    an entry of its table. -/
theorem chk_of_inRange (harg1 : arg1.IsWhole) (harg2 : arg2.IsWhole)
    (hr : Cert.Proof.Spec.InRange (arg1.view.read (Elt F) T1) (arg2.view.read (Elt F) T2)) :
    ∀ k, Chk c i arg1 arg2 T1 T2 k := fun k =>
  ⟨chk1_of_le (hr _).1 (hr _).2,
    chk2_of_le (hr _).1 (hr _).2,
    chk3_of_le (hr _).1 (hr _).2,
    chk4_of_le (hr _).1 (hr _).2,
    chk5_of_le (hr _).1 (hr _).2,
    chk6_of_le (hr _).1 (hr _).2,
    chk7_of_le (hr _).1 (hr _).2,
    chk8_of_le (hr _).1 (hr _).2,
    chk9_of_le (hr _).1 (hr _).2,
    chk10_of_le (hr _).1 (hr _).2,
    chk11_of_le (hr _).1 (hr _).2,
    chk12_of_le (hr _).1 (hr _).2,
    chk13_of_le (hr _).1 (hr _).2,
    chk14_of_le (hr _).1 (hr _).2,
    chk15_of_le (hr _).1 (hr _).2,
    chk16_of_le (hr _).1 (hr _).2⟩

end Rows

end Cert.Proof.K

end
-- ==== Proof.K.PatchRow.lean ====
/-
  The block of sixteen rows one trip of the gathering loop stores, read entry by entry, for every float instance.

  Trip `k` stacks sixteen flattened windows and converts the stack to the narrow float format. Row `r'` of the stack
  is window `r'` of the trip, so entry `(r', col)` of the block is the conversion of entry `col` of that flattened
  window. Flattening a 1×3×16×16 window keeps the row-major position, so entry `col = c·256 + ph·16 + pw` is the
  window's entry `(0, c, ph, pw)`. The window is read from the image block at the corner `(h, w)` the two index
  tables hold at cell `(b, 16·k + r')` (`b` the grid coordinate), so that entry is the image block's entry at channel
  `c`, row `h + ph`, column `w + pw`; the trip's side condition says the window lies inside the 384×384 image, so
  the reduction modulo 384 in the specification's index changes nothing. The cell's coordinates are words computed
  in 32-bit arithmetic; for `k < 36` and a row below 16 nothing wraps.
-/
import proofs.«400218_j73332271612542_2_alg».proof.Proof.K.Loop
import proofs.«400218_j73332271612542_2_alg».proof.Proof.K.Hyps
import proofs.«400218_j73332271612542_2_alg».proof.Proof.Spec
import Idealize.ShloMosaic.Lib.Pipeline.Value
import Idealize.ShloMosaic.Lib.ValueIdx
import Idealize.ShloMosaic.Lib.ValueLayout

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## One window, flattened -/

/-- Entry `col = c·256 + ph·16 + pw` of a flattened window is the window's entry `(0, c, ph, pw)`: the two
    flattenings keep the row-major position. -/
theorem pr_flat (v : Vec F S1x3x16x16 .f32) (col : Fin 768) :
    k0_pay3 v (ix1 col) = v (ix4 (0 : Fin 1) (⟨col.val / 256, by omega⟩ : Fin 3)
          (⟨col.val / 16 % 16, Nat.mod_lt _ (by decide)⟩ : Fin 16) (⟨col.val % 16, Nat.mod_lt _ (by decide)⟩ : Fin 16)) := by
  show shapeCast S768 (shapeCast S3x16x16 v _) _ (ix1 col) = _
  rw [shapeCast_apply _ _ (ix1 col) (ix3 (⟨col.val / 256, by omega⟩ : Fin 3)
      (⟨col.val / 16 % 16, Nat.mod_lt _ (by decide)⟩ : Fin 16) (⟨col.val % 16, Nat.mod_lt _ (by decide)⟩ : Fin 16)) ?_]
  · exact shapeCast_1abc_abc_apply v _ _ _ _
  · rw [Shape.rowMajor_val_three, Shape.rowMajor_val_one]
    show (col.val / 256 * 16 + col.val / 16 % 16) * 16 + col.val % 16 = col.val
    omega

/-- The window of the image block at corner `(hh, ww)`, read at `(0, c, ph, pw)`, is the image block's entry at
    channel `c`, row `hh + ph`, column `ww + pw`: the window lies inside the block, so these sums are below 384
    and reducing them modulo 384 changes nothing. -/
theorem pr_window (c : Dev nD) (arg3 : Memref sig .tc .vmem S1x3x384x384 .f32) (x0 : Buf (Elt F) (arg3.view.loc (c : Thread nD τ)))
    (hh ww : BitVec 32) (inb : ∀ a, k0_off2 hh ww a + S1x3x16x16.size a ≤ S1x3x384x384.size a) (col : Fin 768) :
    View.readAt (Elt F) arg3.view (Rect.unit (s := S1x3x384x384) (k0_off2 hh ww) S1x3x16x16.size inb).toLoadRect x0
        (ix4 (0 : Fin 1) (⟨col.val / 256, by omega⟩ : Fin 3)
          (⟨col.val / 16 % 16, Nat.mod_lt _ (by decide)⟩ : Fin 16) (⟨col.val % 16, Nat.mod_lt _ (by decide)⟩ : Fin 16))
      = arg3.view.read (Elt F) x0 (Cert.Proof.Spec.pidx hh.toNat ww.toNat col) := by
  have h2 : hh.toNat + 16 ≤ 384 := inb 2
  have h3 : ww.toNat + 16 ≤ 384 := inb 3
  refine congrArg (arg3.view.read (Elt F) x0) ?_
  funext a
  apply Fin.ext
  fin_cases a
  · show 0 + 1 * 0 = 0
    rfl
  · show 0 + 1 * (col.val / 256) = col.val / 256
    omega
  · show hh.toNat + 1 * (col.val / 16 % 16) = (hh.toNat + col.val / 16 % 16) % 384
    omega
  · show ww.toNat + 1 * (col.val % 16) = (ww.toNat + col.val % 16) % 384
    omega

/-- One row of the block: the flattened window whose corner the two tables give at cell `o = (b, n)`, read at
    `col`, is the image block's entry at the place the specification names for patch `n` and column `col`. -/
theorem pr_row (c : Dev nD) (arg1 arg2 : Memref sig .tc .smem S32x576 .i32) (arg3 : Memref sig .tc .vmem S1x3x384x384 .f32)
    (T1 : Buf (Elt F) (arg1.view.loc (c : Thread nD τ))) (T2 : Buf (Elt F) (arg2.view.loc (c : Thread nD τ))) (x0 : Buf (Elt F) (arg3.view.loc (c : Thread nD τ)))
    (b : Fin 32) (n : Fin 576) (o : Fin 2 → Nat) (ho : ∀ a, o a + S1x1.size a ≤ S32x576.size a) (hob : o = ![b.val, n.val])
    (inb : ∀ a, k0_off2 (wd c arg1 T1 o ho) (wd c arg2 T2 o ho) a + S1x3x16x16.size a ≤ S1x3x384x384.size a) (col : Fin 768) :
    k0_pay3 (View.readAt (Elt F) arg3.view
        (Rect.unit (s := S1x3x384x384) (k0_off2 (wd c arg1 T1 o ho) (wd c arg2 T2 o ho)) S1x3x16x16.size inb).toLoadRect x0) (ix1 col)
      = arg3.view.read (Elt F) x0 (Cert.Proof.Spec.pidx (BitVec.toNat (arg1.view.read (Elt F) T1 (ix2 b n)))
          (BitVec.toNat (arg2.view.read (Elt F) T2 (ix2 b n))) col) := by
  have hix : ∀ a, ((ix2 b n : S32x576.Idx) a).val = o a := fun a => by rw [hob]; fin_cases a <;> rfl
  have e1 : wd c arg1 T1 o ho = arg1.view.read (Elt F) T1 (ix2 b n) := wd_eq_of c arg1 T1 o ho _ hix
  have e2 : wd c arg2 T2 o ho = arg2.view.read (Elt F) T2 (ix2 b n) := wd_eq_of c arg2 T2 o ho _ hix
  rw [pr_flat, pr_window, e1, e2]

/-! ## The sixteen table cells of a trip -/

/-- A word computed as `16·k + m` in 32-bit arithmetic is that number, for a trip `k < 36` and a row `m < 16`. -/
theorem pr_word (k m : Nat) (hk : k < 36) (hm : m < 16) :
    (Scalar.indexCast (Scalar.addi (Scalar.muli (Scalar.addi 0#32 (Scalar.muli (Scf.iv 0#32 1#32 k) 1#32)) 16#32) (BitVec.ofNat 32 m))).toNat = 16 * k + m := by
  simp only [Scalar.indexCast, Scalar.addi, Scalar.muli, IntOp.addi, IntOp.muli, Scf.iv]
  simp only [BitVec.toNat_add, BitVec.toNat_mul, BitVec.toNat_ofNat]
  omega

theorem pr_trips : k0_t1_loop.trips = 36 := by decide

theorem pr_off1 (i : grid0.Coords) (k : Fin k0_t1_loop.trips) : k0_off1 i k = ![(i 0).val, 16 * k.val + 0] := by
  have hk : k.val < 36 := pr_trips ▸ k.isLt
  have h := pr_word k.val 0 hk (by omega)
  have hi : (i 0).val < 32 := (i 0).isLt
  unfold k0_off1
  simp only [Scalar.indexCast] at h ⊢
  rw [h, BitVec.toNat_ofNat, Nat.mod_eq_of_lt (by omega)]

theorem pr_off3 (i : grid0.Coords) (k : Fin k0_t1_loop.trips) : k0_off3 i k = ![(i 0).val, 16 * k.val + 1] := by
  have hk : k.val < 36 := pr_trips ▸ k.isLt
  have h := pr_word k.val 1 hk (by omega)
  have hi : (i 0).val < 32 := (i 0).isLt
  unfold k0_off3
  simp only [Scalar.indexCast] at h ⊢
  rw [h, BitVec.toNat_ofNat, Nat.mod_eq_of_lt (by omega)]

theorem pr_off5 (i : grid0.Coords) (k : Fin k0_t1_loop.trips) : k0_off5 i k = ![(i 0).val, 16 * k.val + 2] := by
  have hk : k.val < 36 := pr_trips ▸ k.isLt
  have h := pr_word k.val 2 hk (by omega)
  have hi : (i 0).val < 32 := (i 0).isLt
  unfold k0_off5
  simp only [Scalar.indexCast] at h ⊢
  rw [h, BitVec.toNat_ofNat, Nat.mod_eq_of_lt (by omega)]

theorem pr_off7 (i : grid0.Coords) (k : Fin k0_t1_loop.trips) : k0_off7 i k = ![(i 0).val, 16 * k.val + 3] := by
  have hk : k.val < 36 := pr_trips ▸ k.isLt
  have h := pr_word k.val 3 hk (by omega)
  have hi : (i 0).val < 32 := (i 0).isLt
  unfold k0_off7
  simp only [Scalar.indexCast] at h ⊢
  rw [h, BitVec.toNat_ofNat, Nat.mod_eq_of_lt (by omega)]

theorem pr_off9 (i : grid0.Coords) (k : Fin k0_t1_loop.trips) : k0_off9 i k = ![(i 0).val, 16 * k.val + 4] := by
  have hk : k.val < 36 := pr_trips ▸ k.isLt
  have h := pr_word k.val 4 hk (by omega)
  have hi : (i 0).val < 32 := (i 0).isLt
  unfold k0_off9
  simp only [Scalar.indexCast] at h ⊢
  rw [h, BitVec.toNat_ofNat, Nat.mod_eq_of_lt (by omega)]

theorem pr_off11 (i : grid0.Coords) (k : Fin k0_t1_loop.trips) : k0_off11 i k = ![(i 0).val, 16 * k.val + 5] := by
  have hk : k.val < 36 := pr_trips ▸ k.isLt
  have h := pr_word k.val 5 hk (by omega)
  have hi : (i 0).val < 32 := (i 0).isLt
  unfold k0_off11
  simp only [Scalar.indexCast] at h ⊢
  rw [h, BitVec.toNat_ofNat, Nat.mod_eq_of_lt (by omega)]

theorem pr_off13 (i : grid0.Coords) (k : Fin k0_t1_loop.trips) : k0_off13 i k = ![(i 0).val, 16 * k.val + 6] := by
  have hk : k.val < 36 := pr_trips ▸ k.isLt
  have h := pr_word k.val 6 hk (by omega)
  have hi : (i 0).val < 32 := (i 0).isLt
  unfold k0_off13
  simp only [Scalar.indexCast] at h ⊢
  rw [h, BitVec.toNat_ofNat, Nat.mod_eq_of_lt (by omega)]

theorem pr_off15 (i : grid0.Coords) (k : Fin k0_t1_loop.trips) : k0_off15 i k = ![(i 0).val, 16 * k.val + 7] := by
  have hk : k.val < 36 := pr_trips ▸ k.isLt
  have h := pr_word k.val 7 hk (by omega)
  have hi : (i 0).val < 32 := (i 0).isLt
  unfold k0_off15
  simp only [Scalar.indexCast] at h ⊢
  rw [h, BitVec.toNat_ofNat, Nat.mod_eq_of_lt (by omega)]

theorem pr_off17 (i : grid0.Coords) (k : Fin k0_t1_loop.trips) : k0_off17 i k = ![(i 0).val, 16 * k.val + 8] := by
  have hk : k.val < 36 := pr_trips ▸ k.isLt
  have h := pr_word k.val 8 hk (by omega)
  have hi : (i 0).val < 32 := (i 0).isLt
  unfold k0_off17
  simp only [Scalar.indexCast] at h ⊢
  rw [h, BitVec.toNat_ofNat, Nat.mod_eq_of_lt (by omega)]

theorem pr_off19 (i : grid0.Coords) (k : Fin k0_t1_loop.trips) : k0_off19 i k = ![(i 0).val, 16 * k.val + 9] := by
  have hk : k.val < 36 := pr_trips ▸ k.isLt
  have h := pr_word k.val 9 hk (by omega)
  have hi : (i 0).val < 32 := (i 0).isLt
  unfold k0_off19
  simp only [Scalar.indexCast] at h ⊢
  rw [h, BitVec.toNat_ofNat, Nat.mod_eq_of_lt (by omega)]

theorem pr_off21 (i : grid0.Coords) (k : Fin k0_t1_loop.trips) : k0_off21 i k = ![(i 0).val, 16 * k.val + 10] := by
  have hk : k.val < 36 := pr_trips ▸ k.isLt
  have h := pr_word k.val 10 hk (by omega)
  have hi : (i 0).val < 32 := (i 0).isLt
  unfold k0_off21
  simp only [Scalar.indexCast] at h ⊢
  rw [h, BitVec.toNat_ofNat, Nat.mod_eq_of_lt (by omega)]

theorem pr_off23 (i : grid0.Coords) (k : Fin k0_t1_loop.trips) : k0_off23 i k = ![(i 0).val, 16 * k.val + 11] := by
  have hk : k.val < 36 := pr_trips ▸ k.isLt
  have h := pr_word k.val 11 hk (by omega)
  have hi : (i 0).val < 32 := (i 0).isLt
  unfold k0_off23
  simp only [Scalar.indexCast] at h ⊢
  rw [h, BitVec.toNat_ofNat, Nat.mod_eq_of_lt (by omega)]

theorem pr_off25 (i : grid0.Coords) (k : Fin k0_t1_loop.trips) : k0_off25 i k = ![(i 0).val, 16 * k.val + 12] := by
  have hk : k.val < 36 := pr_trips ▸ k.isLt
  have h := pr_word k.val 12 hk (by omega)
  have hi : (i 0).val < 32 := (i 0).isLt
  unfold k0_off25
  simp only [Scalar.indexCast] at h ⊢
  rw [h, BitVec.toNat_ofNat, Nat.mod_eq_of_lt (by omega)]

theorem pr_off27 (i : grid0.Coords) (k : Fin k0_t1_loop.trips) : k0_off27 i k = ![(i 0).val, 16 * k.val + 13] := by
  have hk : k.val < 36 := pr_trips ▸ k.isLt
  have h := pr_word k.val 13 hk (by omega)
  have hi : (i 0).val < 32 := (i 0).isLt
  unfold k0_off27
  simp only [Scalar.indexCast] at h ⊢
  rw [h, BitVec.toNat_ofNat, Nat.mod_eq_of_lt (by omega)]

theorem pr_off29 (i : grid0.Coords) (k : Fin k0_t1_loop.trips) : k0_off29 i k = ![(i 0).val, 16 * k.val + 14] := by
  have hk : k.val < 36 := pr_trips ▸ k.isLt
  have h := pr_word k.val 14 hk (by omega)
  have hi : (i 0).val < 32 := (i 0).isLt
  unfold k0_off29
  simp only [Scalar.indexCast] at h ⊢
  rw [h, BitVec.toNat_ofNat, Nat.mod_eq_of_lt (by omega)]

theorem pr_off31 (i : grid0.Coords) (k : Fin k0_t1_loop.trips) : k0_off31 i k = ![(i 0).val, 16 * k.val + 15] := by
  have hk : k.val < 36 := pr_trips ▸ k.isLt
  have h := pr_word k.val 15 hk (by omega)
  have hi : (i 0).val < 32 := (i 0).isLt
  unfold k0_off31
  simp only [Scalar.indexCast] at h ⊢
  rw [h, BitVec.toNat_ofNat, Nat.mod_eq_of_lt (by omega)]

/-- The `r`-th of sixteen things. -/
def pr_pick {α : Type} (v0 v1 v2 v3 v4 v5 v6 v7 v8 v9 v10 v11 v12 v13 v14 v15 : α) : Fin 16 → α
  | ⟨0, _⟩ => v0
  | ⟨1, _⟩ => v1
  | ⟨2, _⟩ => v2
  | ⟨3, _⟩ => v3
  | ⟨4, _⟩ => v4
  | ⟨5, _⟩ => v5
  | ⟨6, _⟩ => v6
  | ⟨7, _⟩ => v7
  | ⟨8, _⟩ => v8
  | ⟨9, _⟩ => v9
  | ⟨10, _⟩ => v10
  | ⟨11, _⟩ => v11
  | ⟨12, _⟩ => v12
  | ⟨13, _⟩ => v13
  | ⟨14, _⟩ => v14
  | ⟨15, _⟩ => v15
  | ⟨_ + 16, h⟩ => absurd h (by omega)

/-! ## Sixteen rows stacked -/

/-- Sixteen one-row pieces stacked along the rows, read at row `r'`, column `col`: piece `r'` at its one row, the same
    column (the stack is the list of the pieces of one shape and extent one along the rows, so the row names the piece). -/
theorem pr_concat16 {α : Type} (v0 v1 v2 v3 v4 v5 v6 v7 v8 v9 v10 v11 v12 v13 v14 v15 : S1x768.Idx → α)
    (h : Shape.Concatenates ([(⟨S1x768, v0⟩ : (s : Shape) × (s.Idx → α)), (⟨S1x768, v1⟩ : (s : Shape) × (s.Idx → α)), (⟨S1x768, v2⟩ : (s : Shape) × (s.Idx → α)), (⟨S1x768, v3⟩ : (s : Shape) × (s.Idx → α)), (⟨S1x768, v4⟩ : (s : Shape) × (s.Idx → α)), (⟨S1x768, v5⟩ : (s : Shape) × (s.Idx → α)), (⟨S1x768, v6⟩ : (s : Shape) × (s.Idx → α)), (⟨S1x768, v7⟩ : (s : Shape) × (s.Idx → α)), (⟨S1x768, v8⟩ : (s : Shape) × (s.Idx → α)), (⟨S1x768, v9⟩ : (s : Shape) × (s.Idx → α)), (⟨S1x768, v10⟩ : (s : Shape) × (s.Idx → α)), (⟨S1x768, v11⟩ : (s : Shape) × (s.Idx → α)), (⟨S1x768, v12⟩ : (s : Shape) × (s.Idx → α)), (⟨S1x768, v13⟩ : (s : Shape) × (s.Idx → α)), (⟨S1x768, v14⟩ : (s : Shape) × (s.Idx → α)), (⟨S1x768, v15⟩ : (s : Shape) × (s.Idx → α))].map (·.1)) S16x768 0)
    (r' : Fin 16) (col : Fin 768) :
    concatenate S16x768 0 [⟨S1x768, v0⟩, ⟨S1x768, v1⟩, ⟨S1x768, v2⟩, ⟨S1x768, v3⟩, ⟨S1x768, v4⟩, ⟨S1x768, v5⟩, ⟨S1x768, v6⟩, ⟨S1x768, v7⟩, ⟨S1x768, v8⟩, ⟨S1x768, v9⟩, ⟨S1x768, v10⟩, ⟨S1x768, v11⟩, ⟨S1x768, v12⟩, ⟨S1x768, v13⟩, ⟨S1x768, v14⟩, ⟨S1x768, v15⟩] h (ix2 r' col)
      = (![v0, v1, v2, v3, v4, v5, v6, v7, v8, v9, v10, v11, v12, v13, v14, v15] r') (ix2 (0 : Fin 1) col) := by
  have hL : [(⟨S1x768, v0⟩ : (s : Shape) × (s.Idx → α)), (⟨S1x768, v1⟩ : (s : Shape) × (s.Idx → α)), (⟨S1x768, v2⟩ : (s : Shape) × (s.Idx → α)), (⟨S1x768, v3⟩ : (s : Shape) × (s.Idx → α)), (⟨S1x768, v4⟩ : (s : Shape) × (s.Idx → α)), (⟨S1x768, v5⟩ : (s : Shape) × (s.Idx → α)), (⟨S1x768, v6⟩ : (s : Shape) × (s.Idx → α)), (⟨S1x768, v7⟩ : (s : Shape) × (s.Idx → α)), (⟨S1x768, v8⟩ : (s : Shape) × (s.Idx → α)), (⟨S1x768, v9⟩ : (s : Shape) × (s.Idx → α)), (⟨S1x768, v10⟩ : (s : Shape) × (s.Idx → α)), (⟨S1x768, v11⟩ : (s : Shape) × (s.Idx → α)), (⟨S1x768, v12⟩ : (s : Shape) × (s.Idx → α)), (⟨S1x768, v13⟩ : (s : Shape) × (s.Idx → α)), (⟨S1x768, v14⟩ : (s : Shape) × (s.Idx → α)), (⟨S1x768, v15⟩ : (s : Shape) × (s.Idx → α))]
      = List.ofFn (fun n : Fin 16 => (⟨S1x768, ![v0, v1, v2, v3, v4, v5, v6, v7, v8, v9, v10, v11, v12, v13, v14, v15] n⟩ : (s : Shape) × (s.Idx → α))) := by
    rfl
  revert h
  rw [hL]
  intro h
  refine concatenate_ofFn_unit_apply (t := S16x768) (s₁ := S1x768) (0 : Fin 2) ![v0, v1, v2, v3, v4, v5, v6, v7, v8, v9, v10, v11, v12, v13, v14, v15] h rfl rfl (ix2 r' col) r' rfl (ix2 (0 : Fin 1) col) ?_
  intro b hb
  match b with
  | ⟨0, _⟩ => exact absurd rfl hb
  | ⟨1, _⟩ => rfl

/-- The block a trip stores, read at row `r'`, column `col`: the conversion to the narrow format of entry `col` of
    the `r'`-th flattened window (the last two windows are flattened inside the block's own definition). -/
theorem pr_pay1_apply (w1 w2 w3 w4 w5 w6 w7 w8 w9 w10 w11 w12 w13 w14 : FVec F S768 .f32) (w15 w16 : Vec F S1x3x16x16 .f32) (r' : Fin 16) (col : Fin 768) :
    k0_pay1 w1 w2 w3 w4 w5 w6 w7 w8 w9 w10 w11 w12 w13 w14 w15 w16 (ix2 r' col)
      = FloatOps.truncf .bf16 bitsLt_bf16_f32 (pr_pick w1 w2 w3 w4 w5 w6 w7 w8 w9 w10 w11 w12 w13 w14 (k0_pay3 w15) (k0_pay3 w16) r' (ix1 col)) := by
  unfold k0_pay1
  rw [shapeCast_self]
  show FloatOps.truncf .bf16 bitsLt_bf16_f32 (concatenate S16x768 0 _ _ (ix2 r' col)) = _
  rw [pr_concat16]
  refine congrArg (FloatOps.truncf .bf16 bitsLt_bf16_f32) ?_
  match r' with
  | ⟨0, _⟩ => exact shapeCast_a_1a_apply w1 _ 0 col
  | ⟨1, _⟩ => exact shapeCast_a_1a_apply w2 _ 0 col
  | ⟨2, _⟩ => exact shapeCast_a_1a_apply w3 _ 0 col
  | ⟨3, _⟩ => exact shapeCast_a_1a_apply w4 _ 0 col
  | ⟨4, _⟩ => exact shapeCast_a_1a_apply w5 _ 0 col
  | ⟨5, _⟩ => exact shapeCast_a_1a_apply w6 _ 0 col
  | ⟨6, _⟩ => exact shapeCast_a_1a_apply w7 _ 0 col
  | ⟨7, _⟩ => exact shapeCast_a_1a_apply w8 _ 0 col
  | ⟨8, _⟩ => exact shapeCast_a_1a_apply w9 _ 0 col
  | ⟨9, _⟩ => exact shapeCast_a_1a_apply w10 _ 0 col
  | ⟨10, _⟩ => exact shapeCast_a_1a_apply w11 _ 0 col
  | ⟨11, _⟩ => exact shapeCast_a_1a_apply w12 _ 0 col
  | ⟨12, _⟩ => exact shapeCast_a_1a_apply w13 _ 0 col
  | ⟨13, _⟩ => exact shapeCast_a_1a_apply w14 _ 0 col
  | ⟨14, _⟩ => exact shapeCast_a_1a_apply (k0_pay3 w15) _ 0 col
  | ⟨15, _⟩ => exact shapeCast_a_1a_apply (k0_pay3 w16) _ 0 col
  | ⟨_ + 16, h⟩ => exact absurd h (by omega)

/-! ## The block of a trip, entry by entry -/

theorem pv_rowBlk_apply (c : Dev nD) (i : grid0.Coords) (arg1 arg2 : Memref sig .tc .smem S32x576 .i32) (arg3 : Memref sig .tc .vmem S1x3x384x384 .f32)
    (T1 : Buf (Elt F) (arg1.view.loc (c : Thread nD τ))) (T2 : Buf (Elt F) (arg2.view.loc (c : Thread nD τ))) (x0 : Buf (Elt F) (arg3.view.loc (c : Thread nD τ)))
    (k : Fin k0_t1_loop.trips) (hc : Chk c i arg1 arg2 T1 T2 k) (r' : Fin 16) (col : Fin 768) (n : Fin 576) (hn : n.val = 16 * k.val + r'.val) :
    rowBlk c i arg1 arg2 arg3 T1 T2 x0 k hc (ix2 r' col)
      = FloatOps.truncf .bf16 bitsLt_bf16_f32 (arg3.view.read (Elt F) x0
          (Cert.Proof.Spec.pidx (BitVec.toNat (arg1.view.read (Elt F) T1 (ix2 (⟨(i 0).val, (i 0).isLt⟩ : Fin 32) n)))
            (BitVec.toNat (arg2.view.read (Elt F) T2 (ix2 (⟨(i 0).val, (i 0).isLt⟩ : Fin 32) n))) col)) := by
  unfold rowBlk
  rw [pr_pay1_apply]
  refine congrArg (FloatOps.truncf .bf16 bitsLt_bf16_f32) ?_
  match r', hn with
  | ⟨0, _⟩, hn =>
    exact pr_row c arg1 arg2 arg3 T1 T2 x0 ⟨(i 0).val, (i 0).isLt⟩ n (k0_off1 i k) (k0_off1_inb i k)
      (by rw [pr_off1, hn]) (k0_off2_inb _ _ hc.c1) col
  | ⟨1, _⟩, hn =>
    exact pr_row c arg1 arg2 arg3 T1 T2 x0 ⟨(i 0).val, (i 0).isLt⟩ n (k0_off3 i k) (k0_off3_inb i k)
      (by rw [pr_off3, hn]) (k0_off4_inb _ _ hc.c2) col
  | ⟨2, _⟩, hn =>
    exact pr_row c arg1 arg2 arg3 T1 T2 x0 ⟨(i 0).val, (i 0).isLt⟩ n (k0_off5 i k) (k0_off5_inb i k)
      (by rw [pr_off5, hn]) (k0_off6_inb _ _ hc.c3) col
  | ⟨3, _⟩, hn =>
    exact pr_row c arg1 arg2 arg3 T1 T2 x0 ⟨(i 0).val, (i 0).isLt⟩ n (k0_off7 i k) (k0_off7_inb i k)
      (by rw [pr_off7, hn]) (k0_off8_inb _ _ hc.c4) col
  | ⟨4, _⟩, hn =>
    exact pr_row c arg1 arg2 arg3 T1 T2 x0 ⟨(i 0).val, (i 0).isLt⟩ n (k0_off9 i k) (k0_off9_inb i k)
      (by rw [pr_off9, hn]) (k0_off10_inb _ _ hc.c5) col
  | ⟨5, _⟩, hn =>
    exact pr_row c arg1 arg2 arg3 T1 T2 x0 ⟨(i 0).val, (i 0).isLt⟩ n (k0_off11 i k) (k0_off11_inb i k)
      (by rw [pr_off11, hn]) (k0_off12_inb _ _ hc.c6) col
  | ⟨6, _⟩, hn =>
    exact pr_row c arg1 arg2 arg3 T1 T2 x0 ⟨(i 0).val, (i 0).isLt⟩ n (k0_off13 i k) (k0_off13_inb i k)
      (by rw [pr_off13, hn]) (k0_off14_inb _ _ hc.c7) col
  | ⟨7, _⟩, hn =>
    exact pr_row c arg1 arg2 arg3 T1 T2 x0 ⟨(i 0).val, (i 0).isLt⟩ n (k0_off15 i k) (k0_off15_inb i k)
      (by rw [pr_off15, hn]) (k0_off16_inb _ _ hc.c8) col
  | ⟨8, _⟩, hn =>
    exact pr_row c arg1 arg2 arg3 T1 T2 x0 ⟨(i 0).val, (i 0).isLt⟩ n (k0_off17 i k) (k0_off17_inb i k)
      (by rw [pr_off17, hn]) (k0_off18_inb _ _ hc.c9) col
  | ⟨9, _⟩, hn =>
    exact pr_row c arg1 arg2 arg3 T1 T2 x0 ⟨(i 0).val, (i 0).isLt⟩ n (k0_off19 i k) (k0_off19_inb i k)
      (by rw [pr_off19, hn]) (k0_off20_inb _ _ hc.c10) col
  | ⟨10, _⟩, hn =>
    exact pr_row c arg1 arg2 arg3 T1 T2 x0 ⟨(i 0).val, (i 0).isLt⟩ n (k0_off21 i k) (k0_off21_inb i k)
      (by rw [pr_off21, hn]) (k0_off22_inb _ _ hc.c11) col
  | ⟨11, _⟩, hn =>
    exact pr_row c arg1 arg2 arg3 T1 T2 x0 ⟨(i 0).val, (i 0).isLt⟩ n (k0_off23 i k) (k0_off23_inb i k)
      (by rw [pr_off23, hn]) (k0_off24_inb _ _ hc.c12) col
  | ⟨12, _⟩, hn =>
    exact pr_row c arg1 arg2 arg3 T1 T2 x0 ⟨(i 0).val, (i 0).isLt⟩ n (k0_off25 i k) (k0_off25_inb i k)
      (by rw [pr_off25, hn]) (k0_off26_inb _ _ hc.c13) col
  | ⟨13, _⟩, hn =>
    exact pr_row c arg1 arg2 arg3 T1 T2 x0 ⟨(i 0).val, (i 0).isLt⟩ n (k0_off27 i k) (k0_off27_inb i k)
      (by rw [pr_off27, hn]) (k0_off28_inb _ _ hc.c14) col
  | ⟨14, _⟩, hn =>
    exact pr_row c arg1 arg2 arg3 T1 T2 x0 ⟨(i 0).val, (i 0).isLt⟩ n (k0_off29 i k) (k0_off29_inb i k)
      (by rw [pr_off29, hn]) (k0_off30_inb _ _ hc.c15) col
  | ⟨15, _⟩, hn =>
    exact pr_row c arg1 arg2 arg3 T1 T2 x0 ⟨(i 0).val, (i 0).isLt⟩ n (k0_off31 i k) (k0_off31_inb i k)
      (by rw [pr_off31, hn]) (k0_off32_inb _ _ hc.c16) col
  | ⟨_ + 16, h⟩, _ => exact absurd h (by omega)

end Cert.Proof.K

end
-- ==== Proof.K.PatchVal.lean ====
/-
  The scratch after the gathering loop, read index by index, for every float instance.

  After n trips the scratch is its entry contents with the first n blocks of sixteen rows overwritten, so a row below
  16·n reads row (r mod 16) of the block trip (r / 16) stored. Entry (r', col) of the block trip k stores is the
  narrow-format conversion of entry col of window r' flattened: the image block at channel col / 256, row
  h + (col / 16) % 16, column w + col % 16, with (h, w) the two table words at cell (b, 16·k + r'), b the grid
  coordinate. After thirty-six trips every row is below 576 = 16·36, so the scratch read whole is the patch matrix of
  the specification and no longer depends on the entry contents.
-/
import proofs.«400218_j73332271612542_2_alg».proof.Proof.K.Body
import proofs.«400218_j73332271612542_2_alg».proof.Proof.K.PatchRow
import proofs.«400218_j73332271612542_2_alg».proof.Proof.Spec
import Idealize.ShloMosaic.Lib.Pipeline.Value
import Idealize.ShloMosaic.Lib.ValueIdx
import Idealize.ShloMosaic.Lib.ValueLayout
import Idealize.ShloMosaic.Lib.WritesUnit

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The change of float format of ONE entry: the scalar operation the vector conversion applies lane by lane. -/
def cvt : Elt F .f32 → Elt F .bf16 := fun x => FloatOps.truncf .bf16 bitsLt_bf16_f32 x

/-- The vector conversion read at an index converts the entry there. -/
theorem truncf_apply {s : Shape} (v : FVec F s .f32) (j : s.Idx) :
    (truncf .bf16 v bitsLt_bf16_f32) j = cvt (v j) := rfl

/-- Over the extended reals a change of float format is the identity. -/
theorem cvt_ideal (e : Elt Ideal .f32) : cvt (F := Ideal) e = e := rfl

/-- The loop runs thirty-six trips. -/
theorem pv_trips : k0_t1_loop.trips = 36 := by decide

/-- The first row of trip `k`'s block, as a number: sixteen times the trip. -/
theorem pv_word0 (k : Nat) (hk : k < 36) :
    (Scalar.indexCast (Scalar.muli (Scalar.addi 0#32 (Scalar.muli (Scf.iv 0#32 1#32 k) 1#32)) 16#32)).toNat = 16 * k := by
  simp only [Scalar.indexCast, Scalar.addi, Scalar.muli, IntOp.addi, IntOp.muli, Scf.iv]
  simp only [BitVec.toNat_add, BitVec.toNat_mul, BitVec.toNat_ofNat]
  omega

/-- Trip `k`'s block starts at row `16·k`, column 0. -/
theorem pv_off33 (k : Fin k0_t1_loop.trips) : k0_off33 k = ![16 * k.val, 0] := by
  have hk : k.val < 36 := lt_of_lt_of_eq k.isLt pv_trips
  have h := pv_word0 k.val hk
  unfold k0_off33
  simp only [Scalar.indexCast] at h ⊢
  rw [h]

section PatchVal

variable (c : Dev nD) (i : grid0.Coords)
  (arg1 : Memref sig .tc .smem S32x576 .i32) (arg2 : Memref sig .tc .smem S32x576 .i32)
  (arg3 : Memref sig .tc .vmem S1x3x384x384 .f32)
  (arg7 : Memref sig .tc .vmem S576x768 .bf16)
  (T1 : Buf (Elt F) (arg1.view.loc (c : Thread nD τ))) (T2 : Buf (Elt F) (arg2.view.loc (c : Thread nD τ)))
  (x0 : Buf (Elt F) (arg3.view.loc (c : Thread nD τ)))
  (hchk : ∀ k, Chk c i arg1 arg2 T1 T2 k)

/-- A row below `16·n` of the scratch after `n` trips reads, in the block of the trip that wrote it, its row modulo
    sixteen: by induction on the trips, the newest block either holds the row or leaves it to the earlier ones. -/
theorem pv_acc_read (f₀ : Buf (Elt F) (arg7.view.loc (c : Thread nD τ))) (r : Fin 576) (col : Fin 768)
    (k : Fin k0_t1_loop.trips) (hk : k.val = r.val / 16) (r' : Fin 16) (hr' : r'.val = r.val % 16) (n : ℕ) :
    n ≤ 36 → r.val < 16 * n →
      arg7.view.read (Elt F) (ACC c i arg1 arg2 arg3 arg7 T1 T2 x0 hchk f₀ n) (ix2 r col)
        = rowBlk c i arg1 arg2 arg3 T1 T2 x0 k (hchk k) (ix2 r' col) := by
  induction n with
  | zero => intro _ hr; exact absurd hr (by omega)
  | succ n ih =>
    intro hn hr
    have hn' : n < k0_t1_loop.trips := by rw [pv_trips]; omega
    rw [show ACC c i arg1 arg2 arg3 arg7 T1 T2 x0 hchk f₀ (n + 1)
          = STEP c i arg1 arg2 arg3 arg7 T1 T2 x0 hchk ⟨n, hn'⟩ (ACC c i arg1 arg2 arg3 arg7 T1 T2 x0 hchk f₀ n)
        from ACC_succ c i arg1 arg2 arg3 arg7 T1 T2 x0 hchk f₀ ⟨n, hn'⟩]
    unfold STEP
    by_cases hlt : r.val < 16 * n
    · -- the newest block starts above the row: the earlier trips' contents are read
      generalize rowBlk c i arg1 arg2 arg3 T1 T2 x0 ⟨n, hn'⟩ (hchk ⟨n, hn'⟩) = W
      rw [View.read_writes_cons_rows_of_not_mem (Val := Elt F) arg7.view _ (k0_off33_inb ⟨n, hn'⟩) W [] (ix2 r col)
        (pv_off33 ⟨n, hn'⟩) rfl (Or.inl hlt)]
      rw [View.writes_nil]
      exact ih (by omega) hlt
    · -- the newest block holds the row: it is the block of trip `r / 16`
      have hkn : (⟨n, hn'⟩ : Fin k0_t1_loop.trips) = k := Fin.ext (by show n = k.val; omega)
      subst hkn
      generalize rowBlk c i arg1 arg2 arg3 T1 T2 x0 ⟨n, hn'⟩ (hchk ⟨n, hn'⟩) = W
      exact View.read_writes_cons_rows_of_mem (Val := Elt F) arg7.view _ (k0_off33_inb ⟨n, hn'⟩) W [] (ix2 r col) (ix2 r' col)
        (pv_off33 ⟨n, hn'⟩) (by show r.val = 16 * n + r'.val; omega) rfl

/-- The scratch after the loop, read whole, is the specification's patch matrix of the image block at the grid's batch
    element, each entry converted to the narrow format: every row is below `576 = 16·36`, so each entry is an entry of
    a stored block, and that is the converted image-block entry the two table words at the row's cell point at. -/
theorem scr_read (f₀ : Buf (Elt F) (arg7.view.loc (c : Thread nD τ))) :
    View.readAt (Elt F) arg7.view rAll7.toLoadRect (scrEnd c i arg1 arg2 arg3 arg7 T1 T2 x0 hchk f₀)
      = Cert.Proof.Spec.patchMat cvt (arg3.view.read (Elt F) x0) (arg1.view.read (Elt F) T1) (arg2.view.read (Elt F) T2)
          ⟨(i 0).val, (i 0).isLt⟩ := by
  -- the whole-buffer load reads the contents
  have h1 : View.readAt (Elt F) arg7.view rAll7.toLoadRect (scrEnd c i arg1 arg2 arg3 arg7 T1 T2 x0 hchk f₀)
      = arg7.view.read (Elt F) (scrEnd c i arg1 arg2 arg3 arg7 T1 T2 x0 hchk f₀) :=
    View.ld_unit_zero (by funext a; fin_cases a <;> rfl) _ _
  rw [h1]
  funext j
  obtain ⟨r, col, rfl⟩ : ∃ (r : Fin 576) (col : Fin 768), j = ix2 r col := ⟨j 0, j 1, eq_ix2 j⟩
  have hr : r.val < 576 := r.isLt
  have hk : r.val / 16 < k0_t1_loop.trips := by rw [pv_trips]; omega
  show arg7.view.read (Elt F) (ACC c i arg1 arg2 arg3 arg7 T1 T2 x0 hchk f₀ 36) (ix2 r col) = _
  rw [pv_acc_read c i arg1 arg2 arg3 arg7 T1 T2 x0 hchk f₀ r col ⟨r.val / 16, hk⟩ rfl
    ⟨r.val % 16, Nat.mod_lt _ (by decide)⟩ rfl 36 le_rfl (by omega)]
  rw [pv_rowBlk_apply c i arg1 arg2 arg3 T1 T2 x0 ⟨r.val / 16, hk⟩ (hchk _) ⟨r.val % 16, Nat.mod_lt _ (by decide)⟩ col r
    (by show r.val = 16 * (r.val / 16) + r.val % 16; omega)]
  rfl

end PatchVal

end Cert.Proof.K

end
-- ==== Proof.K.Dats.lean ====
/-
  The pipeline's proof data, the body obligation, the launch and the frame, for every float instance.

  At grid point t (the batch element) the body reads the two index tables, the image block, the weight block and the
  bias, fills the scratch with the 576×768 patch matrix of that image and stores the product of the patch matrix with
  the weight block, plus the bias along the rows, whole into the output block. So what the output window's staging
  buffer holds after the body depends on the three input blocks and the tables only (outBlk), not on what the
  scratch or the staging buffer held before; the three inputs' staging buffers hold their blocks before and after.
  With that as the proof data the body's run is the library's body obligation, the library's launch theorem runs the
  whole program, and its final-state description gives back the five argument arrays as launched.
-/
import proofs.«400218_j73332271612542_2_alg».proof.Proof.K.Kit
import proofs.«400218_j73332271612542_2_alg».proof.Proof.K.Body
import proofs.«400218_j73332271612542_2_alg».proof.Proof.K.Hyps
import proofs.«400218_j73332271612542_2_alg».proof.Proof.K.PatchVal

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- The batch element of grid point t. -/
abbrev bOf (t : Fin (cfgM m).N) : Fin 32 := ⟨t.val, t.isLt.trans_eq N_0⟩

/-- What the output window's staging buffer holds after the body at point t: the patch matrix of the image block
    (its corners read off the two tables at batch element t) against the weight block, plus the bias. -/
def outBlk (c : Dev nD) (t : Fin (cfgM m).N) : Vec F S1x576x768 .f32 :=
  k0_pay2 (Cert.Proof.Spec.patchMat cvt (iblk m c 0 t) (tbl m 0) (tbl m 1) (bOf m t)) (iblk m c 1 t) (iblk m c 2 t)

/-! ## The pipeline's proof data -/

/-- The proof data of the one pipeline on core c: the arrays as the region finds them; after the body at point t each
    input's buffer at its block and the output's at outBlk; the invariant the scoped rest with the generator
    register, and the tables' read-only halves; nothing owed; full shares. -/
def dats (hr : Cert.Proof.Spec.InRange (tbl m 0) (tbl m 1)) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := iprop(Pipeline.ΦA spec0 c ∗ Pipeline.ΦT pre0 (tbl m) c)
  q _ := fullShare
  owed _ := 0

theorem A_eq (hr : Cert.Proof.Spec.InRange (tbl m 0) (tbl m 1)) (c : Dev nD) (w : Fin (cfgM m).W) : (dats m hr 0 c).A w = V m c (Pipeline.arrRef spec0 w) := by
  dsimp only [dats]

theorem after0_0 (hr : Cert.Proof.Spec.InRange (tbl m 0) (tbl m 1)) (c : Dev nD) (t : Fin (cfgM m).N) : (dats m hr 0 c).after 0 t = iblk m c 0 t := by dsimp only [dats]; try rfl
theorem after0_1 (hr : Cert.Proof.Spec.InRange (tbl m 0) (tbl m 1)) (c : Dev nD) (t : Fin (cfgM m).N) : (dats m hr 0 c).after 1 t = iblk m c 1 t := by dsimp only [dats]; try rfl
theorem after0_2 (hr : Cert.Proof.Spec.InRange (tbl m 0) (tbl m 1)) (c : Dev nD) (t : Fin (cfgM m).N) : (dats m hr 0 c).after 2 t = iblk m c 2 t := by dsimp only [dats]; try rfl
theorem after0_3 (hr : Cert.Proof.Spec.InRange (tbl m 0) (tbl m 1)) (c : Dev nD) (t : Fin (cfgM m).N) : (dats m hr 0 c).after 3 t = outBlk m c t := by dsimp only [dats]; try rfl

theorem before0_0 (hr : Cert.Proof.Spec.InRange (tbl m 0) (tbl m 1)) (c : Dev nD) (t : Fin (cfgM m).N) (d) : (dats m hr 0 c).before 0 t d = iblk m c 0 t :=
  before0_0_of m (dats m hr 0 c) (A_eq m hr c 0) (after0_0 m hr c) t d
theorem before0_1 (hr : Cert.Proof.Spec.InRange (tbl m 0) (tbl m 1)) (c : Dev nD) (t : Fin (cfgM m).N) (d) : (dats m hr 0 c).before 1 t d = iblk m c 1 t :=
  before0_1_of m (dats m hr 0 c) (A_eq m hr c 1) (after0_1 m hr c) t d
theorem before0_2 (hr : Cert.Proof.Spec.InRange (tbl m 0) (tbl m 1)) (c : Dev nD) (t : Fin (cfgM m).N) (d) : (dats m hr 0 c).before 2 t d = iblk m c 2 t :=
  before0_2_of m (dats m hr 0 c) (A_eq m hr c 2) (after0_2 m hr c) t d

/-! ## The value the body stores, read back -/

/-- On the one-axis grid the point's coordinate is the point. -/
theorem coords_val (t : Fin (cfgM m).N) : ((grid0.coords t) 0).val = t.val := by
  have hs : grid0.stride 0 = 1 := by decide
  show t.val / grid0.stride 0 % grid0.bound 0 = t.val
  rw [hs, Nat.div_one]
  exact Nat.mod_eq_of_lt (t.isLt.trans_eq N_0)

theorem zeros1 : (![0] : Fin S768.rank → Nat) = fun _ => 0 := by funext a; fin_cases a <;> rfl
theorem zeros2 : (![0, 0] : Fin S768x768.rank → Nat) = fun _ => 0 := by funext a; fin_cases a <;> rfl
theorem zeros3 : (![0, 0, 0] : Fin S1x576x768.rank → Nat) = fun _ => 0 := by funext a; fin_cases a <;> rfl

section Out

variable (c : Dev nD) (i : grid0.Coords)
  (arg1 : Memref sig .tc .smem S32x576 .i32) (arg2 : Memref sig .tc .smem S32x576 .i32)
  (arg3 : Memref sig .tc .vmem S1x3x384x384 .f32) (harg3 : arg3.IsWhole)
  (arg4 : Memref sig .tc .vmem S768x768 .bf16) (harg4 : arg4.IsWhole)
  (arg5 : Memref sig .tc .vmem S768 .f32) (harg5 : arg5.IsWhole)
  (arg6 : Memref sig .tc .vmem S1x576x768 .f32)
  (arg7 : Memref sig .tc .vmem S576x768 .bf16)
  (T1 : Buf (Elt F) (arg1.view.loc (c : Thread nD τ))) (T2 : Buf (Elt F) (arg2.view.loc (c : Thread nD τ)))

/-- The output block is overwritten whole by one piece, so it reads that piece's value whatever it held. -/
theorem read_OUT (x0 : Buf (Elt F) (arg3.view.loc (c : Thread nD τ))) (w0 : Buf (Elt F) (arg4.view.loc (c : Thread nD τ)))
    (b0 : Buf (Elt F) (arg5.view.loc (c : Thread nD τ))) (hchk : ∀ k, Chk c i arg1 arg2 T1 T2 k)
    (f₀ : Buf (Elt F) (arg7.view.loc (c : Thread nD τ))) (o₀ : Buf (Elt F) (arg6.view.loc (c : Thread nD τ))) :
    arg6.view.read (Elt F) (OUT c i arg1 arg2 arg3 arg4 arg5 arg6 arg7 T1 T2 x0 w0 b0 hchk f₀ o₀)
      = outVal c i arg1 arg2 arg3 arg4 arg5 arg7 T1 T2 x0 w0 b0 hchk f₀ := by
  unfold OUT
  rw [View.read_writes_eq_canon _ _ _ (fun y => ⟨_, List.mem_singleton_self _, View.mem_set_unit_zero zeros3 inb_S1x576x768_S1x576x768_0_0_0 y⟩),
    View.canon_unit_zero zeros3]

/-- The stored value when the three input buffers hold given blocks: the scratch read back is the patch matrix of the
    image block, and the whole reads of the weight buffer and of the bias buffer are their blocks. -/
theorem outVal_unread (X0 : Vec F S1x3x384x384 .f32) (X1 : Vec F S768x768 .bf16) (X2 : Vec F S768 .f32)
    (hchk : ∀ k, Chk c i arg1 arg2 T1 T2 k) (f₀ : Buf (Elt F) (arg7.view.loc (c : Thread nD τ))) :
    outVal c i arg1 arg2 arg3 arg4 arg5 arg7 T1 T2 (harg3.unread X0) (harg4.unread X1) (harg5.unread X2) hchk f₀
      = k0_pay2 (Cert.Proof.Spec.patchMat cvt X0 (arg1.view.read (Elt F) T1) (arg2.view.read (Elt F) T2) ⟨(i 0).val, (i 0).isLt⟩) X1 X2 := by
  unfold outVal
  rw [scr_read, harg3.read_unread, View.readAt_eq_ld, View.readAt_eq_ld, harg4.read_unread, harg5.read_unread,
    View.ld_unit_zero zeros2, View.ld_unit_zero zeros1]

end Out

/-! ## The body obligation, at a generic point -/

/-- The body as the pipeline calls it at point t: the kernel function at the point's coordinates, on the two tables
    whole, the four windows' current staging memrefs and the scratch whole. -/
abbrev bodyAt (t : Fin (cfgM m).N) : Prog (TpuEff nD τ sig (Elt F) Λ₀ .tc) PUnit :=
  cc0__patch_embed_kernel (grid0.coords t) tbM1 htbM1 tbM2 htbM2 (ms0_0 m t) (hs0_0 m t) (ms0_1 m t) (hs0_1 m t)
    (ms0_2 m t) (hs0_2 m t) (ms0_3 m t) (hs0_3 m t) scrM hscrM

/-- What the body is handed at point t: the invariant, what the core owes, and each window's current staging buffer at
    what it then holds. -/
def bodyPre (hr : Cert.Proof.Spec.InRange (tbl m 0) (tbl m 1)) (c : Dev nD) (t : Fin (cfgM m).N) : sProp 𝕄 :=
  iprop((dats m hr 0 c).Φ t.castSucc ∗ (dats m hr 0 c).owesAt () t.castSucc
    ∗ (∃ d, owns (c : Thread nD τ) (ms0_0 m t) fullShare ((dats m hr 0 c).before 0 t d))
    ∗ (∃ d, owns (c : Thread nD τ) (ms0_1 m t) fullShare ((dats m hr 0 c).before 1 t d))
    ∗ (∃ d, owns (c : Thread nD τ) (ms0_2 m t) fullShare ((dats m hr 0 c).before 2 t d))
    ∗ (∃ d, owns (c : Thread nD τ) (ms0_3 m t) fullShare ((dats m hr 0 c).before 3 t d)))

/-- What the body hands back: the same invariant and debt, the three inputs' buffers at their blocks and the output's at
    outBlk. -/
def bodyPost (hr : Cert.Proof.Spec.InRange (tbl m 0) (tbl m 1)) (c : Dev nD) (t : Fin (cfgM m).N) : sProp 𝕄 :=
  iprop((dats m hr 0 c).Φ t.succ ∗ (dats m hr 0 c).owesAt () t.succ
    ∗ owns (c : Thread nD τ) (ms0_0 m t) fullShare ((dats m hr 0 c).after 0 t)
    ∗ owns (c : Thread nD τ) (ms0_1 m t) fullShare ((dats m hr 0 c).after 1 t)
    ∗ owns (c : Thread nD τ) (ms0_2 m t) fullShare ((dats m hr 0 c).after 2 t)
    ∗ owns (c : Thread nD τ) (ms0_3 m t) fullShare ((dats m hr 0 c).after 3 t))

/-- The body at any point. The inputs' buffers hold their blocks, the tables' corners are in range, so the body's run
    applies from whatever the scratch and the output buffer hold; the generator register and the debt pass through
    unread; the scratch goes back into the invariant at its new contents; and the output buffer, overwritten whole,
    reads the product of the patch matrix with the weight block plus the bias, the patch matrix being the one of the
    batch element the point's coordinate names, which is the point itself. -/
theorem sound_body (hr : Cert.Proof.Spec.InRange (tbl m 0) (tbl m 1)) (c : Dev nD) (t : Fin (cfgM m).N) :
    bodyPre m hr c t ⊢ wp frame (wpE (defs₀ (F := F)) Variants.none c none) Set.univ (bodyAt m t) (fun _ => bodyPost m hr c t) := by
  unfold bodyPre bodyPost
  simp only [before0_0, before0_1, before0_2]
  rw [show (dats m hr 0 c).Φ t.succ = (dats m hr 0 c).Φ t.castSucc from rfl,
    show (dats m hr 0 c).owesAt () t.succ = (dats m hr 0 c).owesAt () t.castSucc from rfl,
    after0_0, after0_1, after0_2, after0_3]
  rw [show (dats m hr 0 c).Φ t.castSucc = iprop(Pipeline.ΦA spec0 c ∗ Pipeline.ΦT pre0 (tbl m) c) from rfl, PhiT0_eq]
  unfold Pipeline.ΦA
  rw [scopedRest0_eq]
  unfold owns
  have hchk : ∀ k, Chk c (grid0.coords t) tbM1 tbM2 (tbl m 0) (tbl m 1) k :=
    chk_of_inRange c (grid0.coords t) tbM1 tbM2 (tbl m 0) (tbl m 1) htbM1 htbM2 hr
  have e7 : ∀ f : Buf (Elt F) ((c : Thread nD τ).loc cc0_scratch0),
      ((scrM.view.loc (c : Thread nD τ) ↦[scrM.view.set]{fullShare} f : sProp 𝕄)) = ((c : Thread nD τ).loc cc0_scratch0 ↦{fullShare} f) :=
    fun f => by simp only [Memref.view_whole, View.set_whole]
  have hrun := fun f₀ o₀ => body_run c (grid0.coords t) tbM1 htbM1 tbM2 htbM2 (ms0_0 m t) (hs0_0 m t) (ms0_1 m t) (hs0_1 m t)
    (ms0_2 m t) (hs0_2 m t) (ms0_3 m t) (hs0_3 m t) scrM hscrM (tbl m 0) (tbl m 1)
    ((hs0_0 m t).unread (iblk m c 0 t)) ((hs0_1 m t).unread (iblk m c 1 t)) ((hs0_2 m t).unread (iblk m c 2 t)) hchk f₀ o₀
  unfold BODY at hrun
  simp only [e7] at hrun
  iintro ⟨⟨⟨⟨%f7, H7⟩, Hp⟩, HT1, HT2⟩, Ho, ⟨%d0, %f0, %hf0, H0⟩, ⟨%d1, %f1, %hf1, H1⟩, ⟨%d2, %f2, %hf2, H2⟩, ⟨%d3, %f3, -, H3⟩⟩
  obtain rfl := (hs0_0 m t).eq_unread hf0
  obtain rfl := (hs0_1 m t).eq_unread hf1
  obtain rfl := (hs0_2 m t).eq_unread hf2
  iapply (wp_wand_r frame _ Set.univ)
  isplitl [HT1 HT2 H0 H1 H2 H3 H7]
  · iapply (hrun f7 f3)
    isplitl [HT1]; · iexact HT1
    isplitl [HT2]; · iexact HT2
    isplitl [H0]; · iexact H0
    isplitl [H1]; · iexact H1
    isplitl [H2]; · iexact H2
    isplitl [H3]; · iexact H3
    iexact H7
  iintro %_ ⟨HT1, HT2, H0, H1, H2, H3, H7⟩
  isplitl [H7 Hp HT1 HT2]
  · isplitl [H7 Hp]
    · isplitl [H7]
      · iexists _; iexact H7
      · iexact Hp
    · isplitl [HT1]; · iexact HT1
      iexact HT2
  isplitl [Ho]; · iexact Ho
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  have hb : (⟨((grid0.coords t) 0).val, ((grid0.coords t) 0).isLt⟩ : Fin 32) = bOf m t := Fin.ext (coords_val m t)
  exact (read_OUT c (grid0.coords t) tbM1 tbM2 (ms0_0 m t) (ms0_1 m t) (ms0_2 m t) (ms0_3 m t) scrM (tbl m 0) (tbl m 1) _ _ _ hchk f7 f3).trans
    ((outVal_unread c (grid0.coords t) tbM1 tbM2 (ms0_0 m t) (hs0_0 m t) (ms0_1 m t) (hs0_1 m t) (ms0_2 m t) (hs0_2 m t) scrM
        (tbl m 0) (tbl m 1) (iblk m c 0 t) (iblk m c 1 t) (iblk m c 2 t) hchk f7).trans
      (congrArg (fun b => k0_pay2 (Cert.Proof.Spec.patchMat cvt (iblk m c 0 t) (tbl m 0) (tbl m 1) b) (iblk m c 1 t) (iblk m c 2 t)) hb))

/-- The body obligation at every point: the four windows one by one, then the body's run. -/
theorem body_obligation (hr : Cert.Proof.Spec.InRange (tbl m 0) (tbl m 1)) (c : Dev nD) : BodyObligation (dats (F := F) m hr 0 c) (defs₀ (F := F)) Variants.none () Set.univ := fun t => by
  rw [bigSep_W0, bigSep_W0]
  exact sound_body m hr c t

/-! ## The run and the frame -/

set_option backward.isDefEq.respectTransparency.types false in
/-- From any launch memory with zero counters whose index tables are in range, every weakly fair execution of the program
    terminates, and in every final state each windowed array holds what the proof data computes for it (an input its
    entry contents, the output its blocks overwritten by outBlk point by point) and every other unscoped buffer what it
    held when the region was entered. -/
theorem run_main (hr : Cert.Proof.Spec.InRange (tbl m 0) (tbl m 1)) : θ_run defs (onTc (τ := τ) (main (F := F))) (s₀ m ρ) (Pipeline.FramePost (Pipeline.pin pcfgs fun _ => adm m) (dats m hr) 0 (V m)) :=
  Pipeline.θ_run_frameP pcfgs (fun _ => adm m) (dats m hr) (0 : Fin 1) launch0 defs₀ Variants.none m ρ main
    (hbody := fun c => (body_obligation m hr c).loose) (hshare := fun c => (dats m hr 0 c).share_full fun _ => rfl)
    (howed := fun _ _ => rfl) (V := V m) (hmain := hmain m Variants.none) (hA := A_eq m hr) (hpf := V_pre m)
    (hΦ := fun _ _ => rfl)

/-- The frame: under the same hypothesis the five argument arrays end as they were launched. -/
theorem frame (hr : Cert.Proof.Spec.InRange (tbl m 0) (tbl m 1)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hr) (A_eq m hr) (run_main m ρ hr)

end Cert.Proof.K

end
-- ==== Proof.KI.Words.lean ====
/-
  The sixteen rows of one trip of the patch-gathering loop, row by row, for every float instance.

  Row `r` of trip `k` reads the corner `(h, w)` of patch `16k + r - 1` of the batch element from the two index
  tables (`hW r k`, `wW r k`: one-cell reads of the tables), and loads the 3×16×16 window of the image block whose
  top-left corner that is (`ld r k`). The window lies inside the 384×384 image exactly when the load's side
  condition holds; `Chk k` bundles the sixteen side conditions of trip `k`.
-/
import proofs.«400218_j73332271612542_2_alg».proof.Proof.Gen.KernelIdeal.Loops
import proofs.«400218_j73332271612542_2_alg».proof.Proof.Gen.KernelIdeal.Launch
import Idealize.ShloMosaic.Lib.Tactic

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Rows

variable (c : Dev nD) (i : grid0.Coords)
  (arg1 : Memref sig .tc .smem S32x576 .i32) (arg2 : Memref sig .tc .smem S32x576 .i32)
  (arg3 : Memref sig .tc .vmem S1x3x384x384 .f32)
  (T1 : Buf (Elt F) (arg1.view.loc (c : Thread nD τ))) (T2 : Buf (Elt F) (arg2.view.loc (c : Thread nD τ)))
  (x0 : Buf (Elt F) (arg3.view.loc (c : Thread nD τ)))

/-- The word a table holds at cell `o`, as a one-cell read through the table's memref. -/
abbrev wd (M : Memref sig .tc .smem S32x576 .i32) (T : Buf (Elt F) (M.view.loc (c : Thread nD τ))) (o : Fin 2 → Nat)
    (ho : ∀ a, o a + S1x1.size a ≤ S32x576.size a) : Elt F .i32 :=
  M.view.readAt (Elt F) (Rect.unit (s := S32x576) o S1x1.size ho).toLoadRect T (Shape.Idx.first (numel1_S1x1.symm ▸ Nat.one_pos))

/-! The corner words: the row coordinate from the first table, the column coordinate from the second. -/
abbrev hW1 (k : Fin k0_t1_loop.trips) : Elt F .i32 := wd c arg1 T1 (k0_off1 i k) (k0_off1_inb i k)
abbrev wW1 (k : Fin k0_t1_loop.trips) : Elt F .i32 := wd c arg2 T2 (k0_off1 i k) (k0_off1_inb i k)
abbrev hW2 (k : Fin k0_t1_loop.trips) : Elt F .i32 := wd c arg1 T1 (k0_off3 i k) (k0_off3_inb i k)
abbrev wW2 (k : Fin k0_t1_loop.trips) : Elt F .i32 := wd c arg2 T2 (k0_off3 i k) (k0_off3_inb i k)
abbrev hW3 (k : Fin k0_t1_loop.trips) : Elt F .i32 := wd c arg1 T1 (k0_off5 i k) (k0_off5_inb i k)
abbrev wW3 (k : Fin k0_t1_loop.trips) : Elt F .i32 := wd c arg2 T2 (k0_off5 i k) (k0_off5_inb i k)
abbrev hW4 (k : Fin k0_t1_loop.trips) : Elt F .i32 := wd c arg1 T1 (k0_off7 i k) (k0_off7_inb i k)
abbrev wW4 (k : Fin k0_t1_loop.trips) : Elt F .i32 := wd c arg2 T2 (k0_off7 i k) (k0_off7_inb i k)
abbrev hW5 (k : Fin k0_t1_loop.trips) : Elt F .i32 := wd c arg1 T1 (k0_off9 i k) (k0_off9_inb i k)
abbrev wW5 (k : Fin k0_t1_loop.trips) : Elt F .i32 := wd c arg2 T2 (k0_off9 i k) (k0_off9_inb i k)
abbrev hW6 (k : Fin k0_t1_loop.trips) : Elt F .i32 := wd c arg1 T1 (k0_off11 i k) (k0_off11_inb i k)
abbrev wW6 (k : Fin k0_t1_loop.trips) : Elt F .i32 := wd c arg2 T2 (k0_off11 i k) (k0_off11_inb i k)
abbrev hW7 (k : Fin k0_t1_loop.trips) : Elt F .i32 := wd c arg1 T1 (k0_off13 i k) (k0_off13_inb i k)
abbrev wW7 (k : Fin k0_t1_loop.trips) : Elt F .i32 := wd c arg2 T2 (k0_off13 i k) (k0_off13_inb i k)
abbrev hW8 (k : Fin k0_t1_loop.trips) : Elt F .i32 := wd c arg1 T1 (k0_off15 i k) (k0_off15_inb i k)
abbrev wW8 (k : Fin k0_t1_loop.trips) : Elt F .i32 := wd c arg2 T2 (k0_off15 i k) (k0_off15_inb i k)
abbrev hW9 (k : Fin k0_t1_loop.trips) : Elt F .i32 := wd c arg1 T1 (k0_off17 i k) (k0_off17_inb i k)
abbrev wW9 (k : Fin k0_t1_loop.trips) : Elt F .i32 := wd c arg2 T2 (k0_off17 i k) (k0_off17_inb i k)
abbrev hW10 (k : Fin k0_t1_loop.trips) : Elt F .i32 := wd c arg1 T1 (k0_off19 i k) (k0_off19_inb i k)
abbrev wW10 (k : Fin k0_t1_loop.trips) : Elt F .i32 := wd c arg2 T2 (k0_off19 i k) (k0_off19_inb i k)
abbrev hW11 (k : Fin k0_t1_loop.trips) : Elt F .i32 := wd c arg1 T1 (k0_off21 i k) (k0_off21_inb i k)
abbrev wW11 (k : Fin k0_t1_loop.trips) : Elt F .i32 := wd c arg2 T2 (k0_off21 i k) (k0_off21_inb i k)
abbrev hW12 (k : Fin k0_t1_loop.trips) : Elt F .i32 := wd c arg1 T1 (k0_off23 i k) (k0_off23_inb i k)
abbrev wW12 (k : Fin k0_t1_loop.trips) : Elt F .i32 := wd c arg2 T2 (k0_off23 i k) (k0_off23_inb i k)
abbrev hW13 (k : Fin k0_t1_loop.trips) : Elt F .i32 := wd c arg1 T1 (k0_off25 i k) (k0_off25_inb i k)
abbrev wW13 (k : Fin k0_t1_loop.trips) : Elt F .i32 := wd c arg2 T2 (k0_off25 i k) (k0_off25_inb i k)
abbrev hW14 (k : Fin k0_t1_loop.trips) : Elt F .i32 := wd c arg1 T1 (k0_off27 i k) (k0_off27_inb i k)
abbrev wW14 (k : Fin k0_t1_loop.trips) : Elt F .i32 := wd c arg2 T2 (k0_off27 i k) (k0_off27_inb i k)
abbrev hW15 (k : Fin k0_t1_loop.trips) : Elt F .i32 := wd c arg1 T1 (k0_off29 i k) (k0_off29_inb i k)
abbrev wW15 (k : Fin k0_t1_loop.trips) : Elt F .i32 := wd c arg2 T2 (k0_off29 i k) (k0_off29_inb i k)
abbrev hW16 (k : Fin k0_t1_loop.trips) : Elt F .i32 := wd c arg1 T1 (k0_off31 i k) (k0_off31_inb i k)
abbrev wW16 (k : Fin k0_t1_loop.trips) : Elt F .i32 := wd c arg2 T2 (k0_off31 i k) (k0_off31_inb i k)

/-- Every one of trip `k`'s sixteen windows lies inside the image block. -/
structure Chk (k : Fin k0_t1_loop.trips) : Prop where
  c1 : k0_chk1 (hW1 c i arg1 T1 k) (wW1 c i arg2 T2 k)
  c2 : k0_chk2 (hW2 c i arg1 T1 k) (wW2 c i arg2 T2 k)
  c3 : k0_chk3 (hW3 c i arg1 T1 k) (wW3 c i arg2 T2 k)
  c4 : k0_chk4 (hW4 c i arg1 T1 k) (wW4 c i arg2 T2 k)
  c5 : k0_chk5 (hW5 c i arg1 T1 k) (wW5 c i arg2 T2 k)
  c6 : k0_chk6 (hW6 c i arg1 T1 k) (wW6 c i arg2 T2 k)
  c7 : k0_chk7 (hW7 c i arg1 T1 k) (wW7 c i arg2 T2 k)
  c8 : k0_chk8 (hW8 c i arg1 T1 k) (wW8 c i arg2 T2 k)
  c9 : k0_chk9 (hW9 c i arg1 T1 k) (wW9 c i arg2 T2 k)
  c10 : k0_chk10 (hW10 c i arg1 T1 k) (wW10 c i arg2 T2 k)
  c11 : k0_chk11 (hW11 c i arg1 T1 k) (wW11 c i arg2 T2 k)
  c12 : k0_chk12 (hW12 c i arg1 T1 k) (wW12 c i arg2 T2 k)
  c13 : k0_chk13 (hW13 c i arg1 T1 k) (wW13 c i arg2 T2 k)
  c14 : k0_chk14 (hW14 c i arg1 T1 k) (wW14 c i arg2 T2 k)
  c15 : k0_chk15 (hW15 c i arg1 T1 k) (wW15 c i arg2 T2 k)
  c16 : k0_chk16 (hW16 c i arg1 T1 k) (wW16 c i arg2 T2 k)

/-! The sixteen windows of the image block that trip `k` loads. -/
abbrev ld1 (k : Fin k0_t1_loop.trips) (hc : Chk c i arg1 arg2 T1 T2 k) : Vec F S1x3x16x16 .f32 :=
  View.readAt (Elt F) arg3.view (Rect.unit (s := S1x3x384x384) (k0_off2 (hW1 c i arg1 T1 k) (wW1 c i arg2 T2 k)) S1x3x16x16.size (k0_off2_inb _ _ hc.c1)).toLoadRect x0
abbrev ld2 (k : Fin k0_t1_loop.trips) (hc : Chk c i arg1 arg2 T1 T2 k) : Vec F S1x3x16x16 .f32 :=
  View.readAt (Elt F) arg3.view (Rect.unit (s := S1x3x384x384) (k0_off4 (hW2 c i arg1 T1 k) (wW2 c i arg2 T2 k)) S1x3x16x16.size (k0_off4_inb _ _ hc.c2)).toLoadRect x0
abbrev ld3 (k : Fin k0_t1_loop.trips) (hc : Chk c i arg1 arg2 T1 T2 k) : Vec F S1x3x16x16 .f32 :=
  View.readAt (Elt F) arg3.view (Rect.unit (s := S1x3x384x384) (k0_off6 (hW3 c i arg1 T1 k) (wW3 c i arg2 T2 k)) S1x3x16x16.size (k0_off6_inb _ _ hc.c3)).toLoadRect x0
abbrev ld4 (k : Fin k0_t1_loop.trips) (hc : Chk c i arg1 arg2 T1 T2 k) : Vec F S1x3x16x16 .f32 :=
  View.readAt (Elt F) arg3.view (Rect.unit (s := S1x3x384x384) (k0_off8 (hW4 c i arg1 T1 k) (wW4 c i arg2 T2 k)) S1x3x16x16.size (k0_off8_inb _ _ hc.c4)).toLoadRect x0
abbrev ld5 (k : Fin k0_t1_loop.trips) (hc : Chk c i arg1 arg2 T1 T2 k) : Vec F S1x3x16x16 .f32 :=
  View.readAt (Elt F) arg3.view (Rect.unit (s := S1x3x384x384) (k0_off10 (hW5 c i arg1 T1 k) (wW5 c i arg2 T2 k)) S1x3x16x16.size (k0_off10_inb _ _ hc.c5)).toLoadRect x0
abbrev ld6 (k : Fin k0_t1_loop.trips) (hc : Chk c i arg1 arg2 T1 T2 k) : Vec F S1x3x16x16 .f32 :=
  View.readAt (Elt F) arg3.view (Rect.unit (s := S1x3x384x384) (k0_off12 (hW6 c i arg1 T1 k) (wW6 c i arg2 T2 k)) S1x3x16x16.size (k0_off12_inb _ _ hc.c6)).toLoadRect x0
abbrev ld7 (k : Fin k0_t1_loop.trips) (hc : Chk c i arg1 arg2 T1 T2 k) : Vec F S1x3x16x16 .f32 :=
  View.readAt (Elt F) arg3.view (Rect.unit (s := S1x3x384x384) (k0_off14 (hW7 c i arg1 T1 k) (wW7 c i arg2 T2 k)) S1x3x16x16.size (k0_off14_inb _ _ hc.c7)).toLoadRect x0
abbrev ld8 (k : Fin k0_t1_loop.trips) (hc : Chk c i arg1 arg2 T1 T2 k) : Vec F S1x3x16x16 .f32 :=
  View.readAt (Elt F) arg3.view (Rect.unit (s := S1x3x384x384) (k0_off16 (hW8 c i arg1 T1 k) (wW8 c i arg2 T2 k)) S1x3x16x16.size (k0_off16_inb _ _ hc.c8)).toLoadRect x0
abbrev ld9 (k : Fin k0_t1_loop.trips) (hc : Chk c i arg1 arg2 T1 T2 k) : Vec F S1x3x16x16 .f32 :=
  View.readAt (Elt F) arg3.view (Rect.unit (s := S1x3x384x384) (k0_off18 (hW9 c i arg1 T1 k) (wW9 c i arg2 T2 k)) S1x3x16x16.size (k0_off18_inb _ _ hc.c9)).toLoadRect x0
abbrev ld10 (k : Fin k0_t1_loop.trips) (hc : Chk c i arg1 arg2 T1 T2 k) : Vec F S1x3x16x16 .f32 :=
  View.readAt (Elt F) arg3.view (Rect.unit (s := S1x3x384x384) (k0_off20 (hW10 c i arg1 T1 k) (wW10 c i arg2 T2 k)) S1x3x16x16.size (k0_off20_inb _ _ hc.c10)).toLoadRect x0
abbrev ld11 (k : Fin k0_t1_loop.trips) (hc : Chk c i arg1 arg2 T1 T2 k) : Vec F S1x3x16x16 .f32 :=
  View.readAt (Elt F) arg3.view (Rect.unit (s := S1x3x384x384) (k0_off22 (hW11 c i arg1 T1 k) (wW11 c i arg2 T2 k)) S1x3x16x16.size (k0_off22_inb _ _ hc.c11)).toLoadRect x0
abbrev ld12 (k : Fin k0_t1_loop.trips) (hc : Chk c i arg1 arg2 T1 T2 k) : Vec F S1x3x16x16 .f32 :=
  View.readAt (Elt F) arg3.view (Rect.unit (s := S1x3x384x384) (k0_off24 (hW12 c i arg1 T1 k) (wW12 c i arg2 T2 k)) S1x3x16x16.size (k0_off24_inb _ _ hc.c12)).toLoadRect x0
abbrev ld13 (k : Fin k0_t1_loop.trips) (hc : Chk c i arg1 arg2 T1 T2 k) : Vec F S1x3x16x16 .f32 :=
  View.readAt (Elt F) arg3.view (Rect.unit (s := S1x3x384x384) (k0_off26 (hW13 c i arg1 T1 k) (wW13 c i arg2 T2 k)) S1x3x16x16.size (k0_off26_inb _ _ hc.c13)).toLoadRect x0
abbrev ld14 (k : Fin k0_t1_loop.trips) (hc : Chk c i arg1 arg2 T1 T2 k) : Vec F S1x3x16x16 .f32 :=
  View.readAt (Elt F) arg3.view (Rect.unit (s := S1x3x384x384) (k0_off28 (hW14 c i arg1 T1 k) (wW14 c i arg2 T2 k)) S1x3x16x16.size (k0_off28_inb _ _ hc.c14)).toLoadRect x0
abbrev ld15 (k : Fin k0_t1_loop.trips) (hc : Chk c i arg1 arg2 T1 T2 k) : Vec F S1x3x16x16 .f32 :=
  View.readAt (Elt F) arg3.view (Rect.unit (s := S1x3x384x384) (k0_off30 (hW15 c i arg1 T1 k) (wW15 c i arg2 T2 k)) S1x3x16x16.size (k0_off30_inb _ _ hc.c15)).toLoadRect x0
abbrev ld16 (k : Fin k0_t1_loop.trips) (hc : Chk c i arg1 arg2 T1 T2 k) : Vec F S1x3x16x16 .f32 :=
  View.readAt (Elt F) arg3.view (Rect.unit (s := S1x3x384x384) (k0_off32 (hW16 c i arg1 T1 k) (wW16 c i arg2 T2 k)) S1x3x16x16.size (k0_off32_inb _ _ hc.c16)).toLoadRect x0

end Rows

end Cert.Proof.KI

end
-- ==== Proof.KI.Hyps.lean ====
/-
  From the statement's precondition to the side conditions the gathering loop assumes.

  The precondition is a conjunction of five tests on the argument arrays: three say that the float arrays hold
  finite numbers, two say that every entry of the two int32 index tables is between 0 and 368 as a SIGNED number
  (each an all-reduction by `and` of the entrywise conjunction of two signed comparisons with a constant).
  A 32-bit word that is between 0 and 368 as a signed number is at most 368 as an unsigned one, so both tables hold
  corners that leave room for a 16×16 window inside the 384×384 image (`pre_inRange`).

  Each side condition of the loop says that the window [0, 0, h, w] + [1, 3, 16, 16] lies inside [1, 3, 384, 384];
  the first two axes hold outright and the last two hold as soon as h ≤ 368 and w ≤ 368 (`chkN_of_le`).

  A corner word is a read of a table through a rectangle with one cell, so it is the table's entry at that cell
  (`wd_eq_of`, `wd_eq`). Together: tables in range give all sixteen side conditions of every trip
  (`chk_of_inRange`).
-/
import proofs.«400218_j73332271612542_2_alg».proof.Proof.KI.Words
import proofs.«400218_j73332271612542_2_alg».proof.Proof.Spec
import proofs.«400218_j73332271612542_2_alg».proof.Pre_finite_inputs
import Idealize.ShloMosaic.Lib.ReduceAll
import Idealize.ShloMosaic.Lib.ValueIdx

noncomputable section

namespace Cert.Proof.KI

open Cert.KernelIdeal Cert.KernelIdeal.Gen
open Idealize.ShloMosaic
open Idealize.ShloMosaic.TcCoe

variable {F : FTy → Type} [FloatOps F]

/-! ## Words -/

/-- A 32-bit word that lies between 0 and 368 as a signed number is at most 368 as an unsigned one: a word with its
    top bit set is negative, and below 2³¹ the two readings agree. -/
theorem toNat_le_of_signed (a : BitVec 32) (h0 : (0#32 : BitVec 32).toInt ≤ a.toInt)
    (h1 : a.toInt ≤ (368#32 : BitVec 32).toInt) : a.toNat ≤ 368 := by
  have e0 : (0#32 : BitVec 32).toInt = 0 := by decide
  have e1 : (368#32 : BitVec 32).toInt = 368 := by decide
  rw [e0] at h0
  rw [e1] at h1
  have hc := BitVec.toInt_eq_toNat_cond a
  have hlt := a.isLt
  by_cases hs : 2 * a.toNat < 2 ^ 32
  · rw [if_pos hs] at hc; omega
  · rw [if_neg hs] at hc; omega

/-! ## The precondition, read at one table cell -/

/-- The scalar shape has one index. -/
instance : Subsingleton Cert.Pre_finite_inputs.S_.Idx := ⟨fun a b => funext fun d => d.elim0⟩

/-- The two range tests of the precondition, read at every cell: both tables hold words at most 368. The three
    finiteness tests are dropped. -/
theorem pre_inRange [Cert.Pre_finite_inputs.Facts]
    (a0 : FVec F Cert.Pre_finite_inputs.S32x3x384x384 .f32) (a1 a2 : IVec Cert.Pre_finite_inputs.S32x576 32)
    (a3 : FVec F Cert.Pre_finite_inputs.S768x768 .f32) (a4 : FVec F Cert.Pre_finite_inputs.S768 .f32)
    (h : Cert.Pre_finite_inputs.fn (F := F) a0 a1 a2 a3 a4 = (fun _ => 1#1)) :
    Cert.Proof.Spec.InRange a1 a2 := by
  have e := congrFun h ValueIdx.ix0
  dsimp only [Cert.Pre_finite_inputs.fn, Cert.Pre_finite_inputs.fn_part1] at e
  simp only [andi, IntOp.andi_eq_one] at e
  obtain ⟨⟨-, hh⟩, hw⟩ := e
  intro ix
  have h1 := Host.reduce_andi_all _ _ _ _ _ hh ix
  have h2 := Host.reduce_andi_all _ _ _ _ _ hw ix
  simp only [andi, cmpi, broadcastInDim, constantI, IntOp.andi_eq_one, IntOp.cmpi_sge, IntOp.cmpi_sle] at h1 h2
  exact ⟨toNat_le_of_signed _ h1.1 h1.2, toNat_le_of_signed _ h2.1 h2.2⟩

/-! ## The windows' side conditions -/

/-- The window [0, 0, h, w] + [1, 3, 16, 16] lies inside [1, 3, 384, 384] when h ≤ 368 and w ≤ 368. -/
theorem window_inb (h w : BitVec 32) (hh : h.toNat ≤ 368) (hw : w.toNat ≤ 368) :
    ∀ a, (![0, 0, (Scalar.indexCast h).toNat, (Scalar.indexCast w).toNat] : Fin 4 → Nat) a + S1x3x16x16.size a
      ≤ S1x3x384x384.size a := by
  intro a
  have eh : (Scalar.indexCast h).toNat = h.toNat := rfl
  have ew : (Scalar.indexCast w).toNat = w.toNat := rfl
  fin_cases a <;> simp [eh, ew] <;> omega

theorem chk1_of_le {h w : BitVec 32} (hh : h.toNat ≤ 368) (hw : w.toNat ≤ 368) : k0_chk1 h w := window_inb h w hh hw
theorem chk2_of_le {h w : BitVec 32} (hh : h.toNat ≤ 368) (hw : w.toNat ≤ 368) : k0_chk2 h w := window_inb h w hh hw
theorem chk3_of_le {h w : BitVec 32} (hh : h.toNat ≤ 368) (hw : w.toNat ≤ 368) : k0_chk3 h w := window_inb h w hh hw
theorem chk4_of_le {h w : BitVec 32} (hh : h.toNat ≤ 368) (hw : w.toNat ≤ 368) : k0_chk4 h w := window_inb h w hh hw
theorem chk5_of_le {h w : BitVec 32} (hh : h.toNat ≤ 368) (hw : w.toNat ≤ 368) : k0_chk5 h w := window_inb h w hh hw
theorem chk6_of_le {h w : BitVec 32} (hh : h.toNat ≤ 368) (hw : w.toNat ≤ 368) : k0_chk6 h w := window_inb h w hh hw
theorem chk7_of_le {h w : BitVec 32} (hh : h.toNat ≤ 368) (hw : w.toNat ≤ 368) : k0_chk7 h w := window_inb h w hh hw
theorem chk8_of_le {h w : BitVec 32} (hh : h.toNat ≤ 368) (hw : w.toNat ≤ 368) : k0_chk8 h w := window_inb h w hh hw
theorem chk9_of_le {h w : BitVec 32} (hh : h.toNat ≤ 368) (hw : w.toNat ≤ 368) : k0_chk9 h w := window_inb h w hh hw
theorem chk10_of_le {h w : BitVec 32} (hh : h.toNat ≤ 368) (hw : w.toNat ≤ 368) : k0_chk10 h w := window_inb h w hh hw
theorem chk11_of_le {h w : BitVec 32} (hh : h.toNat ≤ 368) (hw : w.toNat ≤ 368) : k0_chk11 h w := window_inb h w hh hw
theorem chk12_of_le {h w : BitVec 32} (hh : h.toNat ≤ 368) (hw : w.toNat ≤ 368) : k0_chk12 h w := window_inb h w hh hw
theorem chk13_of_le {h w : BitVec 32} (hh : h.toNat ≤ 368) (hw : w.toNat ≤ 368) : k0_chk13 h w := window_inb h w hh hw
theorem chk14_of_le {h w : BitVec 32} (hh : h.toNat ≤ 368) (hw : w.toNat ≤ 368) : k0_chk14 h w := window_inb h w hh hw
theorem chk15_of_le {h w : BitVec 32} (hh : h.toNat ≤ 368) (hw : w.toNat ≤ 368) : k0_chk15 h w := window_inb h w hh hw
theorem chk16_of_le {h w : BitVec 32} (hh : h.toNat ≤ 368) (hw : w.toNat ≤ 368) : k0_chk16 h w := window_inb h w hh hw

/-! ## A corner word is the table's entry at its cell -/

theorem cell_lt0 {o : Fin 2 → Nat} (ho : ∀ a, o a + S1x1.size a ≤ S32x576.size a) : o 0 < 32 := by
  have h := ho 0
  have e1 : S1x1.size 0 = 1 := rfl
  have e2 : S32x576.size 0 = 32 := rfl
  omega

theorem cell_lt1 {o : Fin 2 → Nat} (ho : ∀ a, o a + S1x1.size a ≤ S32x576.size a) : o 1 < 576 := by
  have h := ho 1
  have e1 : S1x1.size 1 = 1 := rfl
  have e2 : S32x576.size 1 = 576 := rfl
  omega

/-- The one cell of a 1×1 rectangle at offset `o` is the index whose coordinates are `o`. -/
theorem unit_cell (o : Fin 2 → Nat) (ho : ∀ a, o a + S1x1.size a ≤ S32x576.size a) (h1 : 0 < S1x1.numel)
    (ix : S32x576.Idx) (hix : ∀ a, (ix a).val = o a) :
    (Rect.unit (s := S32x576) o S1x1.size ho).toLoadRect.idx (Shape.Idx.first h1) = ix := by
  funext a
  apply Fin.ext
  rw [hix a]
  show o a + 1 * 0 = o a
  omega

section Rows

variable (c : Dev nD) (i : grid0.Coords)
  (arg1 : Memref sig .tc .smem S32x576 .i32) (arg2 : Memref sig .tc .smem S32x576 .i32)
  (T1 : Buf (Elt F) (arg1.view.loc (c : Thread nD τ))) (T2 : Buf (Elt F) (arg2.view.loc (c : Thread nD τ)))

/-- The word read at cell `o` is the table's entry at any index whose coordinates are `o`. -/
theorem wd_eq_of (M : Memref sig .tc .smem S32x576 .i32) (T : Buf (Elt F) (M.view.loc (c : Thread nD τ)))
    (o : Fin 2 → Nat) (ho : ∀ a, o a + S1x1.size a ≤ S32x576.size a)
    (ix : S32x576.Idx) (hix : ∀ a, (ix a).val = o a) :
    wd c M T o ho = M.view.read (Elt F) T ix :=
  congrArg (M.view.read (Elt F) T) (unit_cell o ho _ ix hix)

/-- The word read at cell `o` is the table's entry at row `o 0`, column `o 1`. -/
theorem wd_eq (M : Memref sig .tc .smem S32x576 .i32) (hM : M.IsWhole) (T : Buf (Elt F) (M.view.loc (c : Thread nD τ)))
    (o : Fin 2 → Nat) (ho : ∀ a, o a + S1x1.size a ≤ S32x576.size a) :
    wd c M T o ho = M.view.read (Elt F) T (ValueIdx.ix2 ⟨o 0, cell_lt0 ho⟩ ⟨o 1, cell_lt1 ho⟩) :=
  wd_eq_of c M T o ho _ (fun a => by fin_cases a <;> rfl)

/-- Tables whose every entry is at most 368 give the sixteen side conditions of every trip: each corner word is
    an entry of its table. -/
theorem chk_of_inRange (harg1 : arg1.IsWhole) (harg2 : arg2.IsWhole)
    (hr : Cert.Proof.Spec.InRange (arg1.view.read (Elt F) T1) (arg2.view.read (Elt F) T2)) :
    ∀ k, Chk c i arg1 arg2 T1 T2 k := fun k =>
  ⟨chk1_of_le (hr _).1 (hr _).2,
    chk2_of_le (hr _).1 (hr _).2,
    chk3_of_le (hr _).1 (hr _).2,
    chk4_of_le (hr _).1 (hr _).2,
    chk5_of_le (hr _).1 (hr _).2,
    chk6_of_le (hr _).1 (hr _).2,
    chk7_of_le (hr _).1 (hr _).2,
    chk8_of_le (hr _).1 (hr _).2,
    chk9_of_le (hr _).1 (hr _).2,
    chk10_of_le (hr _).1 (hr _).2,
    chk11_of_le (hr _).1 (hr _).2,
    chk12_of_le (hr _).1 (hr _).2,
    chk13_of_le (hr _).1 (hr _).2,
    chk14_of_le (hr _).1 (hr _).2,
    chk15_of_le (hr _).1 (hr _).2,
    chk16_of_le (hr _).1 (hr _).2⟩

end Rows

end Cert.Proof.KI

end
-- ==== Proof.KI.Kit.lean ====
/-
  The launch kit of the patch-embedding program, for every float instance.

  The program narrows the 768×768 projection weights to the sixteen-bit float format, transposes them, and then
  runs ONE pipelined region over the thirty-two batch elements. The region stages four windows — the batch
  element's 3×384×384 image block, the transposed narrow weights whole, the bias whole, and (the output) the batch
  element's 576×768 block of the result — and hands the body the two index tables whole, prefetched into scalar
  memory, and one 576×768 scratch buffer.

  This module states what every later module is written over: the buffers' contents when the region is entered
  (`V`: the launch memory after the two host operations), the program's shape up to the region (`hmain`), the
  tables' contents read off the launch memory (`tbl`) and the pipeline at them (`cfgM`), each window's block at a
  grid point read off its array (`iblk`), the fact that an input window's staging buffer holds its block at every
  point (`before0_W_of`), the memrefs the body is called with, and the passage from the pipeline's final-state
  description to the statement that the five argument arrays end as they began (`frame_of`).
-/
import proofs.«400218_j73332271612542_2_alg».proof.Proof.Gen.KernelIdeal.Launch
import Idealize.ShloMosaic.Lib.Pipeline.FrameBody
import Idealize.ShloMosaic.Lib.Tactic

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the two host operations (the weights
    narrowed, then transposed). -/
abbrev V (c : Dev nD) (b : Ref sig .tc) : Buf (Elt F) ((c : Thread nD τ).loc b) := StableHlo.after hostOps0 (fun b => m (c, b)) b

/-- Neither host operation allocates a buffer. -/
theorem hostOps0_fresh : (hostOps0 : List (HloOp τ sig (Elt F))).Forall fun op => op.fresh = ∅ :=
  ⟨rfl, rfl⟩

/-- They write the narrowed weights and the transposed narrowed weights, and nothing else. -/
theorem hostOps0_writes : (hostOps0 : List (HloOp τ sig (Elt F))).Forall fun op =>
    op.writes ⊆ ([main_v0, main_v1].map (Proc.devRef (τ := τ) .tc)).toFinset := by
  refine ⟨?_, ?_⟩ <;> simp [List.Forall]

/-- So a buffer that is neither of the two is found as launched. -/
theorem V_of_not_written (c : Dev nD) (r : Ref sig .tc) (hr : r ∉ [main_v0, main_v1]) : V m c r = m ((c : Thread nD τ).loc r) :=
  StableHlo.after_of_writes_sub hostOps0 (fun b => m (c, b)) hostOps0_writes hr

/-- The program is the two host operations and then the region: holding the unscoped buffers at the launch
    contents it reaches the region holding them at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! The host operations write the narrowed weights and their transpose only: every argument array is found as launched. -/
theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)

/-- The weight block the region stages: the launched weights narrowed to the sixteen-bit format and transposed. -/
theorem V_main_v1 (c : Dev nD) :
    V m c main_v1 = transpose S768x768 [1, 0] (truncf .bf16 (m ((c : Thread nD τ).loc main_arg3)) bitsLt_bf16_f32) transposes_S768x768_S768x768_1_0 := by
  dsimp only [V, hostOps0]
  after_results

/-! ## The prefetched tables, read off the launch memory -/

/-- The two index tables' contents when the region is entered (there is one device: device 0's). -/
def tbl : pre0.Contents (Elt F) := fun j => V m (0 : Dev nD) (pre0.ref j)

/-- On every device the tables hold those contents. -/
theorem V_pre (c : Dev nD) (j : Fin 2) : V m c (pre0.ref j) = tbl m j := by
  obtain rfl : c = 0 := Subsingleton.elim _ _
  rfl

/-- The tables' contents as admissible contents (no window's index map reads a table, so the pipeline asks nothing
    of them), and the pipeline at them. -/
abbrev adm : (pcfg0 (F := F)).Adm := ⟨tbl m, trivial⟩
abbrev cfgM : Pipeline.Cfg sig Λ₀ := cfg0 (adm m)

/-- Each table as the body is handed it: its whole buffer as a memref. -/
abbrev tbM1 : Memref sig .tc .smem S32x576 .i32 := Memref.whole main_arg1
abbrev htbM1 : tbM1.IsWhole := Memref.isWhole_whole _
abbrev tbM2 : Memref sig .tc .smem S32x576 .i32 := Memref.whole main_arg2
abbrev htbM2 : tbM2.IsWhole := Memref.isWhole_whole _
/-- The scratch operand as the body is handed it. -/
abbrev scrM : Memref sig .tc .vmem S576x768 .bf16 := Memref.whole cc0_scratch0
abbrev hscrM : scrM.IsWhole := Memref.isWhole_whole _

/-- The tables' read-only halves the region lends the body, table by table. -/
theorem PhiT0_eq (c : Dev nD) : (Pipeline.ΦT pre0 (tbl m) c : sProp 𝕄)
    = iprop((tbM1.view.loc (c : Thread nD τ) ↦{fullShare.right} tbl m 0) ∗ (tbM2.view.loc (c : Thread nD τ) ↦{fullShare.right} tbl m 1)) := by
  unfold Pipeline.ΦT Pipeline.prefHeld
  rw [BI.bigSep_fin_two]
  rfl

/-! ## The windows' blocks -/

/-- Window `w`'s block at grid point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The image window's current staging buffer holds the batch element's image block at every point, for any proof
    data whose array is `V`'s and whose body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t := by
  -- the block the fetch reads is the block read off `V`
  have hblk : ∀ t, dat.blockOf 0 t = iblk m c 0 t := fun t => by unfold Dat.blockOf iblk; rw [hA]; rfl
  -- the window is not cut, so a fetch fills the whole buffer with that block
  have hfet : ∀ t d, dat.fetched 0 t d = iblk m c 0 t := fun t d => by unfold Dat.fetched; rw [hblk]; rfl
  -- and what the body leaves, not cut either, is the block again
  have hkeep : ∀ t, ((cfgM m).win 0).cut ((cfgM m).grid.coords t) (dat.after 0 t) = dat.blockOf 0 t := fun t => by
    rw [hafter, hblk]
  rw [dat.before_in_eq_fetched 0 rfl (fun _ => rfl) (fun _ _ _ => rfl) hkeep t d, hfet]

/-- The weight window's staging buffer holds the whole weight block at every point (fetched once: its block index
    never moves), under the same two conditions. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t := by
  -- the block the fetch reads is the block read off `V`
  have hblk : ∀ t, dat.blockOf 1 t = iblk m c 1 t := fun t => by unfold Dat.blockOf iblk; rw [hA]; rfl
  -- the window is not cut, so a fetch fills the whole buffer with that block
  have hfet : ∀ t d, dat.fetched 1 t d = iblk m c 1 t := fun t d => by unfold Dat.fetched; rw [hblk]; rfl
  -- and what the body leaves, not cut either, is the block again
  have hkeep : ∀ t, ((cfgM m).win 1).cut ((cfgM m).grid.coords t) (dat.after 1 t) = dat.blockOf 1 t := fun t => by
    rw [hafter, hblk]
  rw [dat.before_in_eq_fetched 1 rfl (fun _ => rfl) (fun _ _ _ => rfl) hkeep t d, hfet]

/-- The bias window's staging buffer holds the whole bias at every point, likewise. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t := by
  -- the block the fetch reads is the block read off `V`
  have hblk : ∀ t, dat.blockOf 2 t = iblk m c 2 t := fun t => by unfold Dat.blockOf iblk; rw [hA]; rfl
  -- the window is not cut, so a fetch fills the whole buffer with that block
  have hfet : ∀ t d, dat.fetched 2 t d = iblk m c 2 t := fun t d => by unfold Dat.fetched; rw [hblk]; rfl
  -- and what the body leaves, not cut either, is the block again
  have hkeep : ∀ t, ((cfgM m).win 2).cut ((cfgM m).grid.coords t) (dat.after 2 t) = dat.blockOf 2 t := fun t => by
    rw [hafter, hblk]
  rw [dat.before_in_eq_fetched 2 rfl (fun _ => rfl) (fun _ _ _ => rfl) hkeep t d, hfet]

/-! ## The memrefs the body is called with -/

/-- Each window's current staging memref at point `t`, as the pipeline passes it to the body, and its wholeness. -/
abbrev ms0_0 (t : Fin (cfgM m).N) : Memref sig .tc .vmem S1x3x384x384 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S768x768 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S768 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x576x768 .f32 := spec0_3.stage ((cfgM m).slots t 3)
abbrev hs0_3 (t : Fin (cfgM m).N) : (ms0_3 m t).IsWhole := hstage0_3 (((cfgM m).slots t 3).cast nbuf0_3)

/-! ## From the pipeline's final state to the argument arrays -/

/-- The two tables and the wide weights are unscoped buffers that are no window's array: they bypass the region. -/
theorem rest_main_arg1 : main_arg1 ∈ Pipeline.restRefs sig spec0 := Pipeline.mem_restRefs_of main_arg1 (by decide) (by decide)
theorem rest_main_arg2 : main_arg2 ∈ Pipeline.restRefs sig spec0 := Pipeline.mem_restRefs_of main_arg2 (by decide) (by decide)
theorem rest_main_arg3 : main_arg3 ∈ Pipeline.restRefs sig spec0 := Pipeline.mem_restRefs_of main_arg3 (by decide) (by decide)

/-- What the pipeline's final-state description says of the program's arrays, for any proof data whose arrays are the
    region-entry contents: the result array holds what the write-backs of the output window left in it, and the five
    argument arrays are as launched — the image and the bias are input windows' arrays (an input's array ends at its
    entry contents), the two tables and the wide weights bypass the region (they end at `V`), and `V` at each of the
    five is the launch contents. -/
theorem post_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (r : PUnit × MemSt nD τ sig (Elt F)) (hr : Pipeline.FramePost (Pipeline.pin pcfgs fun _ => adm m) dats 0 (V m) r) (c : Dev nD) :
    r.2.mem ((c.tc : Thread nD τ).loc main_v2) = (dats 0 c).arrAt 3 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain ⟨hwin, hrest⟩ := hr c
  refine ⟨hwin 3, ?_, ?_, ?_, ?_, ?_⟩
  · exact (hwin 0).trans (((dats 0 c).arrAt_in 0 rfl _).trans ((hA c 0).trans (V_main_arg0 m c)))
  · exact (hrest main_arg1 rest_main_arg1).trans (V_main_arg1 m c)
  · exact (hrest main_arg2 rest_main_arg2).trans (V_main_arg2 m c)
  · exact (hrest main_arg3 rest_main_arg3).trans (V_main_arg3 m c)
  · exact (hwin 2).trans (((dats 0 c).arrAt_in 2 rfl _).trans ((hA c 2).trans (V_main_arg4 m c)))

/-- So a run ending in the pipeline's final-state description is a run leaving the five argument arrays as launched. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => (post_of m dats hA r hr c).2) h

end Cert.Proof.KI

end
-- ==== Proof.KI.Loop.lean ====
/-
  The counted loop of the patch-embedding body, by its invariant, for every float instance.

  Trip `k` of the loop fills rows `16k … 16k+15` of the 576×768 patch matrix kept in scratch: for each of the sixteen
  rows it reads the patch's corner from the two index tables, loads the 3×16×16 window of the image block at that
  corner, flattens it to 768 entries, and stores the sixteen flattened windows, converted to the narrow float format,
  as one 16×768 block (`rowBlk k`). Nothing else is written, so the scratch after `n` trips is its entry contents
  with the first `n` blocks of rows overwritten (`ACC f₀ n`), and that is the invariant: before trip `k` the scratch
  holds `ACC f₀ k`. The tables and the image block are only read.
-/
import proofs.«400218_j73332271612542_2_alg».proof.Proof.KI.Words

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the invariant is stated at, and the run's variants: no counters beside the points-tos, no variants. -/
abbrev UU (nD : Nat) (τ : Topo) : Type := UR sig nD τ
abbrev 𝒱₀ : Variants := Variants.none
local notation "𝕄" => MT nD τ sig Unit (Elt F) ℕ (UU nD τ) ℕ

section Trips

variable (c : Dev nD) (i : grid0.Coords)
  (arg1 : Memref sig .tc .smem S32x576 .i32) (harg1 : arg1.IsWhole)
  (arg2 : Memref sig .tc .smem S32x576 .i32) (harg2 : arg2.IsWhole)
  (arg3 : Memref sig .tc .vmem S1x3x384x384 .f32) (harg3 : arg3.IsWhole)
  (arg4 : Memref sig .tc .vmem S768x768 .bf16) (harg4 : arg4.IsWhole)
  (arg5 : Memref sig .tc .vmem S768 .f32) (harg5 : arg5.IsWhole)
  (arg6 : Memref sig .tc .vmem S1x576x768 .f32) (harg6 : arg6.IsWhole)
  (arg7 : Memref sig .tc .vmem S576x768 .bf16) (harg7 : arg7.IsWhole)
  (arg0 : BitVec 32)
  (T1 : Buf (Elt F) (arg1.view.loc (c : Thread nD τ))) (T2 : Buf (Elt F) (arg2.view.loc (c : Thread nD τ)))
  (x0 : Buf (Elt F) (arg3.view.loc (c : Thread nD τ)))

/-- The 16×768 block trip `k` stores: its sixteen windows, each flattened to a row of 768 entries, stacked in order and
    converted to the narrow format. -/
def rowBlk (k : Fin k0_t1_loop.trips) (hc : Chk c i arg1 arg2 T1 T2 k) : FVec F S16x768 .bf16 :=
  k0_pay1
    (k0_pay3 (ld1 c i arg1 arg2 arg3 T1 T2 x0 k hc)) (k0_pay4 (ld2 c i arg1 arg2 arg3 T1 T2 x0 k hc))
    (k0_pay5 (ld3 c i arg1 arg2 arg3 T1 T2 x0 k hc)) (k0_pay6 (ld4 c i arg1 arg2 arg3 T1 T2 x0 k hc))
    (k0_pay7 (ld5 c i arg1 arg2 arg3 T1 T2 x0 k hc)) (k0_pay8 (ld6 c i arg1 arg2 arg3 T1 T2 x0 k hc))
    (k0_pay9 (ld7 c i arg1 arg2 arg3 T1 T2 x0 k hc)) (k0_pay10 (ld8 c i arg1 arg2 arg3 T1 T2 x0 k hc))
    (k0_pay11 (ld9 c i arg1 arg2 arg3 T1 T2 x0 k hc)) (k0_pay12 (ld10 c i arg1 arg2 arg3 T1 T2 x0 k hc))
    (k0_pay13 (ld11 c i arg1 arg2 arg3 T1 T2 x0 k hc)) (k0_pay14 (ld12 c i arg1 arg2 arg3 T1 T2 x0 k hc))
    (k0_pay15 (ld13 c i arg1 arg2 arg3 T1 T2 x0 k hc)) (k0_pay16 (ld14 c i arg1 arg2 arg3 T1 T2 x0 k hc))
    (ld15 c i arg1 arg2 arg3 T1 T2 x0 k hc) (ld16 c i arg1 arg2 arg3 T1 T2 x0 k hc)

/-- Rows `16k … 16k+15` of the patch matrix, all 768 columns. -/
abbrev rT (k : Fin k0_t1_loop.trips) : Rect S576x768 := Rect.unit (s := S576x768) (k0_off33 k) S16x768.size (k0_off33_inb k)

variable (hchk : ∀ k, Chk c i arg1 arg2 T1 T2 k)

/-- What a trip holds at entry and exit: the two tables (their read-only halves), the image block, and the scratch at `f`. -/
abbrev TRIP (f : Buf (Elt F) (arg7.view.loc (c : Thread nD τ))) : sProp 𝕄 :=
  iprop((arg1.view.loc (c : Thread nD τ) ↦{fullShare.right} T1)
    ∗ (arg2.view.loc (c : Thread nD τ) ↦{fullShare.right} T2)
    ∗ (arg3.view.loc (c : Thread nD τ) ↦[arg3.view.set]{fullShare} x0)
    ∗ (arg7.view.loc (c : Thread nD τ) ↦[arg7.view.set]{fullShare} f))

/-- The scratch after trip `k` over prior contents `f`: rows `16k … 16k+15` overwritten by the trip's block. -/
def STEP (k : Fin k0_t1_loop.trips) (f : Buf (Elt F) (arg7.view.loc (c : Thread nD τ))) : Buf (Elt F) (arg7.view.loc (c : Thread nD τ)) :=
  arg7.view.writes (Elt F) f [⟨rT k, rowBlk c i arg1 arg2 arg3 T1 T2 x0 k (hchk k)⟩]

/-- One trip at a symbolic `k`: the tables and the image block are read and kept, and the scratch goes from `f` to
    `STEP k f`. Each of the sixteen loads is inside the image block by the trip's side conditions. -/
theorem trip (k : Fin k0_t1_loop.trips) (f : Buf (Elt F) (arg7.view.loc (c : Thread nD τ))) :
    TRIP c arg1 arg2 arg3 arg7 T1 T2 x0 f
      ⊢ wp frame (wpE (defs₀ (F := F)) 𝒱₀ c none) Set.univ
          (k0_t1_body i arg1 harg1 arg2 harg2 arg3 harg3 arg4 harg4 arg5 harg5 arg6 harg6 arg7 harg7 arg0 k ())
          (fun _ => TRIP c arg1 arg2 arg3 arg7 T1 T2 x0 (STEP c i arg1 arg2 arg3 arg7 T1 T2 x0 hchk k f)) := by
  -- the sixteen windows' side conditions at trip `k`, over the table words as the rows read them
  have c1 := (hchk k).c1
  have c2 := (hchk k).c2
  have c3 := (hchk k).c3
  have c4 := (hchk k).c4
  have c5 := (hchk k).c5
  have c6 := (hchk k).c6
  have c7 := (hchk k).c7
  have c8 := (hchk k).c8
  have c9 := (hchk k).c9
  have c10 := (hchk k).c10
  have c11 := (hchk k).c11
  have c12 := (hchk k).c12
  have c13 := (hchk k).c13
  have c14 := (hchk k).c14
  have c15 := (hchk k).c15
  have c16 := (hchk k).c16
  unfold k0_t1_body STEP rowBlk
  -- each of the four parts is its sequence of table reads, side conditions and window loads
  simp only [k0_part1_eq_skeleton, k0_part2_eq_skeleton, k0_part3_eq_skeleton, k0_part4_eq_skeleton]
  iintro ⟨H1, H2, H3, H7⟩
  -- every table read is a one-cell read of `T1` or `T2`, every window load a read of `x0`; the scratch's prior
  -- rows are loaded and dropped, and the one store writes the stacked block over rows `16k … 16k+15`
  sl_exec (disch := first | sl_exact c1 | sl_exact c2 | sl_exact c3 | sl_exact c4 | sl_exact c5 | sl_exact c6 | sl_exact c7 | sl_exact c8 | sl_exact c9 | sl_exact c10 | sl_exact c11 | sl_exact c12 | sl_exact c13 | sl_exact c14 | sl_exact c15 | sl_exact c16)
  sl_step
  sl_close

/-- The scratch after `n` trips from its contents `f₀` at the loop's entry (constant once the trips are exhausted, a
    case the invariant never reaches). -/
def ACC (f₀ : Buf (Elt F) (arg7.view.loc (c : Thread nD τ))) : ℕ → Buf (Elt F) (arg7.view.loc (c : Thread nD τ))
  | 0 => f₀
  | n + 1 => if h : n < k0_t1_loop.trips then STEP c i arg1 arg2 arg3 arg7 T1 T2 x0 hchk ⟨n, h⟩ (ACC f₀ n) else ACC f₀ n

theorem ACC_succ (f₀ : Buf (Elt F) (arg7.view.loc (c : Thread nD τ))) (k : Fin k0_t1_loop.trips) :
    ACC c i arg1 arg2 arg3 arg7 T1 T2 x0 hchk f₀ (k.val + 1)
      = STEP c i arg1 arg2 arg3 arg7 T1 T2 x0 hchk k (ACC c i arg1 arg2 arg3 arg7 T1 T2 x0 hchk f₀ k.val) := by
  rw [ACC.eq_2]; exact dif_pos k.isLt

set_option warn.classDefReducibility false in
/-- The loop by its invariant: before trip `k` the scratch holds `ACC f₀ k`, and one trip takes it to `ACC f₀ (k + 1)`. -/
@[sl_loop] def loopInv (f₀ : Buf (Elt F) (arg7.view.loc (c : Thread nD τ))) :
    Gen.LoopInvTy_k0_t1 (F := F) Unit ℕ (UU nD τ) ℕ 𝒱₀ c none Set.univ i arg1 harg1 arg2 harg2 arg3 harg3 arg4 harg4 arg5 harg5 arg6 harg6 arg7 harg7 arg0 where
  inv k _ := TRIP c arg1 arg2 arg3 arg7 T1 T2 x0 (ACC c i arg1 arg2 arg3 arg7 T1 T2 x0 hchk f₀ k)
  step k acc := by
    rw [ACC_succ]
    exact trip c i arg1 harg1 arg2 harg2 arg3 harg3 arg4 harg4 arg5 harg5 arg6 harg6 arg7 harg7 arg0 T1 T2 x0 hchk k _

end Trips

end Cert.Proof.KI

end
-- ==== Proof.KI.Body.lean ====
/-
  The whole body of the patch-embedding kernel at one grid point, for every float instance.

  The body runs the gathering loop (thirty-six trips, each filling sixteen rows of the 576×768 patch matrix in scratch),
  then reads the patch matrix, the 768×768 weight block and the bias whole, multiplies, adds the bias along the rows,
  and stores the 576×768 result whole into the output block. So from the scratch at any contents `f₀` and the output
  block at any contents `o₀` it ends with the scratch at `ACC f₀ 36` and the output block overwritten by the product
  plus bias (`OUT`); the tables, the image block, the weight block and the bias are read and kept.
-/
import proofs.«400218_j73332271612542_2_alg».proof.Proof.KI.Loop

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (i : grid0.Coords)
  (arg1 : Memref sig .tc .smem S32x576 .i32) (harg1 : arg1.IsWhole)
  (arg2 : Memref sig .tc .smem S32x576 .i32) (harg2 : arg2.IsWhole)
  (arg3 : Memref sig .tc .vmem S1x3x384x384 .f32) (harg3 : arg3.IsWhole)
  (arg4 : Memref sig .tc .vmem S768x768 .bf16) (harg4 : arg4.IsWhole)
  (arg5 : Memref sig .tc .vmem S768 .f32) (harg5 : arg5.IsWhole)
  (arg6 : Memref sig .tc .vmem S1x576x768 .f32) (harg6 : arg6.IsWhole)
  (arg7 : Memref sig .tc .vmem S576x768 .bf16) (harg7 : arg7.IsWhole)
  (T1 : Buf (Elt F) (arg1.view.loc (c : Thread nD τ))) (T2 : Buf (Elt F) (arg2.view.loc (c : Thread nD τ)))
  (x0 : Buf (Elt F) (arg3.view.loc (c : Thread nD τ)))
  (w0 : Buf (Elt F) (arg4.view.loc (c : Thread nD τ)))
  (b0 : Buf (Elt F) (arg5.view.loc (c : Thread nD τ)))
  (hchk : ∀ k, Chk c i arg1 arg2 T1 T2 k)

/-- The whole-buffer rectangles the body reads and writes after the loop. -/
abbrev rAll7 : Rect S576x768 := Rect.unit (s := S576x768) ![0, 0] S576x768.size inb_S576x768_S576x768_0_0
abbrev rAll4 : Rect S768x768 := Rect.unit (s := S768x768) ![0, 0] S768x768.size inb_S768x768_S768x768_0_0
abbrev rAll5 : Rect S768 := Rect.unit (s := S768) ![0] S768.size inb_S768_S768_0
abbrev rAll6 : Rect S1x576x768 := Rect.unit (s := S1x576x768) ![0, 0, 0] S1x576x768.size inb_S1x576x768_S1x576x768_0_0_0

/-- The scratch when the loop has run: all thirty-six trips over the entry contents `f₀`. -/
abbrev scrEnd (f₀ : Buf (Elt F) (arg7.view.loc (c : Thread nD τ))) : Buf (Elt F) (arg7.view.loc (c : Thread nD τ)) :=
  ACC c i arg1 arg2 arg3 arg7 T1 T2 x0 hchk f₀ 36

/-- The product plus bias the body stores: of the patch matrix read back from scratch, the weight block and the bias. -/
def outVal (f₀ : Buf (Elt F) (arg7.view.loc (c : Thread nD τ))) : FVec F S1x576x768 .f32 :=
  k0_pay2 (View.readAt (Elt F) arg7.view rAll7.toLoadRect (scrEnd c i arg1 arg2 arg3 arg7 T1 T2 x0 hchk f₀))
    (View.readAt (Elt F) arg4.view rAll4.toLoadRect w0)
    (View.readAt (Elt F) arg5.view rAll5.toLoadRect b0)

/-- The output block after the body, over its entry contents `o₀`: overwritten whole by `outVal`. -/
def OUT (f₀ : Buf (Elt F) (arg7.view.loc (c : Thread nD τ))) (o₀ : Buf (Elt F) (arg6.view.loc (c : Thread nD τ))) :
    Buf (Elt F) (arg6.view.loc (c : Thread nD τ)) :=
  arg6.view.writes (Elt F) o₀ [⟨rAll6, outVal c i arg1 arg2 arg3 arg4 arg5 arg7 T1 T2 x0 w0 b0 hchk f₀⟩]

/-- What the body holds: the tables' read-only halves, and the five VMEM buffers whole at the given contents. -/
abbrev BODY (o : Buf (Elt F) (arg6.view.loc (c : Thread nD τ))) (f : Buf (Elt F) (arg7.view.loc (c : Thread nD τ))) : sProp 𝕄 :=
  iprop((arg1.view.loc (c : Thread nD τ) ↦{fullShare.right} T1)
    ∗ (arg2.view.loc (c : Thread nD τ) ↦{fullShare.right} T2)
    ∗ (arg3.view.loc (c : Thread nD τ) ↦[arg3.view.set]{fullShare} x0)
    ∗ (arg4.view.loc (c : Thread nD τ) ↦[arg4.view.set]{fullShare} w0)
    ∗ (arg5.view.loc (c : Thread nD τ) ↦[arg5.view.set]{fullShare} b0)
    ∗ (arg6.view.loc (c : Thread nD τ) ↦[arg6.view.set]{fullShare} o)
    ∗ (arg7.view.loc (c : Thread nD τ) ↦[arg7.view.set]{fullShare} f))

/-- THE BODY at one grid point: from the output block at `o₀` and the scratch at `f₀` it runs to the output block at
    `OUT f₀ o₀` and the scratch at `ACC f₀ 36`, everything else as it was. -/
theorem body_run (f₀ : Buf (Elt F) (arg7.view.loc (c : Thread nD τ))) (o₀ : Buf (Elt F) (arg6.view.loc (c : Thread nD τ))) :
    BODY c arg1 arg2 arg3 arg4 arg5 arg6 arg7 T1 T2 x0 w0 b0 o₀ f₀
      ⊢ wp frame (wpE (defs₀ (F := F)) 𝒱₀ c none) Set.univ
          (cc0__patch_embed_kernel i arg1 harg1 arg2 harg2 arg3 harg3 arg4 harg4 arg5 harg5 arg6 harg6 arg7 harg7)
          (fun _ => BODY c arg1 arg2 arg3 arg4 arg5 arg6 arg7 T1 T2 x0 w0 b0
            (OUT c i arg1 arg2 arg3 arg4 arg5 arg6 arg7 T1 T2 x0 w0 b0 hchk f₀ o₀)
            (scrEnd c i arg1 arg2 arg3 arg7 T1 T2 x0 hchk f₀)) := by
  -- The function is its loop followed by four whole-buffer reads and one whole-buffer write. The loop is crossed once by
  -- its invariant: before trip `k` the scratch holds `ACC f₀ k`, so after the thirty-sixth trip it holds `ACC f₀ 36`,
  -- the tables and the image block kept. Each read returns its buffer's contents and keeps the buffer; the value written
  -- is the payload of the three values read (the fourth read, of the output block, is not used), which is `outVal`,
  -- and the write of the whole output block over `o₀` is `OUT f₀ o₀`.
  simp only [cc0__patch_embed_kernel_eq_skeleton]; unfold cc0__patch_embed_kernel_skel
  iintro ⟨H1, H2, H3, H4, H5, H6, H7⟩
  sl_exec
  sl_step
  sl_close

end Body

end Cert.Proof.KI

end
-- ==== Proof.KI.PatchRow.lean ====
/-
  The block of sixteen rows one trip of the gathering loop stores, read entry by entry, for every float instance.

  Trip `k` stacks sixteen flattened windows and converts the stack to the narrow float format. Row `r'` of the stack
  is window `r'` of the trip, so entry `(r', col)` of the block is the conversion of entry `col` of that flattened
  window. Flattening a 1×3×16×16 window keeps the row-major position, so entry `col = c·256 + ph·16 + pw` is the
  window's entry `(0, c, ph, pw)`. The window is read from the image block at the corner `(h, w)` the two index
  tables hold at cell `(b, 16·k + r')` (`b` the grid coordinate), so that entry is the image block's entry at channel
  `c`, row `h + ph`, column `w + pw`; the trip's side condition says the window lies inside the 384×384 image, so
  the reduction modulo 384 in the specification's index changes nothing. The cell's coordinates are words computed
  in 32-bit arithmetic; for `k < 36` and a row below 16 nothing wraps.
-/
import proofs.«400218_j73332271612542_2_alg».proof.Proof.KI.Loop
import proofs.«400218_j73332271612542_2_alg».proof.Proof.KI.Hyps
import proofs.«400218_j73332271612542_2_alg».proof.Proof.Spec
import Idealize.ShloMosaic.Lib.Pipeline.Value
import Idealize.ShloMosaic.Lib.ValueIdx
import Idealize.ShloMosaic.Lib.ValueLayout

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## One window, flattened -/

/-- Entry `col = c·256 + ph·16 + pw` of a flattened window is the window's entry `(0, c, ph, pw)`: the two
    flattenings keep the row-major position. -/
theorem pr_flat (v : Vec F S1x3x16x16 .f32) (col : Fin 768) :
    k0_pay3 v (ix1 col) = v (ix4 (0 : Fin 1) (⟨col.val / 256, by omega⟩ : Fin 3)
          (⟨col.val / 16 % 16, Nat.mod_lt _ (by decide)⟩ : Fin 16) (⟨col.val % 16, Nat.mod_lt _ (by decide)⟩ : Fin 16)) := by
  show shapeCast S768 (shapeCast S3x16x16 v _) _ (ix1 col) = _
  rw [shapeCast_apply _ _ (ix1 col) (ix3 (⟨col.val / 256, by omega⟩ : Fin 3)
      (⟨col.val / 16 % 16, Nat.mod_lt _ (by decide)⟩ : Fin 16) (⟨col.val % 16, Nat.mod_lt _ (by decide)⟩ : Fin 16)) ?_]
  · exact shapeCast_1abc_abc_apply v _ _ _ _
  · rw [Shape.rowMajor_val_three, Shape.rowMajor_val_one]
    show (col.val / 256 * 16 + col.val / 16 % 16) * 16 + col.val % 16 = col.val
    omega

/-- The window of the image block at corner `(hh, ww)`, read at `(0, c, ph, pw)`, is the image block's entry at
    channel `c`, row `hh + ph`, column `ww + pw`: the window lies inside the block, so these sums are below 384
    and reducing them modulo 384 changes nothing. -/
theorem pr_window (c : Dev nD) (arg3 : Memref sig .tc .vmem S1x3x384x384 .f32) (x0 : Buf (Elt F) (arg3.view.loc (c : Thread nD τ)))
    (hh ww : BitVec 32) (inb : ∀ a, k0_off2 hh ww a + S1x3x16x16.size a ≤ S1x3x384x384.size a) (col : Fin 768) :
    View.readAt (Elt F) arg3.view (Rect.unit (s := S1x3x384x384) (k0_off2 hh ww) S1x3x16x16.size inb).toLoadRect x0
        (ix4 (0 : Fin 1) (⟨col.val / 256, by omega⟩ : Fin 3)
          (⟨col.val / 16 % 16, Nat.mod_lt _ (by decide)⟩ : Fin 16) (⟨col.val % 16, Nat.mod_lt _ (by decide)⟩ : Fin 16))
      = arg3.view.read (Elt F) x0 (Cert.Proof.Spec.pidx hh.toNat ww.toNat col) := by
  have h2 : hh.toNat + 16 ≤ 384 := inb 2
  have h3 : ww.toNat + 16 ≤ 384 := inb 3
  refine congrArg (arg3.view.read (Elt F) x0) ?_
  funext a
  apply Fin.ext
  fin_cases a
  · show 0 + 1 * 0 = 0
    rfl
  · show 0 + 1 * (col.val / 256) = col.val / 256
    omega
  · show hh.toNat + 1 * (col.val / 16 % 16) = (hh.toNat + col.val / 16 % 16) % 384
    omega
  · show ww.toNat + 1 * (col.val % 16) = (ww.toNat + col.val % 16) % 384
    omega

/-- One row of the block: the flattened window whose corner the two tables give at cell `o = (b, n)`, read at
    `col`, is the image block's entry at the place the specification names for patch `n` and column `col`. -/
theorem pr_row (c : Dev nD) (arg1 arg2 : Memref sig .tc .smem S32x576 .i32) (arg3 : Memref sig .tc .vmem S1x3x384x384 .f32)
    (T1 : Buf (Elt F) (arg1.view.loc (c : Thread nD τ))) (T2 : Buf (Elt F) (arg2.view.loc (c : Thread nD τ))) (x0 : Buf (Elt F) (arg3.view.loc (c : Thread nD τ)))
    (b : Fin 32) (n : Fin 576) (o : Fin 2 → Nat) (ho : ∀ a, o a + S1x1.size a ≤ S32x576.size a) (hob : o = ![b.val, n.val])
    (inb : ∀ a, k0_off2 (wd c arg1 T1 o ho) (wd c arg2 T2 o ho) a + S1x3x16x16.size a ≤ S1x3x384x384.size a) (col : Fin 768) :
    k0_pay3 (View.readAt (Elt F) arg3.view
        (Rect.unit (s := S1x3x384x384) (k0_off2 (wd c arg1 T1 o ho) (wd c arg2 T2 o ho)) S1x3x16x16.size inb).toLoadRect x0) (ix1 col)
      = arg3.view.read (Elt F) x0 (Cert.Proof.Spec.pidx (BitVec.toNat (arg1.view.read (Elt F) T1 (ix2 b n)))
          (BitVec.toNat (arg2.view.read (Elt F) T2 (ix2 b n))) col) := by
  have hix : ∀ a, ((ix2 b n : S32x576.Idx) a).val = o a := fun a => by rw [hob]; fin_cases a <;> rfl
  have e1 : wd c arg1 T1 o ho = arg1.view.read (Elt F) T1 (ix2 b n) := wd_eq_of c arg1 T1 o ho _ hix
  have e2 : wd c arg2 T2 o ho = arg2.view.read (Elt F) T2 (ix2 b n) := wd_eq_of c arg2 T2 o ho _ hix
  rw [pr_flat, pr_window, e1, e2]

/-! ## The sixteen table cells of a trip -/

/-- A word computed as `16·k + m` in 32-bit arithmetic is that number, for a trip `k < 36` and a row `m < 16`. -/
theorem pr_word (k m : Nat) (hk : k < 36) (hm : m < 16) :
    (Scalar.indexCast (Scalar.addi (Scalar.muli (Scalar.addi 0#32 (Scalar.muli (Scf.iv 0#32 1#32 k) 1#32)) 16#32) (BitVec.ofNat 32 m))).toNat = 16 * k + m := by
  simp only [Scalar.indexCast, Scalar.addi, Scalar.muli, IntOp.addi, IntOp.muli, Scf.iv]
  simp only [BitVec.toNat_add, BitVec.toNat_mul, BitVec.toNat_ofNat]
  omega

theorem pr_trips : k0_t1_loop.trips = 36 := by decide

theorem pr_off1 (i : grid0.Coords) (k : Fin k0_t1_loop.trips) : k0_off1 i k = ![(i 0).val, 16 * k.val + 0] := by
  have hk : k.val < 36 := pr_trips ▸ k.isLt
  have h := pr_word k.val 0 hk (by omega)
  have hi : (i 0).val < 32 := (i 0).isLt
  unfold k0_off1
  simp only [Scalar.indexCast] at h ⊢
  rw [h, BitVec.toNat_ofNat, Nat.mod_eq_of_lt (by omega)]

theorem pr_off3 (i : grid0.Coords) (k : Fin k0_t1_loop.trips) : k0_off3 i k = ![(i 0).val, 16 * k.val + 1] := by
  have hk : k.val < 36 := pr_trips ▸ k.isLt
  have h := pr_word k.val 1 hk (by omega)
  have hi : (i 0).val < 32 := (i 0).isLt
  unfold k0_off3
  simp only [Scalar.indexCast] at h ⊢
  rw [h, BitVec.toNat_ofNat, Nat.mod_eq_of_lt (by omega)]

theorem pr_off5 (i : grid0.Coords) (k : Fin k0_t1_loop.trips) : k0_off5 i k = ![(i 0).val, 16 * k.val + 2] := by
  have hk : k.val < 36 := pr_trips ▸ k.isLt
  have h := pr_word k.val 2 hk (by omega)
  have hi : (i 0).val < 32 := (i 0).isLt
  unfold k0_off5
  simp only [Scalar.indexCast] at h ⊢
  rw [h, BitVec.toNat_ofNat, Nat.mod_eq_of_lt (by omega)]

theorem pr_off7 (i : grid0.Coords) (k : Fin k0_t1_loop.trips) : k0_off7 i k = ![(i 0).val, 16 * k.val + 3] := by
  have hk : k.val < 36 := pr_trips ▸ k.isLt
  have h := pr_word k.val 3 hk (by omega)
  have hi : (i 0).val < 32 := (i 0).isLt
  unfold k0_off7
  simp only [Scalar.indexCast] at h ⊢
  rw [h, BitVec.toNat_ofNat, Nat.mod_eq_of_lt (by omega)]

theorem pr_off9 (i : grid0.Coords) (k : Fin k0_t1_loop.trips) : k0_off9 i k = ![(i 0).val, 16 * k.val + 4] := by
  have hk : k.val < 36 := pr_trips ▸ k.isLt
  have h := pr_word k.val 4 hk (by omega)
  have hi : (i 0).val < 32 := (i 0).isLt
  unfold k0_off9
  simp only [Scalar.indexCast] at h ⊢
  rw [h, BitVec.toNat_ofNat, Nat.mod_eq_of_lt (by omega)]

theorem pr_off11 (i : grid0.Coords) (k : Fin k0_t1_loop.trips) : k0_off11 i k = ![(i 0).val, 16 * k.val + 5] := by
  have hk : k.val < 36 := pr_trips ▸ k.isLt
  have h := pr_word k.val 5 hk (by omega)
  have hi : (i 0).val < 32 := (i 0).isLt
  unfold k0_off11
  simp only [Scalar.indexCast] at h ⊢
  rw [h, BitVec.toNat_ofNat, Nat.mod_eq_of_lt (by omega)]

theorem pr_off13 (i : grid0.Coords) (k : Fin k0_t1_loop.trips) : k0_off13 i k = ![(i 0).val, 16 * k.val + 6] := by
  have hk : k.val < 36 := pr_trips ▸ k.isLt
  have h := pr_word k.val 6 hk (by omega)
  have hi : (i 0).val < 32 := (i 0).isLt
  unfold k0_off13
  simp only [Scalar.indexCast] at h ⊢
  rw [h, BitVec.toNat_ofNat, Nat.mod_eq_of_lt (by omega)]

theorem pr_off15 (i : grid0.Coords) (k : Fin k0_t1_loop.trips) : k0_off15 i k = ![(i 0).val, 16 * k.val + 7] := by
  have hk : k.val < 36 := pr_trips ▸ k.isLt
  have h := pr_word k.val 7 hk (by omega)
  have hi : (i 0).val < 32 := (i 0).isLt
  unfold k0_off15
  simp only [Scalar.indexCast] at h ⊢
  rw [h, BitVec.toNat_ofNat, Nat.mod_eq_of_lt (by omega)]

theorem pr_off17 (i : grid0.Coords) (k : Fin k0_t1_loop.trips) : k0_off17 i k = ![(i 0).val, 16 * k.val + 8] := by
  have hk : k.val < 36 := pr_trips ▸ k.isLt
  have h := pr_word k.val 8 hk (by omega)
  have hi : (i 0).val < 32 := (i 0).isLt
  unfold k0_off17
  simp only [Scalar.indexCast] at h ⊢
  rw [h, BitVec.toNat_ofNat, Nat.mod_eq_of_lt (by omega)]

theorem pr_off19 (i : grid0.Coords) (k : Fin k0_t1_loop.trips) : k0_off19 i k = ![(i 0).val, 16 * k.val + 9] := by
  have hk : k.val < 36 := pr_trips ▸ k.isLt
  have h := pr_word k.val 9 hk (by omega)
  have hi : (i 0).val < 32 := (i 0).isLt
  unfold k0_off19
  simp only [Scalar.indexCast] at h ⊢
  rw [h, BitVec.toNat_ofNat, Nat.mod_eq_of_lt (by omega)]

theorem pr_off21 (i : grid0.Coords) (k : Fin k0_t1_loop.trips) : k0_off21 i k = ![(i 0).val, 16 * k.val + 10] := by
  have hk : k.val < 36 := pr_trips ▸ k.isLt
  have h := pr_word k.val 10 hk (by omega)
  have hi : (i 0).val < 32 := (i 0).isLt
  unfold k0_off21
  simp only [Scalar.indexCast] at h ⊢
  rw [h, BitVec.toNat_ofNat, Nat.mod_eq_of_lt (by omega)]

theorem pr_off23 (i : grid0.Coords) (k : Fin k0_t1_loop.trips) : k0_off23 i k = ![(i 0).val, 16 * k.val + 11] := by
  have hk : k.val < 36 := pr_trips ▸ k.isLt
  have h := pr_word k.val 11 hk (by omega)
  have hi : (i 0).val < 32 := (i 0).isLt
  unfold k0_off23
  simp only [Scalar.indexCast] at h ⊢
  rw [h, BitVec.toNat_ofNat, Nat.mod_eq_of_lt (by omega)]

theorem pr_off25 (i : grid0.Coords) (k : Fin k0_t1_loop.trips) : k0_off25 i k = ![(i 0).val, 16 * k.val + 12] := by
  have hk : k.val < 36 := pr_trips ▸ k.isLt
  have h := pr_word k.val 12 hk (by omega)
  have hi : (i 0).val < 32 := (i 0).isLt
  unfold k0_off25
  simp only [Scalar.indexCast] at h ⊢
  rw [h, BitVec.toNat_ofNat, Nat.mod_eq_of_lt (by omega)]

theorem pr_off27 (i : grid0.Coords) (k : Fin k0_t1_loop.trips) : k0_off27 i k = ![(i 0).val, 16 * k.val + 13] := by
  have hk : k.val < 36 := pr_trips ▸ k.isLt
  have h := pr_word k.val 13 hk (by omega)
  have hi : (i 0).val < 32 := (i 0).isLt
  unfold k0_off27
  simp only [Scalar.indexCast] at h ⊢
  rw [h, BitVec.toNat_ofNat, Nat.mod_eq_of_lt (by omega)]

theorem pr_off29 (i : grid0.Coords) (k : Fin k0_t1_loop.trips) : k0_off29 i k = ![(i 0).val, 16 * k.val + 14] := by
  have hk : k.val < 36 := pr_trips ▸ k.isLt
  have h := pr_word k.val 14 hk (by omega)
  have hi : (i 0).val < 32 := (i 0).isLt
  unfold k0_off29
  simp only [Scalar.indexCast] at h ⊢
  rw [h, BitVec.toNat_ofNat, Nat.mod_eq_of_lt (by omega)]

theorem pr_off31 (i : grid0.Coords) (k : Fin k0_t1_loop.trips) : k0_off31 i k = ![(i 0).val, 16 * k.val + 15] := by
  have hk : k.val < 36 := pr_trips ▸ k.isLt
  have h := pr_word k.val 15 hk (by omega)
  have hi : (i 0).val < 32 := (i 0).isLt
  unfold k0_off31
  simp only [Scalar.indexCast] at h ⊢
  rw [h, BitVec.toNat_ofNat, Nat.mod_eq_of_lt (by omega)]

/-- The `r`-th of sixteen things. -/
def pr_pick {α : Type} (v0 v1 v2 v3 v4 v5 v6 v7 v8 v9 v10 v11 v12 v13 v14 v15 : α) : Fin 16 → α
  | ⟨0, _⟩ => v0
  | ⟨1, _⟩ => v1
  | ⟨2, _⟩ => v2
  | ⟨3, _⟩ => v3
  | ⟨4, _⟩ => v4
  | ⟨5, _⟩ => v5
  | ⟨6, _⟩ => v6
  | ⟨7, _⟩ => v7
  | ⟨8, _⟩ => v8
  | ⟨9, _⟩ => v9
  | ⟨10, _⟩ => v10
  | ⟨11, _⟩ => v11
  | ⟨12, _⟩ => v12
  | ⟨13, _⟩ => v13
  | ⟨14, _⟩ => v14
  | ⟨15, _⟩ => v15
  | ⟨_ + 16, h⟩ => absurd h (by omega)

/-! ## Sixteen rows stacked -/

/-- Sixteen one-row pieces stacked along the rows, read at row `r'`, column `col`: piece `r'` at its one row, the same
    column (the stack is the list of the pieces of one shape and extent one along the rows, so the row names the piece). -/
theorem pr_concat16 {α : Type} (v0 v1 v2 v3 v4 v5 v6 v7 v8 v9 v10 v11 v12 v13 v14 v15 : S1x768.Idx → α)
    (h : Shape.Concatenates ([(⟨S1x768, v0⟩ : (s : Shape) × (s.Idx → α)), (⟨S1x768, v1⟩ : (s : Shape) × (s.Idx → α)), (⟨S1x768, v2⟩ : (s : Shape) × (s.Idx → α)), (⟨S1x768, v3⟩ : (s : Shape) × (s.Idx → α)), (⟨S1x768, v4⟩ : (s : Shape) × (s.Idx → α)), (⟨S1x768, v5⟩ : (s : Shape) × (s.Idx → α)), (⟨S1x768, v6⟩ : (s : Shape) × (s.Idx → α)), (⟨S1x768, v7⟩ : (s : Shape) × (s.Idx → α)), (⟨S1x768, v8⟩ : (s : Shape) × (s.Idx → α)), (⟨S1x768, v9⟩ : (s : Shape) × (s.Idx → α)), (⟨S1x768, v10⟩ : (s : Shape) × (s.Idx → α)), (⟨S1x768, v11⟩ : (s : Shape) × (s.Idx → α)), (⟨S1x768, v12⟩ : (s : Shape) × (s.Idx → α)), (⟨S1x768, v13⟩ : (s : Shape) × (s.Idx → α)), (⟨S1x768, v14⟩ : (s : Shape) × (s.Idx → α)), (⟨S1x768, v15⟩ : (s : Shape) × (s.Idx → α))].map (·.1)) S16x768 0)
    (r' : Fin 16) (col : Fin 768) :
    concatenate S16x768 0 [⟨S1x768, v0⟩, ⟨S1x768, v1⟩, ⟨S1x768, v2⟩, ⟨S1x768, v3⟩, ⟨S1x768, v4⟩, ⟨S1x768, v5⟩, ⟨S1x768, v6⟩, ⟨S1x768, v7⟩, ⟨S1x768, v8⟩, ⟨S1x768, v9⟩, ⟨S1x768, v10⟩, ⟨S1x768, v11⟩, ⟨S1x768, v12⟩, ⟨S1x768, v13⟩, ⟨S1x768, v14⟩, ⟨S1x768, v15⟩] h (ix2 r' col)
      = (![v0, v1, v2, v3, v4, v5, v6, v7, v8, v9, v10, v11, v12, v13, v14, v15] r') (ix2 (0 : Fin 1) col) := by
  have hL : [(⟨S1x768, v0⟩ : (s : Shape) × (s.Idx → α)), (⟨S1x768, v1⟩ : (s : Shape) × (s.Idx → α)), (⟨S1x768, v2⟩ : (s : Shape) × (s.Idx → α)), (⟨S1x768, v3⟩ : (s : Shape) × (s.Idx → α)), (⟨S1x768, v4⟩ : (s : Shape) × (s.Idx → α)), (⟨S1x768, v5⟩ : (s : Shape) × (s.Idx → α)), (⟨S1x768, v6⟩ : (s : Shape) × (s.Idx → α)), (⟨S1x768, v7⟩ : (s : Shape) × (s.Idx → α)), (⟨S1x768, v8⟩ : (s : Shape) × (s.Idx → α)), (⟨S1x768, v9⟩ : (s : Shape) × (s.Idx → α)), (⟨S1x768, v10⟩ : (s : Shape) × (s.Idx → α)), (⟨S1x768, v11⟩ : (s : Shape) × (s.Idx → α)), (⟨S1x768, v12⟩ : (s : Shape) × (s.Idx → α)), (⟨S1x768, v13⟩ : (s : Shape) × (s.Idx → α)), (⟨S1x768, v14⟩ : (s : Shape) × (s.Idx → α)), (⟨S1x768, v15⟩ : (s : Shape) × (s.Idx → α))]
      = List.ofFn (fun n : Fin 16 => (⟨S1x768, ![v0, v1, v2, v3, v4, v5, v6, v7, v8, v9, v10, v11, v12, v13, v14, v15] n⟩ : (s : Shape) × (s.Idx → α))) := by
    rfl
  revert h
  rw [hL]
  intro h
  refine concatenate_ofFn_unit_apply (t := S16x768) (s₁ := S1x768) (0 : Fin 2) ![v0, v1, v2, v3, v4, v5, v6, v7, v8, v9, v10, v11, v12, v13, v14, v15] h rfl rfl (ix2 r' col) r' rfl (ix2 (0 : Fin 1) col) ?_
  intro b hb
  match b with
  | ⟨0, _⟩ => exact absurd rfl hb
  | ⟨1, _⟩ => rfl

/-- The block a trip stores, read at row `r'`, column `col`: the conversion to the narrow format of entry `col` of
    the `r'`-th flattened window (the last two windows are flattened inside the block's own definition). -/
theorem pr_pay1_apply (w1 w2 w3 w4 w5 w6 w7 w8 w9 w10 w11 w12 w13 w14 : FVec F S768 .f32) (w15 w16 : Vec F S1x3x16x16 .f32) (r' : Fin 16) (col : Fin 768) :
    k0_pay1 w1 w2 w3 w4 w5 w6 w7 w8 w9 w10 w11 w12 w13 w14 w15 w16 (ix2 r' col)
      = FloatOps.truncf .bf16 bitsLt_bf16_f32 (pr_pick w1 w2 w3 w4 w5 w6 w7 w8 w9 w10 w11 w12 w13 w14 (k0_pay3 w15) (k0_pay3 w16) r' (ix1 col)) := by
  unfold k0_pay1
  rw [shapeCast_self]
  show FloatOps.truncf .bf16 bitsLt_bf16_f32 (concatenate S16x768 0 _ _ (ix2 r' col)) = _
  rw [pr_concat16]
  refine congrArg (FloatOps.truncf .bf16 bitsLt_bf16_f32) ?_
  match r' with
  | ⟨0, _⟩ => exact shapeCast_a_1a_apply w1 _ 0 col
  | ⟨1, _⟩ => exact shapeCast_a_1a_apply w2 _ 0 col
  | ⟨2, _⟩ => exact shapeCast_a_1a_apply w3 _ 0 col
  | ⟨3, _⟩ => exact shapeCast_a_1a_apply w4 _ 0 col
  | ⟨4, _⟩ => exact shapeCast_a_1a_apply w5 _ 0 col
  | ⟨5, _⟩ => exact shapeCast_a_1a_apply w6 _ 0 col
  | ⟨6, _⟩ => exact shapeCast_a_1a_apply w7 _ 0 col
  | ⟨7, _⟩ => exact shapeCast_a_1a_apply w8 _ 0 col
  | ⟨8, _⟩ => exact shapeCast_a_1a_apply w9 _ 0 col
  | ⟨9, _⟩ => exact shapeCast_a_1a_apply w10 _ 0 col
  | ⟨10, _⟩ => exact shapeCast_a_1a_apply w11 _ 0 col
  | ⟨11, _⟩ => exact shapeCast_a_1a_apply w12 _ 0 col
  | ⟨12, _⟩ => exact shapeCast_a_1a_apply w13 _ 0 col
  | ⟨13, _⟩ => exact shapeCast_a_1a_apply w14 _ 0 col
  | ⟨14, _⟩ => exact shapeCast_a_1a_apply (k0_pay3 w15) _ 0 col
  | ⟨15, _⟩ => exact shapeCast_a_1a_apply (k0_pay3 w16) _ 0 col
  | ⟨_ + 16, h⟩ => exact absurd h (by omega)

/-! ## The block of a trip, entry by entry -/

theorem pv_rowBlk_apply (c : Dev nD) (i : grid0.Coords) (arg1 arg2 : Memref sig .tc .smem S32x576 .i32) (arg3 : Memref sig .tc .vmem S1x3x384x384 .f32)
    (T1 : Buf (Elt F) (arg1.view.loc (c : Thread nD τ))) (T2 : Buf (Elt F) (arg2.view.loc (c : Thread nD τ))) (x0 : Buf (Elt F) (arg3.view.loc (c : Thread nD τ)))
    (k : Fin k0_t1_loop.trips) (hc : Chk c i arg1 arg2 T1 T2 k) (r' : Fin 16) (col : Fin 768) (n : Fin 576) (hn : n.val = 16 * k.val + r'.val) :
    rowBlk c i arg1 arg2 arg3 T1 T2 x0 k hc (ix2 r' col)
      = FloatOps.truncf .bf16 bitsLt_bf16_f32 (arg3.view.read (Elt F) x0
          (Cert.Proof.Spec.pidx (BitVec.toNat (arg1.view.read (Elt F) T1 (ix2 (⟨(i 0).val, (i 0).isLt⟩ : Fin 32) n)))
            (BitVec.toNat (arg2.view.read (Elt F) T2 (ix2 (⟨(i 0).val, (i 0).isLt⟩ : Fin 32) n))) col)) := by
  unfold rowBlk
  rw [pr_pay1_apply]
  refine congrArg (FloatOps.truncf .bf16 bitsLt_bf16_f32) ?_
  match r', hn with
  | ⟨0, _⟩, hn =>
    exact pr_row c arg1 arg2 arg3 T1 T2 x0 ⟨(i 0).val, (i 0).isLt⟩ n (k0_off1 i k) (k0_off1_inb i k)
      (by rw [pr_off1, hn]) (k0_off2_inb _ _ hc.c1) col
  | ⟨1, _⟩, hn =>
    exact pr_row c arg1 arg2 arg3 T1 T2 x0 ⟨(i 0).val, (i 0).isLt⟩ n (k0_off3 i k) (k0_off3_inb i k)
      (by rw [pr_off3, hn]) (k0_off4_inb _ _ hc.c2) col
  | ⟨2, _⟩, hn =>
    exact pr_row c arg1 arg2 arg3 T1 T2 x0 ⟨(i 0).val, (i 0).isLt⟩ n (k0_off5 i k) (k0_off5_inb i k)
      (by rw [pr_off5, hn]) (k0_off6_inb _ _ hc.c3) col
  | ⟨3, _⟩, hn =>
    exact pr_row c arg1 arg2 arg3 T1 T2 x0 ⟨(i 0).val, (i 0).isLt⟩ n (k0_off7 i k) (k0_off7_inb i k)
      (by rw [pr_off7, hn]) (k0_off8_inb _ _ hc.c4) col
  | ⟨4, _⟩, hn =>
    exact pr_row c arg1 arg2 arg3 T1 T2 x0 ⟨(i 0).val, (i 0).isLt⟩ n (k0_off9 i k) (k0_off9_inb i k)
      (by rw [pr_off9, hn]) (k0_off10_inb _ _ hc.c5) col
  | ⟨5, _⟩, hn =>
    exact pr_row c arg1 arg2 arg3 T1 T2 x0 ⟨(i 0).val, (i 0).isLt⟩ n (k0_off11 i k) (k0_off11_inb i k)
      (by rw [pr_off11, hn]) (k0_off12_inb _ _ hc.c6) col
  | ⟨6, _⟩, hn =>
    exact pr_row c arg1 arg2 arg3 T1 T2 x0 ⟨(i 0).val, (i 0).isLt⟩ n (k0_off13 i k) (k0_off13_inb i k)
      (by rw [pr_off13, hn]) (k0_off14_inb _ _ hc.c7) col
  | ⟨7, _⟩, hn =>
    exact pr_row c arg1 arg2 arg3 T1 T2 x0 ⟨(i 0).val, (i 0).isLt⟩ n (k0_off15 i k) (k0_off15_inb i k)
      (by rw [pr_off15, hn]) (k0_off16_inb _ _ hc.c8) col
  | ⟨8, _⟩, hn =>
    exact pr_row c arg1 arg2 arg3 T1 T2 x0 ⟨(i 0).val, (i 0).isLt⟩ n (k0_off17 i k) (k0_off17_inb i k)
      (by rw [pr_off17, hn]) (k0_off18_inb _ _ hc.c9) col
  | ⟨9, _⟩, hn =>
    exact pr_row c arg1 arg2 arg3 T1 T2 x0 ⟨(i 0).val, (i 0).isLt⟩ n (k0_off19 i k) (k0_off19_inb i k)
      (by rw [pr_off19, hn]) (k0_off20_inb _ _ hc.c10) col
  | ⟨10, _⟩, hn =>
    exact pr_row c arg1 arg2 arg3 T1 T2 x0 ⟨(i 0).val, (i 0).isLt⟩ n (k0_off21 i k) (k0_off21_inb i k)
      (by rw [pr_off21, hn]) (k0_off22_inb _ _ hc.c11) col
  | ⟨11, _⟩, hn =>
    exact pr_row c arg1 arg2 arg3 T1 T2 x0 ⟨(i 0).val, (i 0).isLt⟩ n (k0_off23 i k) (k0_off23_inb i k)
      (by rw [pr_off23, hn]) (k0_off24_inb _ _ hc.c12) col
  | ⟨12, _⟩, hn =>
    exact pr_row c arg1 arg2 arg3 T1 T2 x0 ⟨(i 0).val, (i 0).isLt⟩ n (k0_off25 i k) (k0_off25_inb i k)
      (by rw [pr_off25, hn]) (k0_off26_inb _ _ hc.c13) col
  | ⟨13, _⟩, hn =>
    exact pr_row c arg1 arg2 arg3 T1 T2 x0 ⟨(i 0).val, (i 0).isLt⟩ n (k0_off27 i k) (k0_off27_inb i k)
      (by rw [pr_off27, hn]) (k0_off28_inb _ _ hc.c14) col
  | ⟨14, _⟩, hn =>
    exact pr_row c arg1 arg2 arg3 T1 T2 x0 ⟨(i 0).val, (i 0).isLt⟩ n (k0_off29 i k) (k0_off29_inb i k)
      (by rw [pr_off29, hn]) (k0_off30_inb _ _ hc.c15) col
  | ⟨15, _⟩, hn =>
    exact pr_row c arg1 arg2 arg3 T1 T2 x0 ⟨(i 0).val, (i 0).isLt⟩ n (k0_off31 i k) (k0_off31_inb i k)
      (by rw [pr_off31, hn]) (k0_off32_inb _ _ hc.c16) col
  | ⟨_ + 16, h⟩, _ => exact absurd h (by omega)

end Cert.Proof.KI

end
-- ==== Proof.KI.PatchVal.lean ====
/-
  The scratch after the gathering loop, read index by index, for every float instance.

  After n trips the scratch is its entry contents with the first n blocks of sixteen rows overwritten, so a row below
  16·n reads row (r mod 16) of the block trip (r / 16) stored. Entry (r', col) of the block trip k stores is the
  narrow-format conversion of entry col of window r' flattened: the image block at channel col / 256, row
  h + (col / 16) % 16, column w + col % 16, with (h, w) the two table words at cell (b, 16·k + r'), b the grid
  coordinate. After thirty-six trips every row is below 576 = 16·36, so the scratch read whole is the patch matrix of
  the specification and no longer depends on the entry contents.
-/
import proofs.«400218_j73332271612542_2_alg».proof.Proof.KI.Body
import proofs.«400218_j73332271612542_2_alg».proof.Proof.KI.PatchRow
import proofs.«400218_j73332271612542_2_alg».proof.Proof.Spec
import Idealize.ShloMosaic.Lib.Pipeline.Value
import Idealize.ShloMosaic.Lib.ValueIdx
import Idealize.ShloMosaic.Lib.ValueLayout
import Idealize.ShloMosaic.Lib.WritesUnit

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The change of float format of ONE entry: the scalar operation the vector conversion applies lane by lane. -/
def cvt : Elt F .f32 → Elt F .bf16 := fun x => FloatOps.truncf .bf16 bitsLt_bf16_f32 x

/-- The vector conversion read at an index converts the entry there. -/
theorem truncf_apply {s : Shape} (v : FVec F s .f32) (j : s.Idx) :
    (truncf .bf16 v bitsLt_bf16_f32) j = cvt (v j) := rfl

/-- Over the extended reals a change of float format is the identity. -/
theorem cvt_ideal (e : Elt Ideal .f32) : cvt (F := Ideal) e = e := rfl

/-- The loop runs thirty-six trips. -/
theorem pv_trips : k0_t1_loop.trips = 36 := by decide

/-- The first row of trip `k`'s block, as a number: sixteen times the trip. -/
theorem pv_word0 (k : Nat) (hk : k < 36) :
    (Scalar.indexCast (Scalar.muli (Scalar.addi 0#32 (Scalar.muli (Scf.iv 0#32 1#32 k) 1#32)) 16#32)).toNat = 16 * k := by
  simp only [Scalar.indexCast, Scalar.addi, Scalar.muli, IntOp.addi, IntOp.muli, Scf.iv]
  simp only [BitVec.toNat_add, BitVec.toNat_mul, BitVec.toNat_ofNat]
  omega

/-- Trip `k`'s block starts at row `16·k`, column 0. -/
theorem pv_off33 (k : Fin k0_t1_loop.trips) : k0_off33 k = ![16 * k.val, 0] := by
  have hk : k.val < 36 := lt_of_lt_of_eq k.isLt pv_trips
  have h := pv_word0 k.val hk
  unfold k0_off33
  simp only [Scalar.indexCast] at h ⊢
  rw [h]

section PatchVal

variable (c : Dev nD) (i : grid0.Coords)
  (arg1 : Memref sig .tc .smem S32x576 .i32) (arg2 : Memref sig .tc .smem S32x576 .i32)
  (arg3 : Memref sig .tc .vmem S1x3x384x384 .f32)
  (arg7 : Memref sig .tc .vmem S576x768 .bf16)
  (T1 : Buf (Elt F) (arg1.view.loc (c : Thread nD τ))) (T2 : Buf (Elt F) (arg2.view.loc (c : Thread nD τ)))
  (x0 : Buf (Elt F) (arg3.view.loc (c : Thread nD τ)))
  (hchk : ∀ k, Chk c i arg1 arg2 T1 T2 k)

/-- A row below `16·n` of the scratch after `n` trips reads, in the block of the trip that wrote it, its row modulo
    sixteen: by induction on the trips, the newest block either holds the row or leaves it to the earlier ones. -/
theorem pv_acc_read (f₀ : Buf (Elt F) (arg7.view.loc (c : Thread nD τ))) (r : Fin 576) (col : Fin 768)
    (k : Fin k0_t1_loop.trips) (hk : k.val = r.val / 16) (r' : Fin 16) (hr' : r'.val = r.val % 16) (n : ℕ) :
    n ≤ 36 → r.val < 16 * n →
      arg7.view.read (Elt F) (ACC c i arg1 arg2 arg3 arg7 T1 T2 x0 hchk f₀ n) (ix2 r col)
        = rowBlk c i arg1 arg2 arg3 T1 T2 x0 k (hchk k) (ix2 r' col) := by
  induction n with
  | zero => intro _ hr; exact absurd hr (by omega)
  | succ n ih =>
    intro hn hr
    have hn' : n < k0_t1_loop.trips := by rw [pv_trips]; omega
    rw [show ACC c i arg1 arg2 arg3 arg7 T1 T2 x0 hchk f₀ (n + 1)
          = STEP c i arg1 arg2 arg3 arg7 T1 T2 x0 hchk ⟨n, hn'⟩ (ACC c i arg1 arg2 arg3 arg7 T1 T2 x0 hchk f₀ n)
        from ACC_succ c i arg1 arg2 arg3 arg7 T1 T2 x0 hchk f₀ ⟨n, hn'⟩]
    unfold STEP
    by_cases hlt : r.val < 16 * n
    · -- the newest block starts above the row: the earlier trips' contents are read
      generalize rowBlk c i arg1 arg2 arg3 T1 T2 x0 ⟨n, hn'⟩ (hchk ⟨n, hn'⟩) = W
      rw [View.read_writes_cons_rows_of_not_mem (Val := Elt F) arg7.view _ (k0_off33_inb ⟨n, hn'⟩) W [] (ix2 r col)
        (pv_off33 ⟨n, hn'⟩) rfl (Or.inl hlt)]
      rw [View.writes_nil]
      exact ih (by omega) hlt
    · -- the newest block holds the row: it is the block of trip `r / 16`
      have hkn : (⟨n, hn'⟩ : Fin k0_t1_loop.trips) = k := Fin.ext (by show n = k.val; omega)
      subst hkn
      generalize rowBlk c i arg1 arg2 arg3 T1 T2 x0 ⟨n, hn'⟩ (hchk ⟨n, hn'⟩) = W
      exact View.read_writes_cons_rows_of_mem (Val := Elt F) arg7.view _ (k0_off33_inb ⟨n, hn'⟩) W [] (ix2 r col) (ix2 r' col)
        (pv_off33 ⟨n, hn'⟩) (by show r.val = 16 * n + r'.val; omega) rfl

/-- The scratch after the loop, read whole, is the specification's patch matrix of the image block at the grid's batch
    element, each entry converted to the narrow format: every row is below `576 = 16·36`, so each entry is an entry of
    a stored block, and that is the converted image-block entry the two table words at the row's cell point at. -/
theorem scr_read (f₀ : Buf (Elt F) (arg7.view.loc (c : Thread nD τ))) :
    View.readAt (Elt F) arg7.view rAll7.toLoadRect (scrEnd c i arg1 arg2 arg3 arg7 T1 T2 x0 hchk f₀)
      = Cert.Proof.Spec.patchMat cvt (arg3.view.read (Elt F) x0) (arg1.view.read (Elt F) T1) (arg2.view.read (Elt F) T2)
          ⟨(i 0).val, (i 0).isLt⟩ := by
  -- the whole-buffer load reads the contents
  have h1 : View.readAt (Elt F) arg7.view rAll7.toLoadRect (scrEnd c i arg1 arg2 arg3 arg7 T1 T2 x0 hchk f₀)
      = arg7.view.read (Elt F) (scrEnd c i arg1 arg2 arg3 arg7 T1 T2 x0 hchk f₀) :=
    View.ld_unit_zero (by funext a; fin_cases a <;> rfl) _ _
  rw [h1]
  funext j
  obtain ⟨r, col, rfl⟩ : ∃ (r : Fin 576) (col : Fin 768), j = ix2 r col := ⟨j 0, j 1, eq_ix2 j⟩
  have hr : r.val < 576 := r.isLt
  have hk : r.val / 16 < k0_t1_loop.trips := by rw [pv_trips]; omega
  show arg7.view.read (Elt F) (ACC c i arg1 arg2 arg3 arg7 T1 T2 x0 hchk f₀ 36) (ix2 r col) = _
  rw [pv_acc_read c i arg1 arg2 arg3 arg7 T1 T2 x0 hchk f₀ r col ⟨r.val / 16, hk⟩ rfl
    ⟨r.val % 16, Nat.mod_lt _ (by decide)⟩ rfl 36 le_rfl (by omega)]
  rw [pv_rowBlk_apply c i arg1 arg2 arg3 T1 T2 x0 ⟨r.val / 16, hk⟩ (hchk _) ⟨r.val % 16, Nat.mod_lt _ (by decide)⟩ col r
    (by show r.val = 16 * (r.val / 16) + r.val % 16; omega)]
  rfl

end PatchVal

end Cert.Proof.KI

end
-- ==== Proof.KI.Dats.lean ====
/-
  The pipeline's proof data, the body obligation, the launch and the frame, for every float instance.

  At grid point t (the batch element) the body reads the two index tables, the image block, the weight block and the
  bias, fills the scratch with the 576×768 patch matrix of that image and stores the product of the patch matrix with
  the weight block, plus the bias along the rows, whole into the output block. So what the output window's staging
  buffer holds after the body depends on the three input blocks and the tables only (outBlk), not on what the
  scratch or the staging buffer held before; the three inputs' staging buffers hold their blocks before and after.
  With that as the proof data the body's run is the library's body obligation, the library's launch theorem runs the
  whole program, and its final-state description gives back the five argument arrays as launched.
-/
import proofs.«400218_j73332271612542_2_alg».proof.Proof.KI.Kit
import proofs.«400218_j73332271612542_2_alg».proof.Proof.KI.Body
import proofs.«400218_j73332271612542_2_alg».proof.Proof.KI.Hyps
import proofs.«400218_j73332271612542_2_alg».proof.Proof.KI.PatchVal

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- The batch element of grid point t. -/
abbrev bOf (t : Fin (cfgM m).N) : Fin 32 := ⟨t.val, t.isLt.trans_eq N_0⟩

/-- What the output window's staging buffer holds after the body at point t: the patch matrix of the image block
    (its corners read off the two tables at batch element t) against the weight block, plus the bias. -/
def outBlk (c : Dev nD) (t : Fin (cfgM m).N) : Vec F S1x576x768 .f32 :=
  k0_pay2 (Cert.Proof.Spec.patchMat cvt (iblk m c 0 t) (tbl m 0) (tbl m 1) (bOf m t)) (iblk m c 1 t) (iblk m c 2 t)

/-! ## The pipeline's proof data -/

/-- The proof data of the one pipeline on core c: the arrays as the region finds them; after the body at point t each
    input's buffer at its block and the output's at outBlk; the invariant the scoped rest with the generator
    register, and the tables' read-only halves; nothing owed; full shares. -/
def dats (hr : Cert.Proof.Spec.InRange (tbl m 0) (tbl m 1)) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := iprop(Pipeline.ΦA spec0 c ∗ Pipeline.ΦT pre0 (tbl m) c)
  q _ := fullShare
  owed _ := 0

theorem A_eq (hr : Cert.Proof.Spec.InRange (tbl m 0) (tbl m 1)) (c : Dev nD) (w : Fin (cfgM m).W) : (dats m hr 0 c).A w = V m c (Pipeline.arrRef spec0 w) := by
  dsimp only [dats]

theorem after0_0 (hr : Cert.Proof.Spec.InRange (tbl m 0) (tbl m 1)) (c : Dev nD) (t : Fin (cfgM m).N) : (dats m hr 0 c).after 0 t = iblk m c 0 t := by dsimp only [dats]; try rfl
theorem after0_1 (hr : Cert.Proof.Spec.InRange (tbl m 0) (tbl m 1)) (c : Dev nD) (t : Fin (cfgM m).N) : (dats m hr 0 c).after 1 t = iblk m c 1 t := by dsimp only [dats]; try rfl
theorem after0_2 (hr : Cert.Proof.Spec.InRange (tbl m 0) (tbl m 1)) (c : Dev nD) (t : Fin (cfgM m).N) : (dats m hr 0 c).after 2 t = iblk m c 2 t := by dsimp only [dats]; try rfl
theorem after0_3 (hr : Cert.Proof.Spec.InRange (tbl m 0) (tbl m 1)) (c : Dev nD) (t : Fin (cfgM m).N) : (dats m hr 0 c).after 3 t = outBlk m c t := by dsimp only [dats]; try rfl

theorem before0_0 (hr : Cert.Proof.Spec.InRange (tbl m 0) (tbl m 1)) (c : Dev nD) (t : Fin (cfgM m).N) (d) : (dats m hr 0 c).before 0 t d = iblk m c 0 t :=
  before0_0_of m (dats m hr 0 c) (A_eq m hr c 0) (after0_0 m hr c) t d
theorem before0_1 (hr : Cert.Proof.Spec.InRange (tbl m 0) (tbl m 1)) (c : Dev nD) (t : Fin (cfgM m).N) (d) : (dats m hr 0 c).before 1 t d = iblk m c 1 t :=
  before0_1_of m (dats m hr 0 c) (A_eq m hr c 1) (after0_1 m hr c) t d
theorem before0_2 (hr : Cert.Proof.Spec.InRange (tbl m 0) (tbl m 1)) (c : Dev nD) (t : Fin (cfgM m).N) (d) : (dats m hr 0 c).before 2 t d = iblk m c 2 t :=
  before0_2_of m (dats m hr 0 c) (A_eq m hr c 2) (after0_2 m hr c) t d

/-! ## The value the body stores, read back -/

/-- On the one-axis grid the point's coordinate is the point. -/
theorem coords_val (t : Fin (cfgM m).N) : ((grid0.coords t) 0).val = t.val := by
  have hs : grid0.stride 0 = 1 := by decide
  show t.val / grid0.stride 0 % grid0.bound 0 = t.val
  rw [hs, Nat.div_one]
  exact Nat.mod_eq_of_lt (t.isLt.trans_eq N_0)

theorem zeros1 : (![0] : Fin S768.rank → Nat) = fun _ => 0 := by funext a; fin_cases a <;> rfl
theorem zeros2 : (![0, 0] : Fin S768x768.rank → Nat) = fun _ => 0 := by funext a; fin_cases a <;> rfl
theorem zeros3 : (![0, 0, 0] : Fin S1x576x768.rank → Nat) = fun _ => 0 := by funext a; fin_cases a <;> rfl

section Out

variable (c : Dev nD) (i : grid0.Coords)
  (arg1 : Memref sig .tc .smem S32x576 .i32) (arg2 : Memref sig .tc .smem S32x576 .i32)
  (arg3 : Memref sig .tc .vmem S1x3x384x384 .f32) (harg3 : arg3.IsWhole)
  (arg4 : Memref sig .tc .vmem S768x768 .bf16) (harg4 : arg4.IsWhole)
  (arg5 : Memref sig .tc .vmem S768 .f32) (harg5 : arg5.IsWhole)
  (arg6 : Memref sig .tc .vmem S1x576x768 .f32)
  (arg7 : Memref sig .tc .vmem S576x768 .bf16)
  (T1 : Buf (Elt F) (arg1.view.loc (c : Thread nD τ))) (T2 : Buf (Elt F) (arg2.view.loc (c : Thread nD τ)))

/-- The output block is overwritten whole by one piece, so it reads that piece's value whatever it held. -/
theorem read_OUT (x0 : Buf (Elt F) (arg3.view.loc (c : Thread nD τ))) (w0 : Buf (Elt F) (arg4.view.loc (c : Thread nD τ)))
    (b0 : Buf (Elt F) (arg5.view.loc (c : Thread nD τ))) (hchk : ∀ k, Chk c i arg1 arg2 T1 T2 k)
    (f₀ : Buf (Elt F) (arg7.view.loc (c : Thread nD τ))) (o₀ : Buf (Elt F) (arg6.view.loc (c : Thread nD τ))) :
    arg6.view.read (Elt F) (OUT c i arg1 arg2 arg3 arg4 arg5 arg6 arg7 T1 T2 x0 w0 b0 hchk f₀ o₀)
      = outVal c i arg1 arg2 arg3 arg4 arg5 arg7 T1 T2 x0 w0 b0 hchk f₀ := by
  unfold OUT
  rw [View.read_writes_eq_canon _ _ _ (fun y => ⟨_, List.mem_singleton_self _, View.mem_set_unit_zero zeros3 inb_S1x576x768_S1x576x768_0_0_0 y⟩),
    View.canon_unit_zero zeros3]

/-- The stored value when the three input buffers hold given blocks: the scratch read back is the patch matrix of the
    image block, and the whole reads of the weight buffer and of the bias buffer are their blocks. -/
theorem outVal_unread (X0 : Vec F S1x3x384x384 .f32) (X1 : Vec F S768x768 .bf16) (X2 : Vec F S768 .f32)
    (hchk : ∀ k, Chk c i arg1 arg2 T1 T2 k) (f₀ : Buf (Elt F) (arg7.view.loc (c : Thread nD τ))) :
    outVal c i arg1 arg2 arg3 arg4 arg5 arg7 T1 T2 (harg3.unread X0) (harg4.unread X1) (harg5.unread X2) hchk f₀
      = k0_pay2 (Cert.Proof.Spec.patchMat cvt X0 (arg1.view.read (Elt F) T1) (arg2.view.read (Elt F) T2) ⟨(i 0).val, (i 0).isLt⟩) X1 X2 := by
  unfold outVal
  rw [scr_read, harg3.read_unread, View.readAt_eq_ld, View.readAt_eq_ld, harg4.read_unread, harg5.read_unread,
    View.ld_unit_zero zeros2, View.ld_unit_zero zeros1]

end Out

/-! ## The body obligation, at a generic point -/

/-- The body as the pipeline calls it at point t: the kernel function at the point's coordinates, on the two tables
    whole, the four windows' current staging memrefs and the scratch whole. -/
abbrev bodyAt (t : Fin (cfgM m).N) : Prog (TpuEff nD τ sig (Elt F) Λ₀ .tc) PUnit :=
  cc0__patch_embed_kernel (grid0.coords t) tbM1 htbM1 tbM2 htbM2 (ms0_0 m t) (hs0_0 m t) (ms0_1 m t) (hs0_1 m t)
    (ms0_2 m t) (hs0_2 m t) (ms0_3 m t) (hs0_3 m t) scrM hscrM

/-- What the body is handed at point t: the invariant, what the core owes, and each window's current staging buffer at
    what it then holds. -/
def bodyPre (hr : Cert.Proof.Spec.InRange (tbl m 0) (tbl m 1)) (c : Dev nD) (t : Fin (cfgM m).N) : sProp 𝕄 :=
  iprop((dats m hr 0 c).Φ t.castSucc ∗ (dats m hr 0 c).owesAt () t.castSucc
    ∗ (∃ d, owns (c : Thread nD τ) (ms0_0 m t) fullShare ((dats m hr 0 c).before 0 t d))
    ∗ (∃ d, owns (c : Thread nD τ) (ms0_1 m t) fullShare ((dats m hr 0 c).before 1 t d))
    ∗ (∃ d, owns (c : Thread nD τ) (ms0_2 m t) fullShare ((dats m hr 0 c).before 2 t d))
    ∗ (∃ d, owns (c : Thread nD τ) (ms0_3 m t) fullShare ((dats m hr 0 c).before 3 t d)))

/-- What the body hands back: the same invariant and debt, the three inputs' buffers at their blocks and the output's at
    outBlk. -/
def bodyPost (hr : Cert.Proof.Spec.InRange (tbl m 0) (tbl m 1)) (c : Dev nD) (t : Fin (cfgM m).N) : sProp 𝕄 :=
  iprop((dats m hr 0 c).Φ t.succ ∗ (dats m hr 0 c).owesAt () t.succ
    ∗ owns (c : Thread nD τ) (ms0_0 m t) fullShare ((dats m hr 0 c).after 0 t)
    ∗ owns (c : Thread nD τ) (ms0_1 m t) fullShare ((dats m hr 0 c).after 1 t)
    ∗ owns (c : Thread nD τ) (ms0_2 m t) fullShare ((dats m hr 0 c).after 2 t)
    ∗ owns (c : Thread nD τ) (ms0_3 m t) fullShare ((dats m hr 0 c).after 3 t))

/-- The body at any point. The inputs' buffers hold their blocks, the tables' corners are in range, so the body's run
    applies from whatever the scratch and the output buffer hold; the generator register and the debt pass through
    unread; the scratch goes back into the invariant at its new contents; and the output buffer, overwritten whole,
    reads the product of the patch matrix with the weight block plus the bias, the patch matrix being the one of the
    batch element the point's coordinate names, which is the point itself. -/
theorem sound_body (hr : Cert.Proof.Spec.InRange (tbl m 0) (tbl m 1)) (c : Dev nD) (t : Fin (cfgM m).N) :
    bodyPre m hr c t ⊢ wp frame (wpE (defs₀ (F := F)) Variants.none c none) Set.univ (bodyAt m t) (fun _ => bodyPost m hr c t) := by
  unfold bodyPre bodyPost
  simp only [before0_0, before0_1, before0_2]
  rw [show (dats m hr 0 c).Φ t.succ = (dats m hr 0 c).Φ t.castSucc from rfl,
    show (dats m hr 0 c).owesAt () t.succ = (dats m hr 0 c).owesAt () t.castSucc from rfl,
    after0_0, after0_1, after0_2, after0_3]
  rw [show (dats m hr 0 c).Φ t.castSucc = iprop(Pipeline.ΦA spec0 c ∗ Pipeline.ΦT pre0 (tbl m) c) from rfl, PhiT0_eq]
  unfold Pipeline.ΦA
  rw [scopedRest0_eq]
  unfold owns
  have hchk : ∀ k, Chk c (grid0.coords t) tbM1 tbM2 (tbl m 0) (tbl m 1) k :=
    chk_of_inRange c (grid0.coords t) tbM1 tbM2 (tbl m 0) (tbl m 1) htbM1 htbM2 hr
  have e7 : ∀ f : Buf (Elt F) ((c : Thread nD τ).loc cc0_scratch0),
      ((scrM.view.loc (c : Thread nD τ) ↦[scrM.view.set]{fullShare} f : sProp 𝕄)) = ((c : Thread nD τ).loc cc0_scratch0 ↦{fullShare} f) :=
    fun f => by simp only [Memref.view_whole, View.set_whole]
  have hrun := fun f₀ o₀ => body_run c (grid0.coords t) tbM1 htbM1 tbM2 htbM2 (ms0_0 m t) (hs0_0 m t) (ms0_1 m t) (hs0_1 m t)
    (ms0_2 m t) (hs0_2 m t) (ms0_3 m t) (hs0_3 m t) scrM hscrM (tbl m 0) (tbl m 1)
    ((hs0_0 m t).unread (iblk m c 0 t)) ((hs0_1 m t).unread (iblk m c 1 t)) ((hs0_2 m t).unread (iblk m c 2 t)) hchk f₀ o₀
  unfold BODY at hrun
  simp only [e7] at hrun
  iintro ⟨⟨⟨⟨%f7, H7⟩, Hp⟩, HT1, HT2⟩, Ho, ⟨%d0, %f0, %hf0, H0⟩, ⟨%d1, %f1, %hf1, H1⟩, ⟨%d2, %f2, %hf2, H2⟩, ⟨%d3, %f3, -, H3⟩⟩
  obtain rfl := (hs0_0 m t).eq_unread hf0
  obtain rfl := (hs0_1 m t).eq_unread hf1
  obtain rfl := (hs0_2 m t).eq_unread hf2
  iapply (wp_wand_r frame _ Set.univ)
  isplitl [HT1 HT2 H0 H1 H2 H3 H7]
  · iapply (hrun f7 f3)
    isplitl [HT1]; · iexact HT1
    isplitl [HT2]; · iexact HT2
    isplitl [H0]; · iexact H0
    isplitl [H1]; · iexact H1
    isplitl [H2]; · iexact H2
    isplitl [H3]; · iexact H3
    iexact H7
  iintro %_ ⟨HT1, HT2, H0, H1, H2, H3, H7⟩
  isplitl [H7 Hp HT1 HT2]
  · isplitl [H7 Hp]
    · isplitl [H7]
      · iexists _; iexact H7
      · iexact Hp
    · isplitl [HT1]; · iexact HT1
      iexact HT2
  isplitl [Ho]; · iexact Ho
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  have hb : (⟨((grid0.coords t) 0).val, ((grid0.coords t) 0).isLt⟩ : Fin 32) = bOf m t := Fin.ext (coords_val m t)
  exact (read_OUT c (grid0.coords t) tbM1 tbM2 (ms0_0 m t) (ms0_1 m t) (ms0_2 m t) (ms0_3 m t) scrM (tbl m 0) (tbl m 1) _ _ _ hchk f7 f3).trans
    ((outVal_unread c (grid0.coords t) tbM1 tbM2 (ms0_0 m t) (hs0_0 m t) (ms0_1 m t) (hs0_1 m t) (ms0_2 m t) (hs0_2 m t) scrM
        (tbl m 0) (tbl m 1) (iblk m c 0 t) (iblk m c 1 t) (iblk m c 2 t) hchk f7).trans
      (congrArg (fun b => k0_pay2 (Cert.Proof.Spec.patchMat cvt (iblk m c 0 t) (tbl m 0) (tbl m 1) b) (iblk m c 1 t) (iblk m c 2 t)) hb))

/-- The body obligation at every point: the four windows one by one, then the body's run. -/
theorem body_obligation (hr : Cert.Proof.Spec.InRange (tbl m 0) (tbl m 1)) (c : Dev nD) : BodyObligation (dats (F := F) m hr 0 c) (defs₀ (F := F)) Variants.none () Set.univ := fun t => by
  rw [bigSep_W0, bigSep_W0]
  exact sound_body m hr c t

/-! ## The run and the frame -/

set_option backward.isDefEq.respectTransparency.types false in
/-- From any launch memory with zero counters whose index tables are in range, every weakly fair execution of the program
    terminates, and in every final state each windowed array holds what the proof data computes for it (an input its
    entry contents, the output its blocks overwritten by outBlk point by point) and every other unscoped buffer what it
    held when the region was entered. -/
theorem run_main (hr : Cert.Proof.Spec.InRange (tbl m 0) (tbl m 1)) : θ_run defs (onTc (τ := τ) (main (F := F))) (s₀ m ρ) (Pipeline.FramePost (Pipeline.pin pcfgs fun _ => adm m) (dats m hr) 0 (V m)) :=
  Pipeline.θ_run_frameP pcfgs (fun _ => adm m) (dats m hr) (0 : Fin 1) launch0 defs₀ Variants.none m ρ main
    (hbody := fun c => (body_obligation m hr c).loose) (hshare := fun c => (dats m hr 0 c).share_full fun _ => rfl)
    (howed := fun _ _ => rfl) (V := V m) (hmain := hmain m Variants.none) (hA := A_eq m hr) (hpf := V_pre m)
    (hΦ := fun _ _ => rfl)

/-- The frame: under the same hypothesis the five argument arrays end as they were launched. -/
theorem frame (hr : Cert.Proof.Spec.InRange (tbl m 0) (tbl m 1)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hr) (A_eq m hr) (run_main m ρ hr)

end Cert.Proof.KI

end
-- ==== Proof.KI.Value.lean ====
/-
  The patch-embedding program's result array is the specification, over the extended reals.

  For batch element b, patch n and embedding coordinate e the program stores
      Σ_{f < 768} x[b, f / 256, h[b,n] + (f / 16) % 16, w[b,n] + f % 16] · W[e, f]  +  bias[e].
  The pieces, in order: the block product read at an index (a sum over the 768 contracted columns, plus the bias);
  the staged weight block (the projection matrix narrowed and transposed: the narrowing is the identity here); one
  stored block against the specification over abstract operands; each window's block read off the argument arrays
  (a block's coordinate is its index times its extent plus the coordinate inside; the image and output blocks sit at
  batch element t, the weight block and the bias are whole); what grid point t writes back is block t of the
  specification; the thirty-two blocks cover the result array; so the array ends holding the specification, and the
  run's final state says so.
-/
import proofs.«400218_j73332271612542_2_alg».proof.Proof.KI.Dats
import proofs.«400218_j73332271612542_2_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Proof.KI

open Cert.KernelIdeal Cert.KernelIdeal.Gen
open Idealize.ShloMosaic Idealize.ShloMosaic.TcCoe Idealize.SL.Sem
open Idealize.ShloMosaic.ValueIdx
open Idealize.ShloMosaic.Pipeline (Dat)

/-! ## The block product at an index -/

/-- The left operand's index at output index `i` and contraction index `q` keeps the output's row … -/
theorem mm_lhs_0 (i : S576x768.Idx) (q : dot_S576x768_S768x768_S576x768_1_0_0_1_n_n.contr.Idx) :
    (dot_S576x768_S768x768_S576x768_1_0_0_1_n_n.lhsIdx i q 0).val = (i 0).val := by
  unfold DotDims.lhsIdx
  rw [dif_neg (show ¬(0 : Fin S576x768.rank) ∈ dot_S576x768_S768x768_S576x768_1_0_0_1_n_n.lhsBatch by decide), dif_pos (show (0 : Fin S576x768.rank) ∈ dot_S576x768_S768x768_S576x768_1_0_0_1_n_n.lhsNonContracting by decide)]
  rfl
/-- … and has the contraction's coordinate as its column. -/
theorem mm_lhs_1 (i : S576x768.Idx) (q : dot_S576x768_S768x768_S576x768_1_0_0_1_n_n.contr.Idx) :
    (dot_S576x768_S768x768_S576x768_1_0_0_1_n_n.lhsIdx i q 1).val = (q ⟨0, by decide⟩).val :=
  dot_S576x768_S768x768_S576x768_1_0_0_1_n_n.lhsIdx_val_of_single rfl i q
/-- The right operand's index has the contraction's coordinate as its row … -/
theorem mm_rhs_0 (i : S576x768.Idx) (q : dot_S576x768_S768x768_S576x768_1_0_0_1_n_n.contr.Idx) :
    (dot_S576x768_S768x768_S576x768_1_0_0_1_n_n.rhsIdx i q 0).val = (q ⟨0, by decide⟩).val :=
  dot_S576x768_S768x768_S576x768_1_0_0_1_n_n.rhsIdx_val_of_single rfl i q
/-- … and keeps the output's column. -/
theorem mm_rhs_1 (i : S576x768.Idx) (q : dot_S576x768_S768x768_S576x768_1_0_0_1_n_n.contr.Idx) :
    (dot_S576x768_S768x768_S576x768_1_0_0_1_n_n.rhsIdx i q 1).val = (i 1).val := by
  unfold DotDims.rhsIdx
  rw [dif_neg (show ¬(1 : Fin S768x768.rank) ∈ dot_S576x768_S768x768_S576x768_1_0_0_1_n_n.rhsBatch by decide), dif_pos (show (1 : Fin S768x768.rank) ∈ dot_S576x768_S768x768_S576x768_1_0_0_1_n_n.rhsNonContracting by decide)]
  rfl

/-- Over the extended reals the block product into the zero accumulator, at (n, e), is the sum over the 768 contracted
    columns of the left operand's row n against the right operand's column e. -/
theorem mm_apply (P : FVec Ideal S576x768 .bf16) (Wt : FVec Ideal S768x768 .bf16) (n : Fin 576) (e : Fin 768) :
    matmul dot_S576x768_S768x768_S576x768_1_0_0_1_n_n none P Wt (constant (F := Ideal) S576x768 .f32 0x00000000#32) (ix2 n e)
      = ∑ f : Fin 768, P (ix2 n f) * Wt (ix2 f e) := by
  simp only [matmul]
  rw [Ideal.matmul_constant_zero_apply, ← Equiv.sum_comp (ValueIdx.contrEquiv1 dot_S576x768_S768x768_S576x768_1_0_0_1_n_n 768 rfl rfl).symm]
  refine Finset.sum_congr rfl fun k _ => ?_
  have hk := ValueIdx.contrEquiv1_symm_val dot_S576x768_S768x768_S576x768_1_0_0_1_n_n 768 rfl rfl k
  have el : dot_S576x768_S768x768_S576x768_1_0_0_1_n_n.lhsIdx (ix2 n e) ((ValueIdx.contrEquiv1 dot_S576x768_S768x768_S576x768_1_0_0_1_n_n 768 rfl rfl).symm k) = ix2 n k := funext fun a => Fin.ext (by
    match a with
    | ⟨0, _⟩ => exact mm_lhs_0 _ _
    | ⟨1, _⟩ => exact (mm_lhs_1 _ _).trans hk)
  have er : dot_S576x768_S768x768_S576x768_1_0_0_1_n_n.rhsIdx (ix2 n e) ((ValueIdx.contrEquiv1 dot_S576x768_S768x768_S576x768_1_0_0_1_n_n 768 rfl rfl).symm k) = ix2 k e := funext fun a => Fin.ext (by
    match a with
    | ⟨0, _⟩ => exact (mm_rhs_0 _ _).trans hk
    | ⟨1, _⟩ => exact mm_rhs_1 _ _)
  rw [el, er]

/-- The stored block at (0, n, e): row n of the patch matrix against column e of the weight block, plus the bias at e.
    The leading unit axis and the bias's row axis are bookkeeping; the bias row is the same for every n. -/
theorem pay2_apply (P : Vec Ideal S576x768 .bf16) (Wt : Vec Ideal S768x768 .bf16) (bias : Vec Ideal S768 .f32)
    (n : Fin 576) (e : Fin 768) :
    k0_pay2 (F := Ideal) P Wt bias (ix3 (0 : Fin 1) n e) = (∑ f : Fin 768, P (ix2 n f) * Wt (ix2 f e)) + bias (ix1 e) := by
  unfold k0_pay2
  rw [shapeCast_ab_1ab_apply, addf_apply, shapeCast_self, mm_apply, broadcastTo_1b_ab_apply, shapeCast_a_1a_apply]

/-- The weight block the region stages, at (f, e): over the extended reals the narrowing is the identity, so it is the
    projection matrix at (e, f). -/
theorem wt_apply (W : FVec Ideal S768x768 .f32) (f e : Fin 768) :
    (transpose S768x768 [1, 0] (truncf (F := Ideal) .bf16 W bitsLt_bf16_f32) transposes_S768x768_S768x768_1_0 (ix2 f e) : EReal) = W (ix2 e f) := by
  rw [transpose_ix2_apply]
  rfl

/-- ONE BLOCK OF THE RESULT against the specification, over any image block, tables, weight block and bias: if the
    image block reads the whole image array where the specification's two index functions say (batch element `b`),
    and the weight block at (f, e) is the projection matrix at (e, f), then the stored block at (0, n, e) is the
    specification at (b, n, e). The patch matrix's entry (n, f) is the image block at the place of column f of the patch
    whose corner the tables give at (b, n); the format change is the identity over the extended reals. -/
theorem blk_apply (img : Vec Ideal S1x3x384x384 .f32) (hT wT : S32x576.Idx → BitVec 32)
    (Wt : Vec Ideal S768x768 .bf16) (bb : Vec Ideal S768 .f32)
    (x : S32x3x384x384.Idx → EReal) (W : S768x768.Idx → EReal) (bias : S768.Idx → EReal) (b : Fin 32)
    (himg : ∀ (h w : Nat) (col : Fin 768), img (Spec.pidx h w col) = x (Spec.xidx b h w col))
    (hW : ∀ f e : Fin 768, Wt (ix2 f e) = W (ix2 e f)) (hb : ∀ e : Fin 768, bb (ix1 e) = bias (ix1 e))
    (n : Fin 576) (e : Fin 768) :
    k0_pay2 (F := Ideal) (Spec.patchMat (cvt (F := Ideal)) img hT wT b) Wt bb (ix3 (0 : Fin 1) n e)
      = Spec.out x hT wT W bias (ix3 b n e) := by
  rw [pay2_apply, hb]
  show _ = (∑ k : Fin 768, x (Spec.xidx b (hT (ix2 b n)).toNat (wT (ix2 b n)).toNat k) * W (ix2 e k)) + bias (ix1 e)
  refine congrArg (· + bias (ix1 e)) (Finset.sum_congr rfl fun f _ => ?_)
  show cvt (F := Ideal) (img (Spec.pidx (hT (ix2 b n)).toNat (wT (ix2 b n)).toNat f)) * Wt (ix2 f e) = _
  rw [cvt_ideal, himg, hW]

/-! ## The windows' blocks read off the argument arrays -/

variable (m : (ℓ : Loc nD τ sig) → Buf (Elt Ideal) ℓ) (ρ : Dev nD → PrngReg)

/-- The four index maps over the grid: the image block and the output block move with the batch element, the weight
    block and the bias stay. -/
theorem idx_facts : ∀ t : Fin grid0.N,
    cc0_transform_0 (grid0.coords t) = ![t.val, 0, 0, 0] ∧ cc0_transform_1 (grid0.coords t) = ![0, 0]
    ∧ cc0_transform_2 (grid0.coords t) = ![0] ∧ cc0_transform_3 (grid0.coords t) = ![t.val, 0, 0] := by
  decide +kernel

/-- The image block at point `t` is image `t` of the batch: coordinate (0, ch, r, col) of the block is (t, ch, r, col) of
    the array (a block's coordinate is the block index times the block's extent plus the coordinate inside). -/
theorem iblk0_apply (c : Dev nD) (t : Fin (cfgM m).N) (y : S1x3x384x384.Idx) (k : S32x3x384x384.Idx)
    (h0 : (k 0).val = t.val) (h1 : (k 1).val = (y 1).val) (h2 : (k 2).val = (y 2).val) (h3 : (k 3).val = (y 3).val) :
    (iblk m c 0 t : Vec Ideal S1x3x384x384 .f32) y = (m ((c : Thread nD τ).loc main_arg0) : S32x3x384x384.Idx → EReal) k := by
  have hi := (idx_facts t).1
  unfold iblk
  show V m c main_arg0 ((((cfgM m).win 0).blk t).view.emb y) = m (c.tc.loc main_arg0) k
  rw [V_main_arg0]
  congr 1
  funext a
  apply Fin.ext
  have hy0 : (y 0).val = 0 := by have h : (y 0).val < 1 := (y 0).isLt; omega
  match a with
  | ⟨0, _⟩ => show cc0_transform_0 (grid0.coords t) 0 * 1 + 1 * (y 0).val = (k 0).val; rw [hi, h0, hy0]; simp
  | ⟨1, _⟩ => show cc0_transform_0 (grid0.coords t) 1 * 3 + 1 * (y 1).val = (k 1).val; rw [hi, h1]; simp
  | ⟨2, _⟩ => show cc0_transform_0 (grid0.coords t) 2 * 384 + 1 * (y 2).val = (k 2).val; rw [hi, h2]; simp
  | ⟨3, _⟩ => show cc0_transform_0 (grid0.coords t) 3 * 384 + 1 * (y 3).val = (k 3).val; rw [hi, h3]; simp

/-- The weight block at every point is the whole staged array: the projection matrix narrowed and transposed, so at
    (f, e) the projection matrix at (e, f). -/
theorem iblk1_apply (c : Dev nD) (t : Fin (cfgM m).N) (f e : Fin 768) :
    (iblk m c 1 t : Vec Ideal S768x768 .bf16) (ix2 f e) = (m ((c : Thread nD τ).loc main_arg3) : S768x768.Idx → EReal) (ix2 e f) := by
  have hi := (idx_facts t).2.1
  unfold iblk
  show V m c main_v1 ((((cfgM m).win 1).blk t).view.emb (ix2 f e)) = m (c.tc.loc main_arg3) (ix2 e f)
  have he : (((cfgM m).win 1).blk t).view.emb (ix2 f e) = (ix2 f e : S768x768.Idx) := by
    funext a
    apply Fin.ext
    match a with
    | ⟨0, _⟩ => show cc0_transform_1 (grid0.coords t) 0 * 768 + 1 * f.val = f.val; rw [hi]; simp
    | ⟨1, _⟩ => show cc0_transform_1 (grid0.coords t) 1 * 768 + 1 * e.val = e.val; rw [hi]; simp
  refine (congrArg (V m c main_v1) he).trans ?_
  rw [V_main_v1]
  exact wt_apply _ f e

/-- The bias block at every point is the whole bias. -/
theorem iblk2_apply (c : Dev nD) (t : Fin (cfgM m).N) (e : Fin 768) :
    (iblk m c 2 t : Vec Ideal S768 .f32) (ix1 e) = (m ((c : Thread nD τ).loc main_arg4) : S768.Idx → EReal) (ix1 e) := by
  have hi := (idx_facts t).2.2.1
  unfold iblk
  show V m c main_arg4 ((((cfgM m).win 2).blk t).view.emb (ix1 e)) = m (c.tc.loc main_arg4) (ix1 e)
  rw [V_main_arg4]
  congr 1
  funext a
  apply Fin.ext
  match a with
  | ⟨0, _⟩ => show cc0_transform_2 (grid0.coords t) 0 * 768 + 1 * e.val = e.val; rw [hi]; simp

/-- The tables the region reads are the two launched index tables. -/
theorem tbl0_eq (c : Dev nD) : (tbl m 0 : S32x576.Idx → BitVec 32) = m ((c : Thread nD τ).loc main_arg1) := by
  rw [← V_pre m c 0]; exact V_main_arg1 m c
theorem tbl1_eq (c : Dev nD) : (tbl m 1 : S32x576.Idx → BitVec 32) = m ((c : Thread nD τ).loc main_arg2) := by
  rw [← V_pre m c 1]; exact V_main_arg2 m c

/-! ## What a grid point writes back, the cover, and the result array -/

/-- THE SPECIFICATION of the launched arrays on core `c`. -/
abbrev specOut (c : Dev nD) : S32x576x768.Idx → EReal :=
  Spec.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- THE BLOCK STORED AT POINT `t`, at (0, n, e), is the specification at (t, n, e): the image block reads image t of
    the batch where the specification's index functions say, the weight block is the projection matrix transposed, the
    bias block is the bias, and the tables are the launched tables. -/
theorem outBlk_apply (c : Dev nD) (t : Fin (cfgM m).N) (n : Fin 576) (e : Fin 768) :
    outBlk m c t (ix3 (0 : Fin 1) n e) = specOut m c (ix3 (bOf m t) n e) := by
  unfold outBlk specOut
  rw [← tbl0_eq m c, ← tbl1_eq m c]
  exact blk_apply (iblk m c 0 t) (tbl m 0) (tbl m 1) (iblk m c 1 t) (iblk m c 2 t) _ _ _ (bOf m t)
    (fun h w col => iblk0_apply m c t _ _ rfl rfl rfl rfl) (fun f e => iblk1_apply m c t f e) (fun e => iblk2_apply m c t e) n e

/-- The output block at point `t` read off any contents of the result array: coordinate (0, n, e) of the block is
    (t, n, e) of the array. -/
theorem blk3_read (G : S32x576x768.Idx → EReal) (t : Fin (cfgM m).N) (y : S1x576x768.Idx) (k : S32x576x768.Idx)
    (h0 : (k 0).val = t.val) (h1 : (k 1).val = (y 1).val) (h2 : (k 2).val = (y 2).val) :
    ((((cfgM m).win 3).blk t).view.read (Elt Ideal) G : S1x576x768.Idx → EReal) y = G k := by
  have hi := (idx_facts t).2.2.2
  show G ((((cfgM m).win 3).blk t).view.emb y) = G k
  congr 1
  funext a
  apply Fin.ext
  have hy0 : (y 0).val = 0 := by have h : (y 0).val < 1 := (y 0).isLt; omega
  match a with
  | ⟨0, _⟩ => show cc0_transform_3 (grid0.coords t) 0 * 1 + 1 * (y 0).val = (k 0).val; rw [hi, h0, hy0]; simp
  | ⟨1, _⟩ => show cc0_transform_3 (grid0.coords t) 1 * 576 + 1 * (y 1).val = (k 1).val; rw [hi, h1]; simp
  | ⟨2, _⟩ => show cc0_transform_3 (grid0.coords t) 2 * 768 + 1 * (y 2).val = (k 2).val; rw [hi, h2]; simp

/-- WHAT POINT `t` WRITES BACK is block `t` of the specification. -/
theorem flushed_eq (hr : Spec.InRange (tbl m 0) (tbl m 1)) (c : Dev nD) (t : Fin (cfgM m).N) :
    (dats m hr 0 c).flushed 3 t = (((cfgM m).win 3).blk t).view.read (Elt Ideal) (specOut m c) := by
  show ((cfgM m).win 3).cut ((cfgM m).grid.coords t) ((dats m hr 0 c).after 3 t) = _
  rw [after0_3]
  have key : ∀ j : S1x576x768.Idx, outBlk m c t j = ((((cfgM m).win 3).blk t).view.read (Elt Ideal) (specOut m c) : S1x576x768.Idx → EReal) j := by
    intro j
    obtain ⟨u, n, e, rfl⟩ : ∃ (u : Fin 1) (n : Fin 576) (e : Fin 768), j = ix3 u n e := ⟨j 0, j 1, j 2, eq_ix3 j⟩
    obtain rfl : u = 0 := Subsingleton.elim _ _
    rw [outBlk_apply]
    exact (blk3_read m (specOut m c) t (ix3 (0 : Fin 1) n e) (ix3 (bOf m t) n e) rfl rfl rfl).symm
  funext j
  exact key j

/-- The output window writes back at every point: its block index moves with the batch element. -/
theorem flush3 (t : Fin (cfgM m).N) : ((cfgM m).win 3).flush t = true := by
  unfold Pipeline.Window.flush
  simp only [Bool.and_eq_true, Bool.or_eq_true, decide_eq_true_eq]
  refine ⟨rfl, ?_⟩
  by_cases h : t.val + 1 = (cfgM m).grid.N
  · exact Or.inl h
  · have hN : (cfgM m).grid.N = 32 := N_0
    have hlt : t.val + 1 < (cfgM m).grid.N := by have h32 : t.val < 32 := t.isLt.trans_eq N_0; omega
    refine Or.inr ⟨hlt, fun he => ?_⟩
    have e0 : cc0_transform_3 (grid0.coords ⟨t.val + 1, hlt⟩) (0 : Fin 3) = cc0_transform_3 (grid0.coords t) (0 : Fin 3) :=
      congrFun he (0 : Fin 3)
    have a1 := congrFun (idx_facts ⟨t.val + 1, hlt⟩).2.2.2 (0 : Fin 3)
    have a0 := congrFun (idx_facts t).2.2.2 (0 : Fin 3)
    rw [a1, a0] at e0
    simp at e0

/-- Every index of the result array is in the block of the point its batch coordinate names. -/
theorem cover (i : S32x576x768.Idx) :
    ∃ t : Fin (cfgM m).N, ((cfgM m).win 3).flush t = true ∧ i ∈ (((cfgM m).win 3).blk t).view.set := by
  have h0 : (i 0).val < 32 := (i 0).isLt
  have h1 : (i 1).val < 576 := (i 1).isLt
  have h2 : (i 2).val < 768 := (i 2).isLt
  let t : Fin (cfgM m).N := ⟨(i 0).val, by rw [show (cfgM m).N = 32 from N_0]; exact h0⟩
  refine ⟨t, flush3 m t, ?_⟩
  have hi := (idx_facts t).2.2.2
  show i ∈ ((View.whole main_v2).slice (((cfgM m).win 3).rect t)).set
  refine Eq.mpr (congrArg (fun s => i ∈ s) (View.set_slice_whole main_v2 (((cfgM m).win 3).rect t))) ?_
  show i ∈ (((cfgM m).win 3).rect t).set
  refine Rect.mem_set_unit.mpr ?_
  intro a
  match a with
  | ⟨0, _⟩ => show cc0_transform_3 (grid0.coords t) 0 * 1 ≤ (i 0).val ∧ (i 0).val < cc0_transform_3 (grid0.coords t) 0 * 1 + 1; rw [hi]; simp [t]
  | ⟨1, _⟩ => show cc0_transform_3 (grid0.coords t) 1 * 576 ≤ (i 1).val ∧ (i 1).val < cc0_transform_3 (grid0.coords t) 1 * 576 + 576; rw [hi]; simp; omega
  | ⟨2, _⟩ => show cc0_transform_3 (grid0.coords t) 2 * 768 ≤ (i 2).val ∧ (i 2).val < cc0_transform_3 (grid0.coords t) 2 * 768 + 768; rw [hi]; simp; omega

/-- So the result array ends holding the specification. -/
theorem final (hr : Spec.InRange (tbl m 0) (tbl m 1)) (c : Dev nD) :
    (dats m hr 0 c).arrAt 3 (cfgM m).N = specOut m c :=
  (dats m hr 0 c).arrAt_eq_of_cover 3 (specOut m c) (fun t _ => flushed_eq m hr c t) (cover m)

/-! ## The run, read -/

/-- THE PROGRAM'S RUN with its result named: under the tables' range condition it terminates with the result array at
    the specification of the five argument arrays, and those arrays as launched. -/
theorem run_value (hr : Spec.InRange (tbl m 0) (tbl m 1)) :
    θ_run (Cert.KernelIdeal.defs (F := Ideal)) (onTc (τ := τ) (main (F := Ideal))) ⟨m, fun _ => 0, ρ⟩ (fun r => ∀ c : Dev nD,
      r.2.mem ((c.tc : Thread nD τ).loc main_v2) = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      have p := post_of m (dats m hr) (A_eq m hr) r h c
      ⟨p.1.trans (final m hr c), p.2⟩)
    (run_main m ρ hr)

end Cert.Proof.KI

end
-- ==== Proof.RefGather.lean ====
/-
  The reference's value, at the ideal instance: its run ends with the result array equal to the specification
  `Cert.Proof.Spec.out` of the five argument arrays, under the range hypothesis on the two corner tables.

  The reference builds, for batch element `b`, patch `n` and window offsets `p, q < 16`, a start index
  `(b, h[b,n] + p, w[b,n] + q)` into the image transposed to `[B, H, W, C]`, each component passed through a
  "negative wraps around" select, and gathers the three channels there. Read index by index:
    * the index array's last coordinate picks one of the three components (a join of three unit-extent pieces);
    * each component is a 32-bit word below 2³¹ inside the range, so the select keeps it and it reads signed as the
      natural number `b`, `h + p`, `w + q`;
    * the gather clamps the components to `31`, `383`, `383`; with `h, w ≤ 368` and `p, q ≤ 15` the clamp is the
      identity, so patch entry `(b, n, p, q, c)` is `x[b, c, h + p, w + q]`;
    * the transpose to `[B, N, C, 16, 16]` and the row-major reshape to `[B, N, 768]` put that entry at column
      `k = c·256 + p·16 + q`, which is the specification's `xidx b h w k` (its reduction modulo 384 is the identity
      in range);
    * the contraction over `k` against row `e` of the weights, plus the broadcast bias, is then the specification's
      sum term by term, in the same order.
-/
import proofs.«400218_j73332271612542_2_alg».proof.Defs
import proofs.«400218_j73332271612542_2_alg».proof.Proof.Gen.ReferenceIdeal.Run
import proofs.«400218_j73332271612542_2_alg».proof.Proof.Gen.ReferenceIdeal.Read
import proofs.«400218_j73332271612542_2_alg».proof.Proof.Spec
import Idealize.ShloMosaic.Lib.ValueIdx
import Idealize.ShloMosaic.Lib.Pipeline.Value
import Idealize.ShloMosaic.Lib.StableHlo.Predicate

noncomputable section

namespace Cert.Proof.Ref

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

variable {F : FTy → Type} [FloatOps F]

/-! ## Words -/

/-- A word below 2³¹ is not negative: the select on "negative" keeps it, and it reads signed as its value. -/
theorem keep_nonneg (s t : BitVec 32) (hs : s.toNat < 2 ^ 31) :
    (Scalar.select (IntOp.cmpi .slt s 0#32) t s).toInt.toNat = s.toNat := by
  have h0 : IntOp.cmpi .slt s 0#32 = 0#1 := by
    refine eq_zero_of_ne_one fun h => ?_
    have := (Predicate.slt_iff_toNat hs (by decide)).mp h
    simp at this
  rw [h0, select_zero, Predicate.toInt_eq_toNat_of_lt hs, Int.toNat_natCast]

/-- A corner coordinate at most 368 plus a window offset below 16 does not wrap. -/
theorem toNat_add_small (hw : BitVec 32) (p : Nat) (hh : hw.toNat ≤ 368) (hp : p < 16) :
    (IntOp.addi hw (BitVec.ofNat 32 p)).toNat = hw.toNat + p := by
  unfold IntOp.addi
  rw [BitVec.toNat_add, BitVec.toNat_ofNat]
  omega

/-! ## The start-index array at its last coordinate

The array of start indices joins three arrays of unit extent along the last axis: coordinate `0` reads the batch
component, `1` the row component, `2` the column component, each at the same first four coordinates. -/

theorem comp0 (x1 x2 : (⟨S32x576, .i32⟩ : BufTy).Contents (Elt F)) (b : Fin 32) (n : Fin 576) (p q : Fin 16) :
    val_main_v38 (F := F) x1 x2 (ix5 b n p q (0 : Fin 3)) = val_main_v35 (F := F) (ix5 b n p q (0 : Fin 1)) := by
  unfold val_main_v38
  exact concatenate_apply_piece 4 _ _ (ix5 b n p q (0 : Fin 3)) 0 (by simp) S32x576x16x16x1 _ rfl rfl 0 rfl
    (ix5 b n p q (0 : Fin 1)) (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h) rfl

theorem comp1 (x1 x2 : (⟨S32x576, .i32⟩ : BufTy).Contents (Elt F)) (b : Fin 32) (n : Fin 576) (p q : Fin 16) :
    val_main_v38 (F := F) x1 x2 (ix5 b n p q (1 : Fin 3)) = val_main_v36 (F := F) x1 (ix5 b n p q (0 : Fin 1)) := by
  unfold val_main_v38
  exact concatenate_apply_piece 4 _ _ (ix5 b n p q (1 : Fin 3)) 1 (by simp) S32x576x16x16x1 _ rfl rfl 1 rfl
    (ix5 b n p q (0 : Fin 1)) (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h) rfl

theorem comp2 (x1 x2 : (⟨S32x576, .i32⟩ : BufTy).Contents (Elt F)) (b : Fin 32) (n : Fin 576) (p q : Fin 16) :
    val_main_v38 (F := F) x1 x2 (ix5 b n p q (2 : Fin 3)) = val_main_v37 (F := F) x2 (ix5 b n p q (0 : Fin 1)) := by
  unfold val_main_v38
  exact concatenate_apply_piece 4 _ _ (ix5 b n p q (2 : Fin 3)) 2 (by simp) S32x576x16x16x1 _ rfl rfl 2 rfl
    (ix5 b n p q (0 : Fin 1)) (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h) rfl

/-! ## The stages before the gather, at explicit coordinates -/

/-- The row table: `h[b, n] + p`, as 32-bit words. -/
theorem rows_at (x1 : (⟨S32x576, .i32⟩ : BufTy).Contents (Elt F)) (b : Fin 32) (n : Fin 576) (p : Fin 16) :
    val_main_v5 (F := F) x1 (ix3 b n p) = IntOp.addi (x1 (ix2 b n)) (BitVec.ofNat 32 p.val) := by
  rw [val_main_v5_apply, val_main_v3_apply, val_main_v0_apply, val_main_v4_apply, val_main_v2_apply, val_main_v1_apply,
    show idx_main_v0 (idx_main_v3 (ix3 b n p)) = ix2 b n from
      funext fun a => Fin.ext (by match a with | ⟨0, _⟩ => rfl | ⟨1, _⟩ => rfl)]

/-- The column table: `w[b, n] + q`. -/
theorem cols_at (x2 : (⟨S32x576, .i32⟩ : BufTy).Contents (Elt F)) (b : Fin 32) (n : Fin 576) (q : Fin 16) :
    val_main_v11 (F := F) x2 (ix3 b n q) = IntOp.addi (x2 (ix2 b n)) (BitVec.ofNat 32 q.val) := by
  rw [val_main_v11_apply, val_main_v9_apply, val_main_v6_apply, val_main_v10_apply, val_main_v8_apply, val_main_v7_apply,
    show idx_main_v6 (idx_main_v9 (ix3 b n q)) = ix2 b n from
      funext fun a => Fin.ext (by match a with | ⟨0, _⟩ => rfl | ⟨1, _⟩ => rfl)]

/-- The batch component: the wrap-around select keeps `b`, which reads signed as `b`. -/
theorem batch_start (b : Fin 32) :
    (val_main_v21 (F := F) (ix4 b (0 : Fin 1) (0 : Fin 1) (0 : Fin 1))).toInt.toNat = b.val := by
  rw [val_main_v21_apply, val_main_v18_apply, val_main_v20_apply, val_main_v14_apply, val_main_v13_apply,
    val_main_v17_apply, val_main_c_apply]
  have hb : (BitVec.ofNat 32 b.val).toNat = b.val := by rw [BitVec.toNat_ofNat]; have := b.isLt; omega
  exact (keep_nonneg (BitVec.ofNat 32 b.val) _ (by rw [hb]; have := b.isLt; omega)).trans hb

/-- The row component under the range hypothesis: the select keeps `h + p`, which reads signed as that sum. -/
theorem row_start (x1 : (⟨S32x576, .i32⟩ : BufTy).Contents (Elt F)) (hr : ∀ ix, (x1 ix).toNat ≤ 368) (b : Fin 32) (n : Fin 576) (p : Fin 16) :
    (val_main_v26 (F := F) x1 (ix4 b n p (0 : Fin 1))).toInt.toNat = (x1 (ix2 b n)).toNat + p.val := by
  rw [val_main_v26_apply, val_main_v23_apply, val_main_v25_apply, val_main_v15_apply, val_main_v22_apply, val_main_c_1_apply,
    show idx_main_v15 (ix4 b n p (0 : Fin 1)) = ix3 b n p from
      funext fun a => Fin.ext (by match a with | ⟨0, _⟩ => rfl | ⟨1, _⟩ => rfl | ⟨2, _⟩ => rfl),
    rows_at]
  have hs := toNat_add_small (x1 (ix2 b n)) p.val (hr _) p.isLt
  exact (keep_nonneg _ _ (by rw [hs]; have := hr (ix2 b n); have := p.isLt; omega)).trans hs

/-- The column component under the range hypothesis. -/
theorem col_start (x2 : (⟨S32x576, .i32⟩ : BufTy).Contents (Elt F)) (hr : ∀ ix, (x2 ix).toNat ≤ 368) (b : Fin 32) (n : Fin 576) (q : Fin 16) :
    (val_main_v31 (F := F) x2 (ix4 b n (0 : Fin 1) q)).toInt.toNat = (x2 (ix2 b n)).toNat + q.val := by
  rw [val_main_v31_apply, val_main_v28_apply, val_main_v30_apply, val_main_v16_apply, val_main_v27_apply, val_main_c_3_apply,
    show idx_main_v16 (ix4 b n (0 : Fin 1) q) = ix3 b n q from
      funext fun a => Fin.ext (by match a with | ⟨0, _⟩ => rfl | ⟨1, _⟩ => rfl | ⟨2, _⟩ => rfl),
    cols_at]
  have hs := toNat_add_small (x2 (ix2 b n)) q.val (hr _) q.isLt
  exact (keep_nonneg _ _ (by rw [hs]; have := hr (ix2 b n); have := q.isLt; omega)).trans hs

/-! ## The gather at an index -/

/-- The start-indices index at which result index `y` reads component `c` of its start index: `y`'s four batch
    coordinates, then `c`. -/
abbrev sidx (y : S32x576x16x16x3.Idx) (c : Fin 3) : S32x576x16x16x3.Idx := fun a => match a with
  | ⟨0, _⟩ => ⟨(y 0).val, (y 0).isLt⟩
  | ⟨1, _⟩ => ⟨(y 1).val, (y 1).isLt⟩
  | ⟨2, _⟩ => ⟨(y 2).val, (y 2).isLt⟩
  | ⟨3, _⟩ => ⟨(y 3).val, (y 3).isLt⟩
  | ⟨4, _⟩ => c

/-- Operand axis 0 (the batch): component 0 of the start index, read signed and clamped to the last image. -/
theorem gather_axis0 {w : Nat} (y : S32x576x16x16x3.Idx) (idx : IVec S32x576x16x16x3 w) :
    (gather_S32x384x384x3_S32x576x16x16x3_S32x576x16x16x3_4_012_n_n_012_4_1113.operandIdx y idx 0).val
      = min (idx (sidx y 0)).toInt.toNat 31 := by
  show gather_S32x384x384x3_S32x576x16x16x3_S32x576x16x16x3_4_012_n_n_012_4_1113.start y idx 0
    + gather_S32x384x384x3_S32x576x16x16x3_S32x576x16x16x3_4_012_n_n_012_4_1113.batchCoord y 0
    + gather_S32x384x384x3_S32x576x16x16x3_S32x576x16x16x3_4_012_n_n_012_4_1113.offCoord y 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S32x384x384x3.rank) ∈ gather_S32x384x384x3_S32x576x16x16x3_S32x576x16x16x3_4_012_n_n_012_4_1113.startIndexMap by decide)]
  have hsi : gather_S32x384x384x3_S32x576x16x16x3_S32x576x16x16x3_4_012_n_n_012_4_1113.siIdx y
      ⟨List.idxOf (0 : Fin S32x384x384x3.rank) gather_S32x384x384x3_S32x576x16x16x3_S32x576x16x16x3_4_012_n_n_012_4_1113.startIndexMap,
        List.idxOf_lt_length_iff.2 (by decide)⟩ = sidx y 0 := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- Operand axis 1 (the rows): component 1 of the start index, read signed and clamped to the last row. -/
theorem gather_axis1 {w : Nat} (y : S32x576x16x16x3.Idx) (idx : IVec S32x576x16x16x3 w) :
    (gather_S32x384x384x3_S32x576x16x16x3_S32x576x16x16x3_4_012_n_n_012_4_1113.operandIdx y idx 1).val
      = min (idx (sidx y 1)).toInt.toNat 383 := by
  show gather_S32x384x384x3_S32x576x16x16x3_S32x576x16x16x3_4_012_n_n_012_4_1113.start y idx 1
    + gather_S32x384x384x3_S32x576x16x16x3_S32x576x16x16x3_4_012_n_n_012_4_1113.batchCoord y 1
    + gather_S32x384x384x3_S32x576x16x16x3_S32x576x16x16x3_4_012_n_n_012_4_1113.offCoord y 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S32x384x384x3.rank) ∈ gather_S32x384x384x3_S32x576x16x16x3_S32x576x16x16x3_4_012_n_n_012_4_1113.startIndexMap by decide)]
  have hsi : gather_S32x384x384x3_S32x576x16x16x3_S32x576x16x16x3_4_012_n_n_012_4_1113.siIdx y
      ⟨List.idxOf (1 : Fin S32x384x384x3.rank) gather_S32x384x384x3_S32x576x16x16x3_S32x576x16x16x3_4_012_n_n_012_4_1113.startIndexMap,
        List.idxOf_lt_length_iff.2 (by decide)⟩ = sidx y 1 := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- Operand axis 2 (the columns): component 2 of the start index, read signed and clamped to the last column. -/
theorem gather_axis2 {w : Nat} (y : S32x576x16x16x3.Idx) (idx : IVec S32x576x16x16x3 w) :
    (gather_S32x384x384x3_S32x576x16x16x3_S32x576x16x16x3_4_012_n_n_012_4_1113.operandIdx y idx 2).val
      = min (idx (sidx y 2)).toInt.toNat 383 := by
  show gather_S32x384x384x3_S32x576x16x16x3_S32x576x16x16x3_4_012_n_n_012_4_1113.start y idx 2
    + gather_S32x384x384x3_S32x576x16x16x3_S32x576x16x16x3_4_012_n_n_012_4_1113.batchCoord y 2
    + gather_S32x384x384x3_S32x576x16x16x3_S32x576x16x16x3_4_012_n_n_012_4_1113.offCoord y 2 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin S32x384x384x3.rank) ∈ gather_S32x384x384x3_S32x576x16x16x3_S32x576x16x16x3_4_012_n_n_012_4_1113.startIndexMap by decide)]
  have hsi : gather_S32x384x384x3_S32x576x16x16x3_S32x576x16x16x3_4_012_n_n_012_4_1113.siIdx y
      ⟨List.idxOf (2 : Fin S32x384x384x3.rank) gather_S32x384x384x3_S32x576x16x16x3_S32x576x16x16x3_4_012_n_n_012_4_1113.startIndexMap,
        List.idxOf_lt_length_iff.2 (by decide)⟩ = sidx y 2 := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- Operand axis 3 (the channels) is the one offset axis: the result's last coordinate, from start 0. -/
theorem gather_axis3 {w : Nat} (y : S32x576x16x16x3.Idx) (idx : IVec S32x576x16x16x3 w) :
    (gather_S32x384x384x3_S32x576x16x16x3_S32x576x16x16x3_4_012_n_n_012_4_1113.operandIdx y idx 3).val = (y 4).val := by
  show gather_S32x384x384x3_S32x576x16x16x3_S32x576x16x16x3_4_012_n_n_012_4_1113.start y idx 3
    + gather_S32x384x384x3_S32x576x16x16x3_S32x576x16x16x3_4_012_n_n_012_4_1113.batchCoord y 3
    + gather_S32x384x384x3_S32x576x16x16x3_S32x576x16x16x3_4_012_n_n_012_4_1113.offCoord y 3 = _
  rw [GatherDims.batchCoord_eq_zero _ _ _ List.not_mem_nil]
  unfold GatherDims.start
  rw [dif_neg (show ¬ (3 : Fin S32x384x384x3.rank) ∈ gather_S32x384x384x3_S32x576x16x16x3_S32x576x16x16x3_4_012_n_n_012_4_1113.startIndexMap by decide)]
  unfold GatherDims.offCoord
  rw [dif_pos (show (3 : Fin S32x384x384x3.rank) ∈ gather_S32x384x384x3_S32x576x16x16x3_S32x576x16x16x3_4_012_n_n_012_4_1113.sKept by decide), Nat.zero_add]
  rfl

/-- THE GATHER READ AT AN INDEX: the operand at the three clamped start-index components, then the result's last
    coordinate. Stated for any operand index `k` with those four coordinates. -/
theorem gather_apply {α : Type} {w : Nat} (x : S32x384x384x3.Idx → α) (idx : IVec S32x576x16x16x3 w)
    (y : S32x576x16x16x3.Idx) (k : S32x384x384x3.Idx)
    (h0 : (k 0).val = min (idx (sidx y 0)).toInt.toNat 31)
    (h1 : (k 1).val = min (idx (sidx y 1)).toInt.toNat 383)
    (h2 : (k 2).val = min (idx (sidx y 2)).toInt.toNat 383)
    (h3 : (k 3).val = (y 4).val) :
    Host.gather gather_S32x384x384x3_S32x576x16x16x3_S32x576x16x16x3_4_012_n_n_012_4_1113 x idx y = x k := by
  unfold Host.gather
  congr 1
  funext a
  refine Fin.ext ?_
  match a with
  | ⟨0, _⟩ => exact (gather_axis0 y idx).trans h0.symm
  | ⟨1, _⟩ => exact (gather_axis1 y idx).trans h1.symm
  | ⟨2, _⟩ => exact (gather_axis2 y idx).trans h2.symm
  | ⟨3, _⟩ => exact (gather_axis3 y idx).trans h3.symm

/-! ## The three start-index components of the gather -/

/-- Component 0 reads signed as the batch element. -/
theorem start0 (x1 x2 : (⟨S32x576, .i32⟩ : BufTy).Contents (Elt F)) (b : Fin 32) (n : Fin 576) (p q : Fin 16) :
    (val_main_v38 (F := F) x1 x2 (ix5 b n p q (0 : Fin 3))).toInt.toNat = b.val := by
  rw [comp0, val_main_v35_apply, val_main_v32_apply,
    show idx_main_v32 (idx_main_v35 (ix5 b n p q (0 : Fin 1))) = ix4 b (0 : Fin 1) (0 : Fin 1) (0 : Fin 1) from
      funext fun a => Fin.ext (by match a with | ⟨0, _⟩ => rfl | ⟨1, _⟩ => rfl | ⟨2, _⟩ => rfl | ⟨3, _⟩ => rfl),
    batch_start]

/-- Component 1 reads signed as `h[b, n] + p`, the corner's row in range. -/
theorem start1 (x1 x2 : (⟨S32x576, .i32⟩ : BufTy).Contents (Elt F)) (hr : ∀ ix, (x1 ix).toNat ≤ 368) (b : Fin 32) (n : Fin 576) (p q : Fin 16) :
    (val_main_v38 (F := F) x1 x2 (ix5 b n p q (1 : Fin 3))).toInt.toNat = (x1 (ix2 b n)).toNat + p.val := by
  rw [comp1, val_main_v36_apply, val_main_v33_apply,
    show idx_main_v33 (idx_main_v36 (ix5 b n p q (0 : Fin 1))) = ix4 b n p (0 : Fin 1) from
      funext fun a => Fin.ext (by match a with | ⟨0, _⟩ => rfl | ⟨1, _⟩ => rfl | ⟨2, _⟩ => rfl | ⟨3, _⟩ => rfl),
    row_start x1 hr]

/-- Component 2 reads signed as `w[b, n] + q`, the corner's column in range. -/
theorem start2 (x1 x2 : (⟨S32x576, .i32⟩ : BufTy).Contents (Elt F)) (hr : ∀ ix, (x2 ix).toNat ≤ 368) (b : Fin 32) (n : Fin 576) (p q : Fin 16) :
    (val_main_v38 (F := F) x1 x2 (ix5 b n p q (2 : Fin 3))).toInt.toNat = (x2 (ix2 b n)).toNat + q.val := by
  rw [comp2, val_main_v37_apply, val_main_v34_apply,
    show idx_main_v34 (idx_main_v37 (ix5 b n p q (0 : Fin 1))) = ix4 b n (0 : Fin 1) q from
      funext fun a => Fin.ext (by match a with | ⟨0, _⟩ => rfl | ⟨1, _⟩ => rfl | ⟨2, _⟩ => rfl | ⟨3, _⟩ => rfl),
    col_start x2 hr]

/-! ## The gathered patches and the patch matrix -/

/-- The gathered patches: entry `(b, n, p, q, c)` is the image's entry at channel `c`, row `h[b, n] + p`, column
    `w[b, n] + q`: inside the range the clamp of every start-index component is the identity. -/
theorem patch_entry (x0 : (⟨S32x3x384x384, .f32⟩ : BufTy).Contents (Elt F)) (x1 x2 : (⟨S32x576, .i32⟩ : BufTy).Contents (Elt F)) (hr : Spec.InRange x1 x2)
    (b : Fin 32) (n : Fin 576) (p q : Fin 16) (c : Fin 3) :
    val_main_v39 (F := F) x0 x1 x2 (ix5 b n p q c)
      = x0 (ix4 b c (⟨(x1 (ix2 b n)).toNat + p.val, by have := (hr (ix2 b n)).1; have := p.isLt; omega⟩ : Fin 384)
          (⟨(x2 (ix2 b n)).toNat + q.val, by have := (hr (ix2 b n)).2; have := q.isLt; omega⟩ : Fin 384)) := by
  have hh := (hr (ix2 b n)).1
  have hw := (hr (ix2 b n)).2
  have hp := p.isLt
  have hq := q.isLt
  have hb := b.isLt
  have e : ∀ k : Fin 3, sidx (ix5 b n p q c) k = ix5 b n p q k := fun k =>
    funext fun a => (by match a with | ⟨0, _⟩ => rfl | ⟨1, _⟩ => rfl | ⟨2, _⟩ => rfl | ⟨3, _⟩ => rfl | ⟨4, _⟩ => rfl)
  unfold val_main_v39
  refine (gather_apply _ _ (ix5 b n p q c)
    (ix4 b (⟨(x1 (ix2 b n)).toNat + p.val, by omega⟩ : Fin 384) (⟨(x2 (ix2 b n)).toNat + q.val, by omega⟩ : Fin 384) c)
    ?_ ?_ ?_ rfl).trans ?_
  · show b.val = min (val_main_v38 (F := F) x1 x2 (sidx (ix5 b n p q c) 0)).toInt.toNat 31
    rw [e, start0]; omega
  · show (x1 (ix2 b n)).toNat + p.val = min (val_main_v38 (F := F) x1 x2 (sidx (ix5 b n p q c) 1)).toInt.toNat 383
    rw [e, start1 x1 x2 (fun ix => (hr ix).1)]; omega
  · show (x2 (ix2 b n)).toNat + q.val = min (val_main_v38 (F := F) x1 x2 (sidx (ix5 b n p q c) 2)).toInt.toNat 383
    rw [e, start2 x1 x2 (fun ix => (hr ix).2)]; omega
  · exact (val_main_v12_apply x0 _).trans (congrArg x0 (funext fun a => Fin.ext (by match a with | ⟨0, _⟩ => rfl | ⟨1, _⟩ => rfl | ⟨2, _⟩ => rfl | ⟨3, _⟩ => rfl)))

/-- The patch matrix: entry `(b, n, k)` of the reshaped patches, `k = c·256 + p·16 + q`, is the image's entry at the
    specification's `xidx`. -/
theorem patch_row (x0 : (⟨S32x3x384x384, .f32⟩ : BufTy).Contents (Elt F)) (x1 x2 : (⟨S32x576, .i32⟩ : BufTy).Contents (Elt F)) (hr : Spec.InRange x1 x2)
    (b : Fin 32) (n : Fin 576) (k : Fin 768) :
    val_main_v41 (F := F) x0 x1 x2 (ix3 b n k) = x0 (Spec.xidx b (x1 (ix2 b n)).toNat (x2 (ix2 b n)).toNat k) := by
  have hh := (hr (ix2 b n)).1
  have hw := (hr (ix2 b n)).2
  have hb := b.isLt
  have hn := n.isLt
  have hk := k.isLt
  rw [val_main_v41_apply, val_main_v40_apply,
    show idx_main_v40 (idx_main_v41 (ix3 b n k))
        = ix5 b n (⟨k.val / 16 % 16, by omega⟩ : Fin 16) (⟨k.val % 16, by omega⟩ : Fin 16) (⟨k.val / 256, by omega⟩ : Fin 3) from
      funext fun a => Fin.ext (by
        match a with
        | ⟨0, _⟩ => show ((b.val * 576 + n.val) * 768 + k.val) / 442368 = b.val; omega
        | ⟨1, _⟩ => show ((b.val * 576 + n.val) * 768 + k.val) / 768 % 576 = n.val; omega
        | ⟨2, _⟩ => show ((b.val * 576 + n.val) * 768 + k.val) / 16 % 16 = k.val / 16 % 16; omega
        | ⟨3, _⟩ => show ((b.val * 576 + n.val) * 768 + k.val) % 16 = k.val % 16; omega
        | ⟨4, _⟩ => show ((b.val * 576 + n.val) * 768 + k.val) / 256 % 3 = k.val / 256; omega),
    patch_entry x0 x1 x2 hr]
  refine congrArg x0 (funext fun a => Fin.ext ?_)
  match a with
  | ⟨0, _⟩ => rfl
  | ⟨1, _⟩ => rfl
  | ⟨2, _⟩ =>
    show (x1 (ix2 b n)).toNat + k.val / 16 % 16 = ((x1 (ix2 b n)).toNat + k.val / 16 % 16) % 384
    omega
  | ⟨3, _⟩ =>
    show (x2 (ix2 b n)).toNat + k.val % 16 = ((x2 (ix2 b n)).toNat + k.val % 16) % 384
    omega

/-! ## The reference's result is the specification -/

/-- The reference's result, index by index: the contraction of the patch matrix's row against row `e` of the
    weights, plus the bias, term by term the specification's sum (the flattening order is `(c, p, q)` on both sides). -/
theorem ref_value (x0 : (⟨S32x3x384x384, .f32⟩ : BufTy).Contents (Elt Ideal)) (x1 x2 : (⟨S32x576, .i32⟩ : BufTy).Contents (Elt Ideal)) (x3 : (⟨S768x768, .f32⟩ : BufTy).Contents (Elt Ideal)) (x4 : (⟨S768, .f32⟩ : BufTy).Contents (Elt Ideal)) (hr : Spec.InRange x1 x2) :
    val_main_v45 (F := Ideal) x0 x1 x2 x3 x4 = Spec.out x0 x1 x2 x3 x4 := by
  funext i
  obtain ⟨b, n, e, rfl⟩ : ∃ (b : Fin 32) (n : Fin 576) (e : Fin 768), i = ix3 b n e := ⟨i 0, i 1, i 2, eq_ix3 i⟩
  have hsum : ∀ k : Fin 768,
      val_main_v41 (F := Ideal) x0 x1 x2 (lidx_main_v42 (ix3 b n e) k) * x3 (ridx_main_v42 (ix3 b n e) k)
        = x0 (Spec.xidx b (x1 (ix2 b n)).toNat (x2 (ix2 b n)).toNat k) * x3 (ix2 e k) := fun k => by
    rw [show lidx_main_v42 (ix3 b n e) k = ix3 b n k from
        funext fun a => Fin.ext (by match a with | ⟨0, _⟩ => rfl | ⟨1, _⟩ => rfl | ⟨2, _⟩ => rfl),
      show ridx_main_v42 (ix3 b n e) k = ix2 e k from
        funext fun a => Fin.ext (by match a with | ⟨0, _⟩ => rfl | ⟨1, _⟩ => rfl),
      patch_row x0 x1 x2 hr]
  rw [val_main_v45_apply, val_main_v42_apply, val_main_v44_apply, val_main_v43_apply,
    Finset.sum_congr rfl (fun k _ => hsum k),
    show idx_main_v43 (idx_main_v44 (ix3 b n e)) = ix1 e from
      funext fun a => Fin.ext (by match a with | ⟨0, _⟩ => rfl)]
  rfl

/-- The reference's run ends with its result array at the specification of its five argument arrays, the arguments
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hr : ∀ c : Dev Cert.ReferenceIdeal.nD, Cert.Proof.Spec.InRange (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v45) = Cert.Proof.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run _ _ _).mono (fun _ h c =>
      ⟨(h c).1.trans ((Read.val_main_v45_eq m' c).trans (ref_value _ _ _ _ _ (hr c))), (h c).2⟩)
    (Cert.ReferenceIdeal.Value.run (F := Ideal) m' ρ')

end Cert.Proof.Ref

end
-- ==== Proof.lean ====
/-
  The certificate's claim, assembled from the runs of the three programs.

  The claim has five parts, under the shape facts the programs and the precondition state (each witnessed by the
  instance proved for it):
  * the word-level kernel runs to the end and leaves its five argument arrays as it found them;
  * the kernel read over the extended reals does the same;
  * the reference read over the extended reals does the same;
  * the kernel over the extended reals is the word-level kernel's own text, no operation rewritten, so what is
    asked of the passage from one to the other is the true proposition;
  * from memories that agree on the five arguments, the kernel and the reference over the extended reals both run
    to the end, with equal results and unchanged arguments.

  Among its tests the precondition says that every entry of the two index tables lies between 0 and 368 as a signed
  number, hence is at most 368 as an unsigned one (`pre_inRange`): every patch corner leaves room for its 16×16
  window inside the 384×384 image. The kernel's runs are stated for tables in that range, the tables being the
  contents found when the pipelined region is entered; the two host operations before the region write neither
  table, so those contents are the launch memory's (`V_pre`, `V_main_arg1`, `V_main_arg2`). With the range in
  hand the kernel's frame run (`frame`, at either float instance) is the first and the second part.

  The reference's run (`ref_run`) ends with its result at the patch-embedding function `Spec.out` of its five
  arguments, and the arguments unchanged; forgetting the result gives the third part. The kernel's run over the
  extended reals (`run_value`) ends with its result at the same function of its own arguments; on memories that
  agree on the arguments the two values are one function of equal arguments, which is the fifth part.
-/
import proofs.«400218_j73332271612542_2_alg».proof.Defs
import proofs.«400218_j73332271612542_2_alg».proof.Proof.Gen.Kernel
import proofs.«400218_j73332271612542_2_alg».proof.Proof.Gen.KernelIdeal
import proofs.«400218_j73332271612542_2_alg».proof.Proof.Gen.ReferenceIdeal
import proofs.«400218_j73332271612542_2_alg».proof.Proof.Gen.Pre_finite_inputs
import proofs.«400218_j73332271612542_2_alg».proof.Proof.Spec
import proofs.«400218_j73332271612542_2_alg».proof.Proof.K.Dats
import proofs.«400218_j73332271612542_2_alg».proof.Proof.KI.Hyps
import proofs.«400218_j73332271612542_2_alg».proof.Proof.KI.Dats
import proofs.«400218_j73332271612542_2_alg».proof.Proof.KI.Value
import proofs.«400218_j73332271612542_2_alg».proof.Proof.RefGather

noncomputable section

namespace Cert.Proof

open Idealize.ShloMosaic Idealize.ShloMosaic.TcCoe Idealize.SL.Sem

/-! ## Equal arguments -/

/-- The range condition is a property of the two tables' contents only. -/
theorem inRange_congr {a a' b b' : (⟨2, ![32, 576]⟩ : Shape).Idx → BitVec 32} (ha : a = a') (hb : b = b')
    (h : Cert.Proof.Spec.InRange a' b') : Cert.Proof.Spec.InRange a b := by
  subst ha hb; exact h

/-- The patch-embedding function at equal arguments. -/
theorem out_congr {x x' : (⟨4, ![32, 3, 384, 384]⟩ : Shape).Idx → EReal}
    {hT hT' wT wT' : (⟨2, ![32, 576]⟩ : Shape).Idx → BitVec 32}
    {W W' : (⟨2, ![768, 768]⟩ : Shape).Idx → EReal} {b b' : (⟨1, ![768]⟩ : Shape).Idx → EReal}
    (h0 : x' = x) (h1 : hT' = hT) (h2 : wT' = wT) (h3 : W' = W) (h4 : b' = b) :
    Cert.Proof.Spec.out x' hT' wT' W' b' = Cert.Proof.Spec.out x hT wT W b := by
  subst h0 h1 h2 h3 h4; rfl

/-! ## The tables are in range -/

/-- Word-level kernel: the tables found at the region's entry are the launch memory's, which the precondition
    puts in range. -/
theorem range_K (m : (ℓ : Loc Cert.Kernel.nD Cert.Kernel.τ Cert.Kernel.sig) → Buf (Elt Bits) ℓ) (hpre : Cert.Pre_Kernel m) :
    Cert.Proof.Spec.InRange (Cert.Proof.K.tbl m 0) (Cert.Proof.K.tbl m 1) :=
  inRange_congr ((Cert.Proof.K.V_pre m 0 0).symm.trans (Cert.Proof.K.V_main_arg1 m 0))
    ((Cert.Proof.K.V_pre m 0 1).symm.trans (Cert.Proof.K.V_main_arg2 m 0))
    (Cert.Proof.KI.pre_inRange (F := Bits) _ _ _ _ _ (hpre 0))

/-- The same for the kernel over the extended reals. -/
theorem range_KI (m : (ℓ : Loc Cert.KernelIdeal.nD Cert.KernelIdeal.τ Cert.KernelIdeal.sig) → Buf (Elt Ideal) ℓ) (hpre : Cert.Pre_KernelIdeal m) :
    Cert.Proof.Spec.InRange (Cert.Proof.KI.tbl m 0) (Cert.Proof.KI.tbl m 1) :=
  inRange_congr ((Cert.Proof.KI.V_pre m 0 0).symm.trans (Cert.Proof.KI.V_main_arg1 m 0))
    ((Cert.Proof.KI.V_pre m 0 1).symm.trans (Cert.Proof.KI.V_main_arg2 m 0))
    (Cert.Proof.KI.pre_inRange (F := Ideal) _ _ _ _ _ (hpre 0))

/-- The reference reads the two tables as arrays of its launch memory: the precondition puts them in range. -/
theorem range_R (m : (ℓ : Loc Cert.ReferenceIdeal.nD Cert.ReferenceIdeal.τ Cert.ReferenceIdeal.sig) → Buf (Elt Ideal) ℓ) (hpre : Cert.Pre_ReferenceIdeal m)
    (c : Dev Cert.ReferenceIdeal.nD) :
    Cert.Proof.Spec.InRange (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) :=
  Cert.Proof.KI.pre_inRange (F := Ideal) _ _ _ _ _ (hpre c)

/-! ## The five parts -/

/-- The word-level kernel's frame: its frame run at tables in range. -/
theorem frame_k : Cert.frame_Kernel := fun m ρ hpre => Cert.Proof.K.frame (F := Bits) m ρ (range_K m hpre)

/-- The frame of the kernel over the extended reals: the same run at the other float instance. -/
theorem frame_ki : Cert.frame_KernelIdeal := fun m ρ hpre => Cert.Proof.KI.frame (F := Ideal) m ρ (range_KI m hpre)

/-- The reference's frame: its run, the result forgotten. -/
theorem frame_ri : Cert.frame_ReferenceIdeal := fun m ρ hpre =>
  (θ_run (Cert.ReferenceIdeal.defs (F := Ideal)) _ _).mono (fun _ h c => (h c).2)
    (Cert.Proof.Ref.ref_run m ρ (range_R m hpre))

/-- No operation was rewritten on the way to the extended reals: nothing is asked. -/
theorem preserves : Cert.preserves_Kernel_KernelIdeal := trivial

/-- Over the extended reals the kernel's result is the patch-embedding function of its arguments and the reference's
    result is the same function of its own; the arguments agree (so the reference's tables are in range as the kernel's
    are), hence the results are equal. -/
theorem algebraic : Cert.algebraic_KernelIdeal_ReferenceIdeal := by
  intro m ρ m' ρ' hpre hagree
  have hr' : ∀ c : Dev Cert.ReferenceIdeal.nD, Cert.Proof.Spec.InRange
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) :=
    fun c => inRange_congr (hagree c).2.1 (hagree c).2.2.1 (Cert.Proof.KI.pre_inRange (F := Ideal) _ _ _ _ _ (hpre c))
  refine ⟨fun c => Cert.Proof.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Proof.KI.run_value m ρ (range_KI m hpre), ?_⟩
  exact (θ_run (Cert.ReferenceIdeal.defs (F := Ideal)) _ _).mono
    (fun _ h c => ⟨(h c).1.trans (out_congr (hagree c).1 (hagree c).2.1 (hagree c).2.2.1 (hagree c).2.2.2.1 (hagree c).2.2.2.2),
      (h c).2⟩)
    (Cert.Proof.Ref.ref_run m' ρ' hr')

/-- The claim: the four witnesses of the stated shape facts, then the five parts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
